-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1600000 : S_.BroadcastsInDim S1600000 (![] : Fin 0 → Fin S1600000.rank)
  reducesTo_S1600000_S_d0 : S1600000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_arg4 : IVec S1600000 32) (main_arg6 : IVec S1600000 32) (main_v98 : IVec S_ 1) (main_v100 : IVec S1600000 1) (main_v101 : IVec S1600000 32) : IVec S_ 1 :=
  let main_v102 : IVec S1600000 1 := cmpi .slt main_arg4 main_v101
  let main_v103 : IVec S1600000 1 := andi main_v100 main_v102
  let main_c_40 : IVec S_ 1 := constantI S_ 1 1#1
  let main_v104 : IVec S_ 1 := (fun x v => Host.reduce IntOp.andi x v reducesTo_S1600000_S_d0 h_S_) main_v103 main_c_40
  let main_v105 : IVec S_ 1 := andi main_v98 main_v104
  let main_c_41 : IVec S_ 32 := constantI S_ 32 0#32
  let main_v106 : IVec S1600000 32 := broadcastInDim S1600000 ![] bcast_S_S1600000 main_c_41
  let main_v107 : IVec S1600000 1 := cmpi .sge main_arg6 main_v106
  let main_c_42 : IVec S_ 32 := constantI S_ 32 100000#32
  let main_v108 : IVec S1600000 32 := broadcastInDim S1600000 ![] bcast_S_S1600000 main_c_42
  let main_v109 : IVec S1600000 1 := cmpi .slt main_arg6 main_v108
  let main_v110 : IVec S1600000 1 := andi main_v107 main_v109
  let main_c_43 : IVec S_ 1 := constantI S_ 1 1#1
  let main_v111 : IVec S_ 1 := (fun x v => Host.reduce IntOp.andi x v reducesTo_S1600000_S_d0 h_S_) main_v110 main_c_43
  let main_v112 : IVec S_ 1 := andi main_v105 main_v111
  main_v112

def fn_part5 {F : FTy → Type} [FloatOps F] (main_arg4 : IVec S1600000 32) (main_arg6 : IVec S1600000 32) (main_arg22 : FVec F S128x256 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x256 .f32 := Host.absf main_arg22
  let main_cst_34 : FVec F S_ .f32 := constant S_ .f32 0x7F800000#32
  let main_v90 : FVec F S128x256 .f32 := broadcastInDim S128x256 ![] bcast_S_S128x256 main_cst_34
  let main_v91 : IVec S128x256 1 := cmpf .olt main_v89 main_v90
  let main_c_35 : IVec S_ 1 := constantI S_ 1 1#1
  let main_v92 : IVec S_ 1 := (fun x v => Host.reduce IntOp.andi x v reducesTo_S128x256_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_c_38 : IVec S_ 32 := constantI S_ 32 0#32
  let main_v99 : IVec S1600000 32 := broadcastInDim S1600000 ![] bcast_S_S1600000 main_c_38
  let main_v100 : IVec S1600000 1 := cmpi .sge main_arg4 main_v99
  let main_c_39 : IVec S_ 32 := constantI S_ 32 10000#32
  let main_v101 : IVec S1600000 32 := broadcastInDim S1600000 ![] bcast_S_S1600000 main_c_39
  fn_part6 (F := F) main_arg4 main_arg6 main_v98 main_v100 main_v101

def fn_part4 {F : FTy → Type} [FloatOps F] (main_arg4 : IVec S1600000 32) (main_arg6 : IVec S1600000 32) (main_arg18 : FVec F S128x128 .f32) (main_arg19 : FVec F S128 .f32) (main_arg20 : FVec F S128x256 .f32) (main_arg21 : FVec F S128 .f32) (main_arg22 : FVec F S128x256 .f32) (main_arg23 : FVec F S128 .f32) (main_v63 : IVec S_ 1) (main_v67 : IVec S_ 1) : IVec S_ 1 :=
  let main_v68 : IVec S_ 1 := andi main_v63 main_v67
  let main_v69 : FVec F S128x128 .f32 := Host.absf main_arg18
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x256 .f32 := Host.absf main_arg20
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg4 main_arg6 main_arg22 main_arg23 main_v83 main_v84 main_cst_32

def fn_part3 {F : FTy → Type} [FloatOps F] (main_arg4 : IVec S1600000 32) (main_arg6 : IVec S1600000 32) (main_arg15 : FVec F S128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S128x256 .f32) (main_arg23 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg6 main_arg18 main_arg19 main_arg20 main_arg21 main_arg22 main_arg23 main_v63 main_v67

def fn_part2 {F : FTy → Type} [FloatOps F] (main_arg4 : IVec S1600000 32) (main_arg6 : IVec S1600000 32) (main_arg11 : FVec F S2x128x128 .f32) (main_arg12 : FVec F S2x128x128 .f32) (main_arg13 : FVec F S2x128 .f32) (main_arg14 : FVec F S128x256 .f32) (main_arg15 : FVec F S128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S128x256 .f32) (main_arg23 : FVec F S128 .f32) (main_v33 : IVec S_ 1) : IVec S_ 1 :=
  let main_v34 : FVec F S2x128x128 .f32 := Host.absf main_arg11
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128x128 .f32 := Host.absf main_arg12
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg13
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S128x256 .f32 := Host.absf main_arg14
  let main_cst_18 : FVec F S_ .f32 := constant S_ .f32 0x7F800000#32
  let main_v50 : FVec F S128x256 .f32 := broadcastInDim S128x256 ![] bcast_S_S128x256 main_cst_18
  fn_part3 (F := F) main_arg4 main_arg6 main_arg15 main_arg16 main_arg17 main_arg18 main_arg19 main_arg20 main_arg21 main_arg22 main_arg23 main_v48 main_v49 main_v50

def fn_part1 {F : FTy → Type} [FloatOps F] (main_arg4 : IVec S1600000 32) (main_arg6 : IVec S1600000 32) (main_arg8 : FVec F S2x128x128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S128x256 .f32) (main_arg15 : FVec F S128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S128x256 .f32) (main_arg23 : FVec F S128 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S2x128x128 .f32 := Host.absf main_arg8
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg9
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg10
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg4 main_arg6 main_arg11 main_arg12 main_arg13 main_arg14 main_arg15 main_arg16 main_arg17 main_arg18 main_arg19 main_arg20 main_arg21 main_arg22 main_arg23 main_v33

def fn {F : FTy → Type} [FloatOps F] (main_arg0 : FVec F S10000x128 .f32) (main_arg1 : FVec F S100000x128 .f32) (main_arg2 : FVec F S10000x128 .f32) (main_arg3 : FVec F S1600000 .f32) (main_arg4 : IVec S1600000 32) (main_arg5 : IVec S1600000 32) (main_arg6 : IVec S1600000 32) (main_arg7 : IVec S1600000 32) (main_arg8 : FVec F S2x128x128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S128x256 .f32) (main_arg15 : FVec F S128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S128x256 .f32) (main_arg23 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_arg6 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S10000x128 : Shape := ⟨2, ![10000, 128]⟩
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S2000x128 : Shape := ⟨2, ![2000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128x128 : Shape := ⟨3, ![1, 128, 128]⟩

abbrev nBuf : Space → Nat
  | .hbm => 160
  | .vmem => 47
  | .smem => 0
  | _ => 0

abbrev hbmTy0_0 (i : Nat) : BufTy := match i % 128 with
  | 0 => ⟨S10000x128, .f32⟩
  | 1 => ⟨S100000x128, .f32⟩
  | 2 => ⟨S10000x128, .f32⟩
  | 3 => ⟨S1600000, .f32⟩
  | 4 => ⟨S1600000, .i32⟩
  | 5 => ⟨S1600000, .i32⟩
  | 6 => ⟨S1600000, .i32⟩
  | 7 => ⟨S1600000, .i32⟩
  | 8 => ⟨S2x128x128, .f32⟩
  | 9 => ⟨S2x128x128, .f32⟩
  | 10 => ⟨S2x128, .f32⟩
  | 11 => ⟨S2x128x128, .f32⟩
  | 12 => ⟨S2x128x128, .f32⟩
  | 13 => ⟨S2x128, .f32⟩
  | 14 => ⟨S128x256, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x256, .f32⟩
  | 21 => ⟨S128, .f32⟩
  | 22 => ⟨S128x256, .f32⟩
  | 23 => ⟨S128, .f32⟩
  | 24 => ⟨S128x128, .f32⟩
  | 25 => ⟨S128x128, .f32⟩
  | 26 => ⟨S128x128, .f32⟩
  | 27 => ⟨S128x128, .f32⟩
  | 28 => ⟨S2x128x128, .f32⟩
  | 29 => ⟨S2x128x128, .f32⟩
  | 30 => ⟨S2x128x128, .f32⟩
  | 31 => ⟨S2x128x128, .f32⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S128x128, .f32⟩
  | 41 => ⟨S128x128, .f32⟩
  | 42 => ⟨S1x128, .f32⟩
  | 43 => ⟨S10000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1, .i32⟩
  | 53 => ⟨S_, .i32⟩
  | 54 => ⟨S1600000x1, .i32⟩
  | 55 => ⟨S1600000x1, .i1⟩
  | 56 => ⟨S1x1, .i32⟩
  | 57 => ⟨S1600000x1, .i32⟩
  | 58 => ⟨S1600000x1, .i1⟩
  | 59 => ⟨S1600000x1, .i1⟩
  | 60 => ⟨S_, .i1⟩
  | 61 => ⟨S1600000, .i1⟩
  | 62 => ⟨S1600000x128, .f32⟩
  | 63 => ⟨S1600000x128, .i1⟩
  | 64 => ⟨S_, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S1x128x128, .f32⟩
  | 84 => ⟨S128x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S1x128, .f32⟩
  | 97 => ⟨S1x128, .f32⟩
  | 98 => ⟨S1x128, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1, .i32⟩
  | 110 => ⟨S_, .i32⟩
  | 111 => ⟨S1600000x1, .i32⟩
  | 112 => ⟨S1600000x1, .i1⟩
  | 113 => ⟨S1x1, .i32⟩
  | 114 => ⟨S1600000x1, .i32⟩
  | 115 => ⟨S1600000x1, .i1⟩
  | 116 => ⟨S1600000x1, .i1⟩
  | 117 => ⟨S_, .i1⟩
  | 118 => ⟨S1600000, .i1⟩
  | 119 => ⟨S1600000x128, .f32⟩
  | 120 => ⟨S1600000x128, .i1⟩
  | 121 => ⟨S_, .f32⟩
  | 122 => ⟨S1600000x128, .f32⟩
  | 123 => ⟨S1600000x128, .f32⟩
  | 124 => ⟨S1600000x1, .f32⟩
  | 125 => ⟨S1600000x128, .f32⟩
  | 126 => ⟨S1600000x128, .f32⟩
  | 127 => ⟨S_, .f32⟩
  | _ => ⟨S10000x128, .f32⟩

abbrev hbmTy0_1 (i : Nat) : BufTy := match i % 128 with
  | 0 => ⟨S100000x128, .f32⟩
  | 1 => ⟨S1600000x1, .i32⟩
  | 2 => ⟨S100000x128, .f32⟩
  | 3 => ⟨S_, .f32⟩
  | 4 => ⟨S1600000, .f32⟩
  | 5 => ⟨S_, .f32⟩
  | 6 => ⟨S100000, .f32⟩
  | 7 => ⟨S1600000x1, .i32⟩
  | 8 => ⟨S100000, .f32⟩
  | 9 => ⟨S_, .f32⟩
  | 10 => ⟨S100000, .f32⟩
  | 11 => ⟨S100000, .f32⟩
  | 12 => ⟨S100000x1, .f32⟩
  | 13 => ⟨S100000x128, .f32⟩
  | 14 => ⟨S100000x128, .f32⟩
  | 15 => ⟨S1x128x128, .f32⟩
  | 16 => ⟨S128x128, .f32⟩
  | 17 => ⟨S1x128x128, .f32⟩
  | 18 => ⟨S128x128, .f32⟩
  | 19 => ⟨S1x128, .f32⟩
  | 20 => ⟨S128, .f32⟩
  | 21 => ⟨S1x128x128, .f32⟩
  | 22 => ⟨S128x128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S1x128, .f32⟩
  | 29 => ⟨S1x128, .f32⟩
  | 30 => ⟨S1x128, .f32⟩
  | 31 => ⟨S100000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S128x128, .f32⟩
  | .local _ .vmem, ⟨44, _⟩ => ⟨S1x128, .f32⟩
  | .local _ .vmem, ⟨45, _⟩ => ⟨S2000x128, .f32⟩
  | .local _ .vmem, ⟨46, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v20 : Ref sig .tc := ⟨.hbm, 66, rfl⟩
abbrev main_cst : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_0 : Ref sig .tc := ⟨.hbm, 71, rfl⟩
abbrev main_v24 : Ref sig .tc := ⟨.hbm, 72, rfl⟩
abbrev main_cst_1 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_2 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49_0 : Ref sig .tc := ⟨.hbm, 99, rfl⟩
abbrev main_v49_1 : Ref sig .tc := ⟨.hbm, 100, rfl⟩
abbrev main_call1_c : Ref sig .tc := ⟨.hbm, 101, rfl⟩
abbrev main_call1_v0 : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_c_1 : Ref sig .tc := ⟨.hbm, 109, rfl⟩
abbrev main_call1_c_2 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_3 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_call1_cst : Ref sig .tc := ⟨.hbm, 121, rfl⟩
abbrev main_call1_v15 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_cst_3 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_cst_4 : Ref sig .tc := ⟨.hbm, 131, rfl⟩
abbrev main_v57 : Ref sig .tc := ⟨.hbm, 132, rfl⟩
abbrev main_cst_5 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_cst_6 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg13_1 : Ref sig .tc := ⟨.vmem, 25, rfl⟩
abbrev cc1_stg14_0 : Ref sig .tc := ⟨.vmem, 26, rfl⟩
abbrev cc1_stg14_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg13_0 : Ref sig .tc := ⟨.vmem, 44, rfl⟩
abbrev cc2_stg14_0 : Ref sig .tc := ⟨.vmem, 45, rfl⟩
abbrev cc2_stg14_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem13_1 : DmaSem sig := 25
abbrev cc1_sem14_0 : DmaSem sig := 26
abbrev cc1_sem14_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem13_0 : DmaSem sig := 44
abbrev cc2_sem14_0 : DmaSem sig := 45
abbrev cc2_sem14_1 : DmaSem sig := 46

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S2000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S2000x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  transposes_S2x128x128_S2x128x128_0_2_1 : S2x128x128.Transposes [0, 2, 1] S2x128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  shapeCasts_S2000x128_S2000x128 : S2000x128.ShapeCasts S2000x128
  bcast_S1600000x1_S1600000x128_0_1 : S1600000x1.BroadcastsInDim S1600000x128 (![0, 1] : Fin 2 → Fin S1600000x128.rank)
  dot_S2000x128_S128x128_S2000x128_1_0_0_1_n_n_wf : DotDims.WF S2000x128 S128x128 S2000x128 [1] [0] [0] [1] [] []
  gather_S10000x128_S1600000x1_S1600000x128_1_0_n_n_0_1_1128_wf : GatherDims.WF S10000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x128.size a ≤ S100000x128.size a
  hwx1_13 : ∀ i : grid1.Coords, EltTy.bits .f32 = 32 ∨ (Rect.block (s := S100000x128) S2000x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x128.size a ≤ S100000x128.size a
  hwx1_14 : ∀ i : grid1.Coords, EltTy.bits .f32 = 32 ∨ (Rect.block (s := S100000x128) S2000x128.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .f32 = 32 ∨ (Rect.block (s := S128x128) S128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x128.size a ≤ S100000x128.size a
  hwx2_14 : ∀ i : grid2.Coords, EltTy.bits .f32 = 32 ∨ (Rect.block (s := S100000x128) S2000x128.size (cc2_transform_14 i) (hinb2_14 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S1600000x1_S1600000x128_1_0_n_n_0_1_1128 : GatherDims S10000x128 S1600000x1 S1600000x128 where
  offsetDims := [1]
  collapsedSliceDims := [0]
  operandBatchingDims := []
  startIndicesBatchingDims := []
  startIndexMap := [0]
  indexVectorDim := 1
  sliceSizes := ![1, 128]
  wf := gather_S10000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v13) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v48) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v49_0) S2000x128.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v49_1) S2000x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49_0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v75) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v79) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v9) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v80) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v15) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v17) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v81) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v82) S2000x128.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S10000x128 : Shape := ⟨2, ![10000, 128]⟩
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S128x256 : Shape := ⟨2, ![128, 256]⟩
abbrev S128 : Shape := ⟨1, ![128]⟩
abbrev S128x128 : Shape := ⟨2, ![128, 128]⟩
abbrev S10000x256 : Shape := ⟨2, ![10000, 256]⟩
abbrev S256x128 : Shape := ⟨2, ![256, 128]⟩
abbrev S1x128 : Shape := ⟨2, ![1, 128]⟩
abbrev S1x128x128 : Shape := ⟨3, ![1, 128, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩

abbrev nBuf : Space → Nat
  | .hbm => 227
  | .vmem => 0
  | .smem => 0
  | _ => 0

abbrev hbmTy0_0 (i : Nat) : BufTy := match i % 128 with
  | 0 => ⟨S10000x128, .f32⟩
  | 1 => ⟨S100000x128, .f32⟩
  | 2 => ⟨S10000x128, .f32⟩
  | 3 => ⟨S1600000, .f32⟩
  | 4 => ⟨S1600000, .i32⟩
  | 5 => ⟨S1600000, .i32⟩
  | 6 => ⟨S1600000, .i32⟩
  | 7 => ⟨S1600000, .i32⟩
  | 8 => ⟨S2x128x128, .f32⟩
  | 9 => ⟨S2x128x128, .f32⟩
  | 10 => ⟨S2x128, .f32⟩
  | 11 => ⟨S2x128x128, .f32⟩
  | 12 => ⟨S2x128x128, .f32⟩
  | 13 => ⟨S2x128, .f32⟩
  | 14 => ⟨S128x256, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x256, .f32⟩
  | 21 => ⟨S128, .f32⟩
  | 22 => ⟨S128x256, .f32⟩
  | 23 => ⟨S128, .f32⟩
  | 24 => ⟨S10000x256, .f32⟩
  | 25 => ⟨S256x128, .f32⟩
  | 26 => ⟨S10000x128, .f32⟩
  | 27 => ⟨S1x128, .f32⟩
  | 28 => ⟨S10000x128, .f32⟩
  | 29 => ⟨S10000x128, .f32⟩
  | 30 => ⟨S1x128x128, .f32⟩
  | 31 => ⟨S128x128, .f32⟩
  | 32 => ⟨S1x128x128, .f32⟩
  | 33 => ⟨S128x128, .f32⟩
  | 34 => ⟨S1x128, .f32⟩
  | 35 => ⟨S128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S_, .f32⟩
  | 50 => ⟨S1600000, .f32⟩
  | 51 => ⟨S_, .f32⟩
  | 52 => ⟨S100000, .f32⟩
  | 53 => ⟨S1600000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S128x128, .f32⟩
  | 62 => ⟨S100000x128, .f32⟩
  | 63 => ⟨S128x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S1x128x128, .f32⟩
  | 73 => ⟨S128x128, .f32⟩
  | 74 => ⟨S1x128x128, .f32⟩
  | 75 => ⟨S128x128, .f32⟩
  | 76 => ⟨S1x128, .f32⟩
  | 77 => ⟨S128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S_, .f32⟩
  | 92 => ⟨S1600000, .f32⟩
  | 93 => ⟨S_, .f32⟩
  | 94 => ⟨S100000, .f32⟩
  | 95 => ⟨S1600000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S128x128, .f32⟩
  | 104 => ⟨S100000x128, .f32⟩
  | 105 => ⟨S128x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S128x128, .f32⟩
  | 112 => ⟨S100000x128, .f32⟩
  | 113 => ⟨S1x128, .f32⟩
  | 114 => ⟨S100000x128, .f32⟩
  | 115 => ⟨S100000x128, .f32⟩
  | 116 => ⟨S100000x256, .f32⟩
  | 117 => ⟨S256x128, .f32⟩
  | 118 => ⟨S100000x128, .f32⟩
  | 119 => ⟨S1x128, .f32⟩
  | 120 => ⟨S100000x128, .f32⟩
  | 121 => ⟨S100000x128, .f32⟩
  | 122 => ⟨S1x128x128, .f32⟩
  | 123 => ⟨S128x128, .f32⟩
  | 124 => ⟨S1x128x128, .f32⟩
  | 125 => ⟨S128x128, .f32⟩
  | 126 => ⟨S1x128, .f32⟩
  | 127 => ⟨S128, .f32⟩
  | _ => ⟨S10000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S1600000x1, .f32⟩
  | 10 => ⟨S1600000x128, .f32⟩
  | 11 => ⟨S1600000x128, .f32⟩
  | 12 => ⟨S_, .f32⟩
  | 13 => ⟨S100000x128, .f32⟩
  | 14 => ⟨S1600000x1, .i32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x128, .f32⟩
  | 27 => ⟨S100000x128, .f32⟩
  | 28 => ⟨S128x128, .f32⟩
  | 29 => ⟨S100000x128, .f32⟩
  | 30 => ⟨S128x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S1x128x128, .f32⟩
  | 40 => ⟨S128x128, .f32⟩
  | 41 => ⟨S1x128x128, .f32⟩
  | 42 => ⟨S128x128, .f32⟩
  | 43 => ⟨S1x128, .f32⟩
  | 44 => ⟨S128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S_, .f32⟩
  | 62 => ⟨S1600000, .f32⟩
  | 63 => ⟨S_, .f32⟩
  | 64 => ⟨S100000, .f32⟩
  | 65 => ⟨S1600000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S128x128, .f32⟩
  | 74 => ⟨S100000x128, .f32⟩
  | 75 => ⟨S128x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S128x128, .f32⟩
  | 82 => ⟨S100000x128, .f32⟩
  | 83 => ⟨S1x128, .f32⟩
  | 84 => ⟨S100000x128, .f32⟩
  | 85 => ⟨S100000x128, .f32⟩
  | 86 => ⟨S100000x256, .f32⟩
  | 87 => ⟨S256x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .i1⟩
  | 95 => ⟨S_, .f32⟩
  | 96 => ⟨S100000x128, .f32⟩
  | 97 => ⟨S100000x128, .f32⟩
  | 98 => ⟨S100000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_1 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call0_cst : Ref sig .tc := ⟨.hbm, 69, rfl⟩
abbrev main_call0_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_4 : Ref sig .tc := ⟨.hbm, 78, rfl⟩
abbrev main_v46 : Ref sig .tc := ⟨.hbm, 79, rfl⟩
abbrev main_v47 : Ref sig .tc := ⟨.hbm, 80, rfl⟩
abbrev main_c_5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_7 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_9 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_10 : Ref sig .tc := ⟨.hbm, 128, rfl⟩
abbrev main_v90 : Ref sig .tc := ⟨.hbm, 129, rfl⟩
abbrev main_v91 : Ref sig .tc := ⟨.hbm, 130, rfl⟩
abbrev main_c_11 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_12 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_13 : Ref sig .tc := ⟨.hbm, 144, rfl⟩
abbrev main_v103 : Ref sig .tc := ⟨.hbm, 145, rfl⟩
abbrev main_cst_14 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_15 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_call1_cst : Ref sig .tc := ⟨.hbm, 164, rfl⟩
abbrev main_call1_v0 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_16 : Ref sig .tc := ⟨.hbm, 173, rfl⟩
abbrev main_v127 : Ref sig .tc := ⟨.hbm, 174, rfl⟩
abbrev main_v128 : Ref sig .tc := ⟨.hbm, 175, rfl⟩
abbrev main_c_17 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_18 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_19 : Ref sig .tc := ⟨.hbm, 189, rfl⟩
abbrev main_v140 : Ref sig .tc := ⟨.hbm, 190, rfl⟩
abbrev main_cst_20 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_21 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_22 : Ref sig .tc := ⟨.hbm, 220, rfl⟩
abbrev main_v168 : Ref sig .tc := ⟨.hbm, 221, rfl⟩
abbrev main_v169 : Ref sig .tc := ⟨.hbm, 222, rfl⟩
abbrev main_cst_23 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  concatenates_S100000x128_S100000x128_S100000x256_d1 : Shape.Concatenates [S100000x128, S100000x128] S100000x256 1
  bcast_S1600000x1_S1600000x128_0_1 : S1600000x1.BroadcastsInDim S1600000x128 (![0, 1] : Fin 2 → Fin S1600000x128.rank)
  dot_S10000x256_S256x128_S10000x128_1_0_0_1_n_n_wf : DotDims.WF S10000x256 S256x128 S10000x128 [1] [0] [0] [1] [] []
  gather_S10000x128_S1600000x1_S1600000x128_1_0_n_n_0_1_1128_wf : GatherDims.WF S10000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S1600000x1_S1600000x128_1_0_n_n_0_1_1128 : GatherDims S10000x128 S1600000x1 S1600000x128 where
  offsetDims := [1]
  collapsedSliceDims := [0]
  operandBatchingDims := []
  startIndicesBatchingDims := []
  startIndexMap := [0]
  indexVectorDim := 1
  sliceSizes := ![1, 128]
  wf := gather_S10000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

class Facts : Prop extends Facts₀ where

variable [Facts]
-- ==== Proof.Spec.lean ====
/-
  The mathematics both programs compute, stated once, row by row.

  Every dense stage of this network acts on ONE row of its row-tiled operands: a row `x : Fin 128 → EReal` meets a
  weight matrix `w` (contraction index first) as `(x · w) j = ∑ k, x k * w k j`. A SAGE layer is two such products and a
  bias; the two stacked layers followed by a linear map are `sage2`; the last stage joins two rows by two products and
  applies the leaky rectifier. The array-level functions below read the rows out of whole arrays and the weight
  matrices out of the argument arrays as the reference indexes them (`x @ W.T`: `w k j = W[j, k]`; the two halves of a
  `[128, 256]` matrix for a concatenated operand).
-/
import Idealize.ShloMosaic.PureOps.Ideal.Laws
import Idealize.ShloMosaic.Lib.ValueIdx

noncomputable section

namespace Cert.Spec

open Idealize.ShloMosaic Idealize.ShloMosaic.ValueIdx

/-- A row of 128 features. -/
abbrev Row := Fin 128 → EReal
/-- A weight matrix, contraction index first. -/
abbrev Mat := Fin 128 → Fin 128 → EReal

/-- A row times a matrix. -/
def rmm (x : Row) (w : Mat) : Row := fun j => ∑ k, x k * w k j

/-- Two products and a bias. -/
def lin2 (a b : Row) (wa wb : Mat) (bias : Row) : Row := fun j => (rmm a wa j + rmm b wb j) + bias j

/-- One product and a bias. -/
def lin1 (a : Row) (w : Mat) (bias : Row) : Row := fun j => rmm a w j + bias j

/-- The rectifier, against the f32 zero word. -/
def relu0 (x : Row) : Row := fun j => max (x j) (Ideal.ofBits .f32 0x00000000#32)

/-- Two stacked SAGE layers (the first rectified) and a linear map after them. -/
def sage2 (e nb : Row) (s0 n0 : Mat) (b0 : Row) (s1 n1 : Mat) (b1 : Row) (w : Mat) (bw : Row) : Row :=
  lin1 (lin2 (relu0 (lin2 e nb s0 n0 b0)) nb s1 n1 b1) w bw

/-- The leaky rectifier with the slope word 0x3E4CCCCD. -/
def leaky (h : Row) : Row := fun j =>
  Scalar.select (FloatOps.cmpf (F := Ideal) (φ := .f32) .oge (h j) (Ideal.ofBits .f32 0x00000000#32)) (h j)
    (Ideal.ofBits .f32 0x3E4CCCCD#32 * h j)

/-! ## Rows and matrices read out of arrays -/

abbrev A2 (n : Nat) := (⟨2, ![n, 128]⟩ : Shape).Idx → EReal
abbrev W22 := (⟨2, ![128, 128]⟩ : Shape).Idx → EReal
abbrev W2w := (⟨2, ![128, 256]⟩ : Shape).Idx → EReal
abbrev W3 := (⟨3, ![2, 128, 128]⟩ : Shape).Idx → EReal
abbrev B1 := (⟨1, ![128]⟩ : Shape).Idx → EReal
abbrev B2 := (⟨2, ![2, 128]⟩ : Shape).Idx → EReal
abbrev B1r := (⟨2, ![1, 128]⟩ : Shape).Idx → EReal

/-- Row `r` of an array. -/
def rowOf {n : Nat} (X : A2 n) (r : Fin n) : Row := fun k => X (ix2 r k)

/-- A matrix as stored, contraction index first (a block already transposed). -/
def matOf (W : W22) : Mat := fun k j => W (ix2 k j)
/-- The one row of a `[1, 128]` array. -/
def rowb (b : B1r) : Row := fun j => b (ix2 0 j)

/-- `x @ W.T`. -/
def matT (W : W22) : Mat := fun k j => W (ix2 j k)
/-- `x @ W[l].T`. -/
def matT3 (W : W3) (l : Fin 2) : Mat := fun k j => W (ix3 l j k)
/-- `x @ W[:, :128].T` and `x @ W[:, 128:].T`. -/
def matTlo (W : W2w) : Mat := fun k j => W (ix2 j (Fin.castAdd 128 k))
def matThi (W : W2w) : Mat := fun k j => W (ix2 j (Fin.natAdd 128 k))
def row1 (b : B1) : Row := fun j => b (ix1 j)
def row2 (b : B2) (l : Fin 2) : Row := fun j => b (ix2 l j)

/-! ## The four dense stages as whole-array functions -/

/-- `[ii ; k_emb] @ w4.T + w4_b`. -/
def II2 (ii kemb : A2 10000) (w4 : W2w) (w4b : B1) : A2 10000 := fun i =>
  lin2 (rowOf ii (i 0)) (rowOf kemb (i 0)) (matTlo w4) (matThi w4) (row1 w4b) (i 1)

/-- The knowledge-to-employee stack followed by `w2`. -/
def HI (e nb : A2 100000) (eks ekn : W3) (ekb : B2) (w2 : W22) (w2b : B1) : A2 100000 := fun i =>
  sage2 (rowOf e (i 0)) (rowOf nb (i 0)) (matT3 eks 0) (matT3 ekn 0) (row2 ekb 0) (matT3 eks 1) (matT3 ekn 1) (row2 ekb 1)
    (matT w2) (row1 w2b) (i 1)

/-- `[h_iI ; e] @ w1.T + w1_b`. -/
def SC (e nb : A2 100000) (eks ekn : W3) (ekb : B2) (w2 : W22) (w2b : B1) (w1 : W2w) (w1b : B1) : A2 100000 := fun i =>
  lin2 (rowOf (HI e nb eks ekn ekb w2 w2b) (i 0)) (rowOf e (i 0)) (matTlo w1) (matThi w1) (row1 w1b) (i 1)

/-- The employee-to-employee stack, `w3`, the join with `h_iI` and the leaky rectifier. -/
def FIN (e nc hi : A2 100000) (ees een : W3) (eeb : B2) (w3 : W22) (w3b : B1) (comb : W2w) (combb : B1) : A2 100000 := fun i =>
  leaky (lin2 (rowOf hi (i 0))
      (sage2 (rowOf e (i 0)) (rowOf nc (i 0)) (matT3 ees 0) (matT3 een 0) (row2 eeb 0) (matT3 ees 1) (matT3 een 1) (row2 eeb 1)
        (matT w3) (row1 w3b))
      (matTlo comb) (matThi comb) (row1 combb)) (i 1)

/-! ## The one law: a sum over 256 joined features is the two sums over 128 -/

theorem sum_join (f : Fin 256 → EReal) :
    ∑ k : Fin 256, f k = ∑ k : Fin 128, f (Fin.castAdd 128 k) + ∑ k : Fin 128, f (Fin.natAdd 128 k) :=
  Fin.sum_univ_add (a := 128) (b := 128) f

end Cert.Spec

end
-- ==== Proof.Glue.lean ====
/-
  The sparse stages both programs share, as functions of whole arrays: the rows of a table gathered at an index array,
  the optional scaling of each gathered row by its edge weight, and the mean over the edges that end at each node
  (the scatter-added rows divided by the scatter-added count, the count floored at one).
  These are the host operations exactly as both programs apply them; nothing here opens a gather or a scatter.
-/
import proofs.«428482_j83468394431314_1_alg».proof.Proof.Gen.KernelIdeal
import proofs.«428482_j83468394431314_1_alg».proof.Proof.Spec

noncomputable section

namespace Cert.Glue

open Idealize.ShloMosaic Cert.KernelIdeal Cert.KernelIdeal.Facts₀ Cert.KernelIdeal.Facts

/-- Rows of a 10000-row table at the (one-column) index array made of `idx`. -/
def gatherB (X : FVec Ideal S10000x128 .f32) (idx : IVec S1600000 32) : FVec Ideal S1600000x128 .f32 :=
  Host.gather gather_S10000x128_S1600000x1_S1600000x128_1_0_n_n_0_1_1128 X
    (broadcastInDim S1600000x1 ![0] bcast_S1600000_S1600000x1_0 idx)

/-- Rows of a 100000-row table at the (one-column) index array made of `idx`. -/
def gatherC (X : FVec Ideal S100000x128 .f32) (idx : IVec S1600000 32) : FVec Ideal S1600000x128 .f32 :=
  Host.gather gather_S100000x128_S1600000x1_S1600000x128_1_0_n_n_0_1_1128 X
    (broadcastInDim S1600000x1 ![0] bcast_S1600000_S1600000x1_0 idx)

/-- Each edge's row scaled by the edge's weight. -/
def wMul (M : FVec Ideal S1600000x128 .f32) (ew : FVec Ideal S1600000 .f32) : FVec Ideal S1600000x128 .f32 :=
  mulf M (broadcastInDim S1600000x128 ![0, 1] bcast_S1600000x1_S1600000x128_0_1
    (broadcastInDim S1600000x1 ![0] bcast_S1600000_S1600000x1_0 ew))

/-- The mean of the edge rows `M` over the edges whose destination is each node: the scatter-added rows over the
    scatter-added count floored at one. -/
def segMean (M : FVec Ideal S1600000x128 .f32) (dst : IVec S1600000 32) : FVec Ideal S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst) M)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- Every index of `idx` lies in `[0, n)`, read as a signed word. -/
def InRange (idx : IVec S1600000 32) (n : Nat) : Prop := ∀ i, 0 ≤ (idx i).toInt ∧ (idx i).toInt < n

/-- The whole network as one function of the 24 argument arrays. -/
def OUT (a0 : FVec Ideal S10000x128 .f32) (a1 : FVec Ideal S100000x128 .f32) (a2 : FVec Ideal S10000x128 .f32)
    (a3 : FVec Ideal S1600000 .f32) (a4 a5 a6 a7 : IVec S1600000 32)
    (a8 a9 : FVec Ideal S2x128x128 .f32) (a10 : FVec Ideal S2x128 .f32)
    (a11 a12 : FVec Ideal S2x128x128 .f32) (a13 : FVec Ideal S2x128 .f32)
    (a14 : FVec Ideal S128x256 .f32) (a15 : FVec Ideal S128 .f32) (a16 : FVec Ideal S128x128 .f32) (a17 : FVec Ideal S128 .f32)
    (a18 : FVec Ideal S128x128 .f32) (a19 : FVec Ideal S128 .f32) (a20 : FVec Ideal S128x256 .f32) (a21 : FVec Ideal S128 .f32)
    (a22 : FVec Ideal S128x256 .f32) (a23 : FVec Ideal S128 .f32) : FVec Ideal S100000x128 .f32 :=
  let nb := segMean (gatherB (Spec.II2 a0 a2 a20 a21) a4) a5
  let nc := segMean (wMul (gatherC (Spec.SC a1 nb a8 a9 a10 a16 a17 a14 a15) a6) a3) a7
  Spec.FIN a1 nc (Spec.HI a1 nb a8 a9 a10 a16 a17) a11 a12 a13 a18 a19 a22 a23

end Cert.Glue

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.KReg0.lean ====
/-
  Region 0 (the two-operand linear map): what its output array holds after the run, as a function of the argument arrays.

  The region runs over five blocks of 2000 rows. At each block the body multiplies the block of each of the two row-tiled
  operands by a whole 128 x 128 weight matrix, adds the two products and adds the bias row to every row. So row `R` of
  the output is `x R · Wa + y R · Wb + bias`, whatever block `R` falls in, and since the five blocks tile the 10000
  rows the whole output array is that row-wise function of the arrays the region finds. Those arrays are the two
  operands as launched, the transposed lower and upper halves of the `[128, 256]` weight argument and the bias argument
  laid out as one row; reading the transposes, the slices and the reshape at an index gives the specification's
  `[ii ; k_emb] @ w4.T + w4_b`.
-/
import proofs.«428482_j83468394431314_1_alg».proof.Proof.Gen.KernelIdeal.Frame
import proofs.«428482_j83468394431314_1_alg».proof.Proof.Spec
import proofs.«428482_j83468394431314_1_alg».proof.Proof.Glue
import proofs.«428482_j83468394431314_1_alg».proof.Proof.LibKeep
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KReg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The product of a block of rows with a weight matrix, at an index -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(r, j)` of the product accumulated into zero is the sum over the 128 shared features. -/
theorem matmul_rows {φ₁ φ₂ : FTy} (lhs : FVec Ideal S2000x128 φ₁) (rhs : FVec Ideal S128x128 φ₂) (r : Fin 2000) (j : Fin 128) :
    (matmul dot_S2000x128_S128x128_S2000x128_1_0_0_1_n_n none lhs rhs (constant (F := Ideal) S2000x128 .f32 0x00000000#32)) (ix2 r j)
      = ∑ k : Fin 128, lhs (ix2 r k) * rhs (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- The bias row repeated down the 2000 rows reads the bias at the column. -/
theorem bias_rows (b : FVec Ideal S1x128 .f32) (r : Fin 2000) (j : Fin 128) :
    broadcastTo S2000x128 b broadcasts_S1x128_S2000x128 (ix2 r j) = b (ix2 0 j) :=
  broadcastTo_apply b broadcasts_S1x128_S2000x128 (ix2 r j) (ix2 0 j) (fun a => match a with
    | ⟨0, _⟩ => by show (0 : Nat) = if (1 : Nat) = 1 then 0 else _; rw [if_pos rfl]
    | ⟨1, _⟩ => by show j.val = if (128 : Nat) = 1 then 0 else j.val; rw [if_neg (by decide)])

/-- The body's stored value at `(r, j)`: the two products added, plus the bias. -/
theorem pay_apply (x0 x1 : Vec Ideal S2000x128 .f32) (x2 x3 : Vec Ideal S128x128 .f32) (x4 : Vec Ideal S1x128 .f32)
    (r : Fin 2000) (j : Fin 128) :
    k0_pay1 (F := Ideal) x0 x1 x2 x3 x4 (ix2 r j)
      = ((∑ k : Fin 128, x0 (ix2 r k) * x2 (ix2 k j)) + (∑ k : Fin 128, x1 (ix2 r k) * x3 (ix2 k j))) + x4 (ix2 0 j) := by
  unfold k0_pay1
  simp only [shapeCast_self]
  rw [addf_apply, addf_apply, matmul_rows, matmul_rows, bias_rows]
  rfl

/-! ## From the blocks to the array -/

/-- The array whose every row is the two-operand linear map of the same row of the two operands. -/
abbrev rowsOut (A0 A1 : S10000x128.Idx → EReal) (Wa Wb : S128x128.Idx → EReal) (B : S1x128.Idx → EReal) : S10000x128.Idx → EReal :=
  fun i => Cert.Spec.lin2 (Cert.Spec.rowOf A0 (i 0)) (Cert.Spec.rowOf A1 (i 0)) (Cert.Spec.matOf Wa) (Cert.Spec.matOf Wb) (Cert.Spec.rowb B) (i 1)

/-- Row `r` of a block whose rows are rows `R` of the operands, against the whole weights. -/
theorem pay_rows (x0 x1 : Vec Ideal S2000x128 .f32) (x2 x3 : Vec Ideal S128x128 .f32) (x4 : Vec Ideal S1x128 .f32)
    (A0 A1 : S10000x128.Idx → EReal) (Wa Wb : S128x128.Idx → EReal) (B : S1x128.Idx → EReal)
    (r : Fin 2000) (j : Fin 128) (R : Fin 10000)
    (h0 : ∀ k : Fin 128, x0 (ix2 r k) = A0 (ix2 R k)) (h1 : ∀ k : Fin 128, x1 (ix2 r k) = A1 (ix2 R k))
    (h2 : x2 = Wa) (h3 : x3 = Wb) (h4 : x4 = B) :
    k0_pay1 (F := Ideal) x0 x1 x2 x3 x4 (ix2 r j) = rowsOut A0 A1 Wa Wb B (ix2 R j) := by
  subst h2 h3 h4
  rw [pay_apply]
  show _ = ((∑ k : Fin 128, A0 (ix2 R k) * x2 (ix2 k j)) + (∑ k : Fin 128, A1 (ix2 R k) * x3 (ix2 k j))) + x4 (ix2 0 j)
  simp only [h0, h1]

section Blocks
variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at each of the five grid points: the three row-tiled windows are at block `t`, the
    two weight matrices and the bias at block 0 (their one block is the whole array). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the first operand's block at point `t` is row `2000 t + r` of the operand. -/
theorem block_row0 (c : Dev nD) (t : Fin cfg0.N) (r : Fin 2000) (k : Fin 128) (R : Fin 10000) (hR : R.val = t.val * 2000 + r.val) :
    (iblk0 V c 0 t : Vec Ideal S2000x128 .f32) (ix2 r k) = (V c main_arg0 : S10000x128.Idx → EReal) (ix2 R k) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 2000 + 1 * r.val = R.val; rw [e0, hR]; omega
  | ⟨1, _⟩ => show win0_0.index t (1 : Fin 2) * 128 + 1 * k.val = k.val; rw [e1]; omega

/-- The same for the second operand. -/
theorem block_row1 (c : Dev nD) (t : Fin cfg0.N) (r : Fin 2000) (k : Fin 128) (R : Fin 10000) (hR : R.val = t.val * 2000 + r.val) :
    (iblk0 V c 1 t : Vec Ideal S2000x128 .f32) (ix2 r k) = (V c main_arg2 : S10000x128.Idx → EReal) (ix2 R k) := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t (0 : Fin 2) * 2000 + 1 * r.val = R.val; rw [e0, hR]; omega
  | ⟨1, _⟩ => show win0_1.index t (1 : Fin 2) * 128 + 1 * k.val = k.val; rw [e1]; omega

/-- A weight window's block is the whole weight array, at every point. -/
theorem block_wa (c : Dev nD) (t : Fin cfg0.N) : (iblk0 V c 2 t : Vec Ideal S128x128 .f32) = (V c main_v1 : S128x128.Idx → EReal) := by
  obtain ⟨-, -, -, -, e0, e1, -⟩ := index_facts t
  funext x
  unfold iblk0
  rw [View.read_apply]
  show V c main_v1 _ = V c main_v1 x
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

theorem block_wb (c : Dev nD) (t : Fin cfg0.N) : (iblk0 V c 3 t : Vec Ideal S128x128 .f32) = (V c main_v3 : S128x128.Idx → EReal) := by
  obtain ⟨-, -, -, -, -, -, e0, e1, -⟩ := index_facts t
  funext x
  unfold iblk0
  rw [View.read_apply]
  show V c main_v3 _ = V c main_v3 x
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem block_bias (c : Dev nD) (t : Fin cfg0.N) : (iblk0 V c 4 t : Vec Ideal S1x128 .f32) = (V c main_v18 : S1x128.Idx → EReal) := by
  obtain ⟨-, -, -, -, -, -, -, -, e0, e1, -⟩ := index_facts t
  funext x
  unfold iblk0
  rw [View.read_apply]
  show V c main_v18 _ = V c main_v18 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- What point `t` writes back is block `t` of the row-wise array of the operands as the region finds them. -/
theorem flushed_rows (c : Dev nD) (t : Fin cfg0.N) :
    (dat0 V c).flushed 5 t = ((cfg0.win 5).blk t).view.read (Elt Ideal)
      (rowsOut (V c main_arg0) (V c main_arg2) (V c main_v1) (V c main_v3) (V c main_v18)) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets, View.ld_unit_zero (S := S1x128) zero_offsets]
  funext y
  obtain ⟨-, -, -, -, -, -, -, -, -, -, e50, e51⟩ := index_facts t
  have hy0 : (y 0).val < 2000 := (y 0).isLt
  have hy1 : (y 1).val < 128 := (y 1).isLt
  have ht : t.val < 5 := by have h5 : cfg0.N = 5 := N_0; have := t.isLt; omega
  have hx : (cfg0.win 5).xinj (grid0.coords t) y = ix2 (⟨(y 0).val, hy0⟩ : Fin 2000) (⟨(y 1).val, hy1⟩ : Fin 128) := by
    funext a; match a with | ⟨0, _⟩ => rfl | ⟨1, _⟩ => rfl
  have hemb : ((cfg0.win 5).blk t).view.emb y = ix2 (⟨t.val * 2000 + (y 0).val, by omega⟩ : Fin 10000) (⟨(y 1).val, hy1⟩ : Fin 128) := by
    funext a; apply Fin.ext
    match a with
    | ⟨0, _⟩ => show win0_5.index t (0 : Fin 2) * 2000 + 1 * (y 0).val = t.val * 2000 + (y 0).val; rw [e50]; omega
    | ⟨1, _⟩ => show win0_5.index t (1 : Fin 2) * 128 + 1 * (y 1).val = (y 1).val; rw [e51]; omega
  rw [View.read_apply]
  show k0_pay1 (F := Ideal) (iblk0 V c 0 t) (iblk0 V c 1 t) (iblk0 V c 2 t) (iblk0 V c 3 t) (iblk0 V c 4 t) ((cfg0.win 5).xinj (grid0.coords t) y)
    = rowsOut (V c main_arg0) (V c main_arg2) (V c main_v1) (V c main_v3) (V c main_v18) (((cfg0.win 5).blk t).view.emb y)
  rw [hx, hemb]
  exact pay_rows _ _ _ _ _ _ _ _ _ _ _ _ _ (fun k => block_row0 V c t _ k _ rfl) (fun k => block_row1 V c t _ k _ rfl)
    (block_wa V c t) (block_wb V c t) (block_bias V c t)

/-- Membership in the output block of point `t`, coordinate by coordinate: rows `2000 t … 2000 t + 1999`, all 128 columns. -/
theorem mem_block (t : Fin cfg0.N) (i : S10000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v19).slice (win0_5.rect t)).set ↔ _
  rw [View.set_slice_whole, Rect.mem_set_unit]
  exact Iff.rfl

/-- Row `R` of the array lies in the block of point `R / 2000`: the five blocks tile the 10000 rows. -/
theorem rows_covered (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 5 := N_0
  obtain ⟨t, ht⟩ : ∃ t : Fin cfg0.N, t.val = (i 0).val / 2000 := ⟨⟨(i 0).val / 2000, by rw [hN]; omega⟩, rfl⟩
  obtain ⟨-, -, -, -, -, -, -, -, -, -, e50, e51⟩ := index_facts t
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; rw [e50, ht]; omega
  | ⟨1, _⟩ => show win0_5.index t (1 : Fin 2) * 128 ≤ (i 1).val ∧ (i 1).val < win0_5.index t (1 : Fin 2) * 128 + 128; rw [e51]; omega

/-- After the region the output array is the row-wise array of the operands as the region finds them. -/
theorem region_rows (c : Dev nD) :
    (dat0 V c).arrAt 5 cfg0.N = rowsOut (V c main_arg0) (V c main_arg2) (V c main_v1) (V c main_v3) (V c main_v18) :=
  (dat0 V c).arrAt_eq_of_cover 5 _ (fun t _ => flushed_rows V c t) rows_covered

end Blocks

/-! ## What the region finds in its arrays, and the result -/

/-- The transposed lower half of a `[128, 256]` matrix at `(k, j)` is the matrix at `(j, k)`. -/
theorem lo_apply (X : S128x256.Idx → EReal) (k j : Fin 128) :
    transpose S128x128 [1, 0] (extractStridedSlice S128x128 ![0, 0] X slices_S128x256_S128x128_0_0) transposes_S128x128_S128x128_1_0 (ix2 k j)
      = X (ix2 j (Fin.castAdd 128 k)) := by
  refine (transpose_apply [1, 0] _ transposes_S128x128_S128x128_1_0 (ix2 k j) (ix2 j k) (fun b => match b with
    | ⟨0, _⟩ => rfl
    | ⟨1, _⟩ => rfl)).trans ?_
  exact extractStridedSlice_apply ![0, 0] X slices_S128x256_S128x128_0_0 (ix2 j k) (ix2 j (Fin.castAdd 128 k)) (fun a => match a with
    | ⟨0, _⟩ => by show j.val = 0 + j.val; omega
    | ⟨1, _⟩ => by show (Fin.castAdd 128 k).val = 0 + k.val; rw [Fin.coe_castAdd]; omega)

/-- The transposed upper half at `(k, j)` is the matrix at `(j, 128 + k)`. -/
theorem hi_apply (X : S128x256.Idx → EReal) (k j : Fin 128) :
    transpose S128x128 [1, 0] (extractStridedSlice S128x128 ![0, 128] X slices_S128x256_S128x128_0_128) transposes_S128x128_S128x128_1_0 (ix2 k j)
      = X (ix2 j (Fin.natAdd 128 k)) := by
  refine (transpose_apply [1, 0] _ transposes_S128x128_S128x128_1_0 (ix2 k j) (ix2 j k) (fun b => match b with
    | ⟨0, _⟩ => rfl
    | ⟨1, _⟩ => rfl)).trans ?_
  exact extractStridedSlice_apply ![0, 128] X slices_S128x256_S128x128_0_128 (ix2 j k) (ix2 j (Fin.natAdd 128 k)) (fun a => match a with
    | ⟨0, _⟩ => by show j.val = 0 + j.val; omega
    | ⟨1, _⟩ => by show (Fin.natAdd 128 k).val = 128 + k.val; rw [Fin.coe_natAdd])

/-- A length-128 vector laid out as one row reads, at column `j`, its entry `j`. -/
theorem asrow_apply (b : S128.Idx → EReal) (j : Fin 128) :
    shapeCast S1x128 b shapeCasts_S128_S1x128 (ix2 0 j) = b (ix1 j) :=
  shapeCast_apply b shapeCasts_S128_S1x128 (ix2 0 j) (ix1 j) (by
    rw [Shape.rowMajor_val_one, Shape.rowMajor_val_two]
    show j.val = 0 * 128 + j.val
    omega)

/-- With the weights the transposed halves of `X` and the bias `b` as one row, the row-wise array is the specification's. -/
theorem rowsOut_eq_spec (A0' A1' A0 A1 : S10000x128.Idx → EReal) (Wa Wb : S128x128.Idx → EReal) (B : S1x128.Idx → EReal)
    (X : S128x256.Idx → EReal) (b : S128.Idx → EReal) (h0 : A0' = A0) (h1 : A1' = A1)
    (ha : Wa = transpose S128x128 [1, 0] (extractStridedSlice S128x128 ![0, 0] X slices_S128x256_S128x128_0_0) transposes_S128x128_S128x128_1_0)
    (hb : Wb = transpose S128x128 [1, 0] (extractStridedSlice S128x128 ![0, 128] X slices_S128x256_S128x128_0_128) transposes_S128x128_S128x128_1_0)
    (hB : B = shapeCast S1x128 b shapeCasts_S128_S1x128) :
    rowsOut A0' A1' Wa Wb B = Cert.Spec.II2 A0 A1 X b := by
  subst h0 h1 ha hb hB
  funext i
  have ea : Cert.Spec.matOf (transpose S128x128 [1, 0] (extractStridedSlice S128x128 ![0, 0] X slices_S128x256_S128x128_0_0) transposes_S128x128_S128x128_1_0) = Cert.Spec.matTlo X :=
    funext fun k => funext fun j => lo_apply X k j
  have eb : Cert.Spec.matOf (transpose S128x128 [1, 0] (extractStridedSlice S128x128 ![0, 128] X slices_S128x256_S128x128_0_128) transposes_S128x128_S128x128_1_0) = Cert.Spec.matThi X :=
    funext fun k => funext fun j => hi_apply X k j
  have ec : Cert.Spec.rowb (shapeCast S1x128 b shapeCasts_S128_S1x128) = Cert.Spec.row1 b :=
    funext fun j => asrow_apply b j
  show Cert.Spec.lin2 _ _ (Cert.Spec.matOf _) (Cert.Spec.matOf _) (Cert.Spec.rowb _) (i 1) = Cert.Spec.lin2 _ _ (Cert.Spec.matTlo X) (Cert.Spec.matThi X) (Cert.Spec.row1 b) (i 1)
  rw [ea, eb, ec]

/-- The first operand reaches the region as launched: no host operation before it writes it. -/
theorem entry_arg0 (c : Dev nD) : V1 m ρ c main_arg0 = m ((c.tc : Thread nD τ).loc main_arg0) :=
  (show StableHlo.after hostOps0 (W0 m ρ c) (Proc.devRef .tc main_arg0) = W0 m ρ c (Proc.devRef .tc main_arg0) by kept_host hostOps0).trans rfl

/-- So does the second. -/
theorem entry_arg2 (c : Dev nD) : V1 m ρ c main_arg2 = m ((c.tc : Thread nD τ).loc main_arg2) :=
  (show StableHlo.after hostOps0 (W0 m ρ c) (Proc.devRef .tc main_arg2) = W0 m ρ c (Proc.devRef .tc main_arg2) by kept_host hostOps0).trans rfl

/-- The first weight window's array is the transposed lower half of the `[128, 256]` argument. -/
theorem entry_wa (c : Dev nD) : (V1 m ρ c main_v1 : S128x128.Idx → EReal)
    = transpose S128x128 [1, 0] (extractStridedSlice S128x128 ![0, 0] (m ((c.tc : Thread nD τ).loc main_arg20) : S128x256.Idx → EReal) slices_S128x256_S128x128_0_0) transposes_S128x128_S128x128_1_0 := by
  show StableHlo.after hostOps0 (W0 m ρ c) (Proc.devRef .tc main_v1) = _
  after_results <;> rfl

/-- The second is the transposed upper half. -/
theorem entry_wb (c : Dev nD) : (V1 m ρ c main_v3 : S128x128.Idx → EReal)
    = transpose S128x128 [1, 0] (extractStridedSlice S128x128 ![0, 128] (m ((c.tc : Thread nD τ).loc main_arg20) : S128x256.Idx → EReal) slices_S128x256_S128x128_0_128) transposes_S128x128_S128x128_1_0 := by
  show StableHlo.after hostOps0 (W0 m ρ c) (Proc.devRef .tc main_v3) = _
  after_results <;> rfl

/-- The bias window's array is the bias argument laid out as one row. -/
theorem entry_bias (c : Dev nD) : (V1 m ρ c main_v18 : S1x128.Idx → EReal)
    = shapeCast S1x128 (m ((c.tc : Thread nD τ).loc main_arg21) : S128.Idx → EReal) shapeCasts_S128_S1x128 := by
  show StableHlo.after hostOps0 (W0 m ρ c) (Proc.devRef .tc main_v18) = _
  after_results <;> rfl

/-- After region 0 the buffer of `ii2` holds `[ii ; k_emb] @ w4.T + w4_b`. -/
theorem v19_eq (c : Dev nD) :
    W2 m ρ c (Proc.devRef .tc main_v19) = Spec.II2 (m ((c.tc : Thread nD τ).loc main_arg0)) (m ((c.tc : Thread nD τ).loc main_arg2)) (m ((c.tc : Thread nD τ).loc main_arg20)) (m ((c.tc : Thread nD τ).loc main_arg21)) :=
  ((W2_arr m ρ c 5).trans (region_rows (V1 m ρ) c)).trans
    (rowsOut_eq_spec _ _ _ _ _ _ _ _ _ (entry_arg0 m ρ c) (entry_arg2 m ρ c) (entry_wa m ρ c) (entry_wb m ρ c) (entry_bias m ρ c))

end Cert.KernelIdeal.KReg0

end
-- ==== Proof.KReg1.lean ====
/-
  Region 1 (the knowledge-to-employee stack, w2 and w1): what its two output arrays hold after the run.
-/
import proofs.«428482_j83468394431314_1_alg».proof.Proof.Gen.KernelIdeal.Frame
import proofs.«428482_j83468394431314_1_alg».proof.Proof.Spec
import proofs.«428482_j83468394431314_1_alg».proof.Proof.Glue
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«428482_j83468394431314_1_alg».proof.Proof.LibKeep

set_option maxRecDepth 16384

noncomputable section

namespace Cert.KernelIdeal.KReg1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One product of a block of rows with a weight matrix -/

theorem lhs_dot_0 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin S2000x128.rank) ∈ Cert.KernelIdeal.dot_S2000x128_S128x128_S2000x128_1_0_0_1_n_n.lhsBatch by decide), dif_pos (show (0 : Fin S2000x128.rank) ∈ Cert.KernelIdeal.dot_S2000x128_S128x128_S2000x128_1_0_0_1_n_n.lhsNonContracting by decide)]
  rfl
theorem lhs_dot_1 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem rhs_dot_0 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem rhs_dot_1 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin S128x128.rank) ∈ Cert.KernelIdeal.dot_S2000x128_S128x128_S2000x128_1_0_0_1_n_n.rhsBatch by decide), dif_pos (show (1 : Fin S128x128.rank) ∈ Cert.KernelIdeal.dot_S2000x128_S128x128_S2000x128_1_0_0_1_n_n.rhsNonContracting by decide)]
  rfl

/-- A block of 2000 rows times a 128 by 128 matrix, into the zero accumulator: entry (r, j) is the sum over k of
    row r at k times the matrix at (k, j). -/
theorem mm_apply {φ₁ φ₂ : FTy} (lhs : FVec Ideal S2000x128 φ₁) (rhs : FVec Ideal S128x128 φ₂) (r : Fin 2000) (j : Fin 128) :
    (matmul Cert.KernelIdeal.dot_S2000x128_S128x128_S2000x128_1_0_0_1_n_n none lhs rhs (constant (F := Ideal) S2000x128 .f32 0x00000000#32)) (ix2 r j)
      = ∑ k : Fin 128, lhs (ix2 r k) * rhs (ix2 k j) := by
  simp only [matmul]
  rw [Ideal.matmul_constant_zero_apply, ← Equiv.sum_comp (ValueIdx.contrEquiv1 Cert.KernelIdeal.dot_S2000x128_S128x128_S2000x128_1_0_0_1_n_n 128 rfl rfl).symm]
  refine Finset.sum_congr rfl fun k _ => ?_
  have hk := ValueIdx.contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 r j) ((ValueIdx.contrEquiv1 Cert.KernelIdeal.dot_S2000x128_S128x128_S2000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : Cert.KernelIdeal.dot_S2000x128_S128x128_S2000x128_1_0_0_1_n_n.rhsIdx (ix2 r j) ((ValueIdx.contrEquiv1 Cert.KernelIdeal.dot_S2000x128_S128x128_S2000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## The body's arithmetic, entry by entry -/

/-- Two products of a block of rows and a bias row: entry (r, j) is the two-product stage of the two rows r. -/
theorem blk_lin2 {φ₁ φ₂ φ₃ φ₄ : FTy} (a : FVec Ideal S2000x128 φ₁) (b : FVec Ideal S2000x128 φ₂)
    (wa : FVec Ideal S128x128 φ₃) (wb : FVec Ideal S128x128 φ₄) (bias : Vec Ideal S1x128 .f32) (r : Fin 2000) (j : Fin 128) :
    (addf (addf (matmul Cert.KernelIdeal.dot_S2000x128_S128x128_S2000x128_1_0_0_1_n_n none a wa (constant (F := Ideal) S2000x128 .f32 0x00000000#32))
        (matmul Cert.KernelIdeal.dot_S2000x128_S128x128_S2000x128_1_0_0_1_n_n none b wb (constant (F := Ideal) S2000x128 .f32 0x00000000#32)))
      (broadcastTo S2000x128 bias broadcasts_S1x128_S2000x128) : FVec Ideal S2000x128 .f32) (ix2 r j)
      = Spec.lin2 (fun k => a (ix2 r k)) (fun k => b (ix2 r k)) (fun k j => wa (ix2 k j)) (fun k j => wb (ix2 k j)) (fun j => bias (ix2 0 j)) j := by
  rw [addf_apply, addf_apply, mm_apply, mm_apply, broadcastTo_1b_ab_apply]
  rfl

/-- One product of a block of rows and a bias row. -/
theorem blk_lin1 {φ₁ φ₃ : FTy} (a : FVec Ideal S2000x128 φ₁) (wa : FVec Ideal S128x128 φ₃) (bias : Vec Ideal S1x128 .f32) (r : Fin 2000) (j : Fin 128) :
    (addf (matmul Cert.KernelIdeal.dot_S2000x128_S128x128_S2000x128_1_0_0_1_n_n none a wa (constant (F := Ideal) S2000x128 .f32 0x00000000#32))
      (broadcastTo S2000x128 bias broadcasts_S1x128_S2000x128) : FVec Ideal S2000x128 .f32) (ix2 r j)
      = Spec.lin1 (fun k => a (ix2 r k)) (fun k j => wa (ix2 k j)) (fun j => bias (ix2 0 j)) j := by
  rw [addf_apply, mm_apply, broadcastTo_1b_ab_apply]
  rfl

theorem lin2_congr {a a' b b' : Spec.Row} {wa wa' wb wb' : Spec.Mat} {bias bias' : Spec.Row} (j : Fin 128)
    (ha : a = a') (hb : b = b') (hwa : wa = wa') (hwb : wb = wb') (hbias : bias = bias') :
    Spec.lin2 a b wa wb bias j = Spec.lin2 a' b' wa' wb' bias' j := by
  subst ha hb hwa hwb hbias; rfl

theorem lin1_congr {a a' : Spec.Row} {wa wa' : Spec.Mat} {bias bias' : Spec.Row} (j : Fin 128)
    (ha : a = a') (hwa : wa = wa') (hbias : bias = bias') :
    Spec.lin1 a wa bias j = Spec.lin1 a' wa' bias' j := by
  subst ha hwa hbias; rfl

/-- The two stacked layers on a block: entry (r, j). -/
theorem pay4_apply (x0 x1 : Vec Ideal S2000x128 .f32) (x2 x3 : Vec Ideal S128x128 .f32) (x4 : Vec Ideal S1x128 .f32)
    (x5 x6 : Vec Ideal S128x128 .f32) (x7 : Vec Ideal S1x128 .f32) (r : Fin 2000) (j : Fin 128) :
    k1_pay4 x0 x1 x2 x3 x4 x5 x6 x7 (ix2 r j)
      = Spec.lin2 (Spec.relu0 (Spec.lin2 (Spec.rowOf x0 r) (Spec.rowOf x1 r) (Spec.matOf x2) (Spec.matOf x3) (Spec.rowb x4)))
          (Spec.rowOf x1 r) (Spec.matOf x5) (Spec.matOf x6) (Spec.rowb x7) j := by
  unfold k1_pay4 k1_pay3
  simp only [shapeCast_self]
  rw [blk_lin2]
  refine lin2_congr j (funext fun k => ?_) rfl rfl rfl rfl
  rw [truncf_apply, maximumf_apply, broadcast_apply, blk_lin2]
  rfl

/-- The stack followed by the last linear map, on a block: entry (r, j) is the whole stack of the two rows r. -/
theorem pay1_apply (x0 x1 : Vec Ideal S2000x128 .f32) (x2 x3 : Vec Ideal S128x128 .f32) (x4 : Vec Ideal S1x128 .f32)
    (x5 x6 : Vec Ideal S128x128 .f32) (x7 : Vec Ideal S1x128 .f32) (x8 : Vec Ideal S128x128 .f32) (x9 : Vec Ideal S1x128 .f32)
    (r : Fin 2000) (j : Fin 128) :
    k1_pay1 (k1_pay4 x0 x1 x2 x3 x4 x5 x6 x7) (k1_pay5 x8) x9 (ix2 r j)
      = Spec.sage2 (Spec.rowOf x0 r) (Spec.rowOf x1 r) (Spec.matOf x2) (Spec.matOf x3) (Spec.rowb x4)
          (Spec.matOf x5) (Spec.matOf x6) (Spec.rowb x7) (Spec.matOf x8) (Spec.rowb x9) j := by
  unfold k1_pay1 k1_pay5
  simp only [shapeCast_self]
  rw [blk_lin1]
  refine lin1_congr j (funext fun k => ?_) rfl rfl
  rw [truncf_apply, pay4_apply]

/-- The join of the stack's row with the table's row, on a block: entry (r, j). -/
theorem pay2_apply (x0 x1 : Vec Ideal S2000x128 .f32) (x2 x3 : Vec Ideal S128x128 .f32) (x4 : Vec Ideal S1x128 .f32)
    (x5 x6 : Vec Ideal S128x128 .f32) (x7 : Vec Ideal S1x128 .f32) (x8 : Vec Ideal S128x128 .f32) (x9 : Vec Ideal S1x128 .f32)
    (x10 x11 : Vec Ideal S128x128 .f32) (x12 : Vec Ideal S1x128 .f32) (r : Fin 2000) (j : Fin 128) :
    k1_pay2 (k1_pay3 x0) (k1_pay4 x0 x1 x2 x3 x4 x5 x6 x7) (k1_pay5 x8) x9 x10 x11 x12 (ix2 r j)
      = Spec.lin2 (Spec.sage2 (Spec.rowOf x0 r) (Spec.rowOf x1 r) (Spec.matOf x2) (Spec.matOf x3) (Spec.rowb x4)
          (Spec.matOf x5) (Spec.matOf x6) (Spec.rowb x7) (Spec.matOf x8) (Spec.rowb x9))
          (Spec.rowOf x0 r) (Spec.matOf x10) (Spec.matOf x11) (Spec.rowb x12) j := by
  unfold k1_pay2
  simp only [shapeCast_self]
  rw [blk_lin2]
  refine lin2_congr j (funext fun k => ?_) rfl rfl rfl rfl
  rw [truncf_apply, pay1_apply]

/-! ## From the blocks to the arrays -/

section Blocks

variable (V : (c : Dev nD) → (b : Ref sig .tc) → Buf (Elt Ideal) ((c : Thread nD τ).loc b))

theorem zero_off : (![0, 0] : Fin 2 → Nat) = fun _ => 0 := funext fun a => by fin_cases a <;> rfl

/-- The whole stack row by row, from arrays that hold the weight matrices contraction index first and the biases as one row. -/
def HIw (e nb : Spec.A2 100000) (s0 n0 : Spec.W22) (b0 : Spec.B1r) (s1 n1 : Spec.W22) (b1 : Spec.B1r) (w : Spec.W22) (bw : Spec.B1r) :
    Spec.A2 100000 := fun i =>
  Spec.sage2 (Spec.rowOf e (i 0)) (Spec.rowOf nb (i 0)) (Spec.matOf s0) (Spec.matOf n0) (Spec.rowb b0) (Spec.matOf s1) (Spec.matOf n1) (Spec.rowb b1)
    (Spec.matOf w) (Spec.rowb bw) (i 1)

/-- The join of the stack's row with the table's row, from arrays stored the same way. -/
def SCw (e nb : Spec.A2 100000) (s0 n0 : Spec.W22) (b0 : Spec.B1r) (s1 n1 : Spec.W22) (b1 : Spec.B1r) (w : Spec.W22) (bw : Spec.B1r)
    (wlo whi : Spec.W22) (bj : Spec.B1r) : Spec.A2 100000 := fun i =>
  Spec.lin2 (Spec.sage2 (Spec.rowOf e (i 0)) (Spec.rowOf nb (i 0)) (Spec.matOf s0) (Spec.matOf n0) (Spec.rowb b0) (Spec.matOf s1) (Spec.matOf n1) (Spec.rowb b1)
    (Spec.matOf w) (Spec.rowb bw)) (Spec.rowOf e (i 0)) (Spec.matOf wlo) (Spec.matOf whi) (Spec.rowb bj) (i 1)

/-- What the body leaves in the first output's buffer, entry (r, j). -/
theorem body_hi_apply (x0 x1 : Vec Ideal S2000x128 .f32) (x2 x3 : Vec Ideal S128x128 .f32) (x4 : Vec Ideal S1x128 .f32)
    (x5 x6 : Vec Ideal S128x128 .f32) (x7 : Vec Ideal S1x128 .f32) (x8 : Vec Ideal S128x128 .f32) (x9 : Vec Ideal S1x128 .f32)
    (x10 x11 : Vec Ideal S128x128 .f32) (x12 : Vec Ideal S1x128 .f32) (r : Fin 2000) (j : Fin 128) :
    out1_13 x0 x1 x2 x3 x4 x5 x6 x7 x8 x9 x10 x11 x12 (ix2 r j)
      = Spec.sage2 (Spec.rowOf x0 r) (Spec.rowOf x1 r) (Spec.matOf x2) (Spec.matOf x3) (Spec.rowb x4)
          (Spec.matOf x5) (Spec.matOf x6) (Spec.rowb x7) (Spec.matOf x8) (Spec.rowb x9) j := by
  unfold out1_13
  rw [View.canon_unit_zero zero_off]
  simp only [View.ld_unit_zero (S := S2000x128) zero_off, View.ld_unit_zero (S := S128x128) zero_off, View.ld_unit_zero (S := S1x128) zero_off]
  exact pay1_apply x0 x1 x2 x3 x4 x5 x6 x7 x8 x9 r j

/-- What the body leaves in the second output's buffer, entry (r, j). -/
theorem body_sc_apply (x0 x1 : Vec Ideal S2000x128 .f32) (x2 x3 : Vec Ideal S128x128 .f32) (x4 : Vec Ideal S1x128 .f32)
    (x5 x6 : Vec Ideal S128x128 .f32) (x7 : Vec Ideal S1x128 .f32) (x8 : Vec Ideal S128x128 .f32) (x9 : Vec Ideal S1x128 .f32)
    (x10 x11 : Vec Ideal S128x128 .f32) (x12 : Vec Ideal S1x128 .f32) (r : Fin 2000) (j : Fin 128) :
    out1_14 x0 x1 x2 x3 x4 x5 x6 x7 x8 x9 x10 x11 x12 (ix2 r j)
      = Spec.lin2 (Spec.sage2 (Spec.rowOf x0 r) (Spec.rowOf x1 r) (Spec.matOf x2) (Spec.matOf x3) (Spec.rowb x4)
          (Spec.matOf x5) (Spec.matOf x6) (Spec.rowb x7) (Spec.matOf x8) (Spec.rowb x9))
          (Spec.rowOf x0 r) (Spec.matOf x10) (Spec.matOf x11) (Spec.rowb x12) j := by
  unfold out1_14
  rw [View.canon_unit_zero zero_off]
  simp only [View.ld_unit_zero (S := S2000x128) zero_off, View.ld_unit_zero (S := S128x128) zero_off, View.ld_unit_zero (S := S1x128) zero_off]
  exact pay2_apply x0 x1 x2 x3 x4 x5 x6 x7 x8 x9 x10 x11 x12 r j

/-! ### Where each window's block sits, at each of the 50 points -/

theorem idx_rows0 : ∀ t : Fin cfg1.N, win1_0.index t (0 : Fin 2) = t.val ∧ win1_0.index t (1 : Fin 2) = 0 :=
  (by decide +kernel : ∀ t : Fin grid1.N, _)
theorem idx_rows1 : ∀ t : Fin cfg1.N, win1_1.index t (0 : Fin 2) = t.val ∧ win1_1.index t (1 : Fin 2) = 0 :=
  (by decide +kernel : ∀ t : Fin grid1.N, _)
theorem idx_rows13 : ∀ t : Fin cfg1.N, win1_13.index t (0 : Fin 2) = t.val ∧ win1_13.index t (1 : Fin 2) = 0 :=
  (by decide +kernel : ∀ t : Fin grid1.N, _)
theorem idx_rows14 : ∀ t : Fin cfg1.N, win1_14.index t (0 : Fin 2) = t.val ∧ win1_14.index t (1 : Fin 2) = 0 :=
  (by decide +kernel : ∀ t : Fin grid1.N, _)
theorem idx_whole2 : ∀ t : Fin cfg1.N, win1_2.index t (0 : Fin 2) = 0 ∧ win1_2.index t (1 : Fin 2) = 0 :=
  (by decide +kernel : ∀ t : Fin grid1.N, _)
theorem idx_whole3 : ∀ t : Fin cfg1.N, win1_3.index t (0 : Fin 2) = 0 ∧ win1_3.index t (1 : Fin 2) = 0 :=
  (by decide +kernel : ∀ t : Fin grid1.N, _)
theorem idx_whole4 : ∀ t : Fin cfg1.N, win1_4.index t (0 : Fin 2) = 0 ∧ win1_4.index t (1 : Fin 2) = 0 :=
  (by decide +kernel : ∀ t : Fin grid1.N, _)
theorem idx_whole5 : ∀ t : Fin cfg1.N, win1_5.index t (0 : Fin 2) = 0 ∧ win1_5.index t (1 : Fin 2) = 0 :=
  (by decide +kernel : ∀ t : Fin grid1.N, _)
theorem idx_whole6 : ∀ t : Fin cfg1.N, win1_6.index t (0 : Fin 2) = 0 ∧ win1_6.index t (1 : Fin 2) = 0 :=
  (by decide +kernel : ∀ t : Fin grid1.N, _)
theorem idx_whole7 : ∀ t : Fin cfg1.N, win1_7.index t (0 : Fin 2) = 0 ∧ win1_7.index t (1 : Fin 2) = 0 :=
  (by decide +kernel : ∀ t : Fin grid1.N, _)
theorem idx_whole8 : ∀ t : Fin cfg1.N, win1_8.index t (0 : Fin 2) = 0 ∧ win1_8.index t (1 : Fin 2) = 0 :=
  (by decide +kernel : ∀ t : Fin grid1.N, _)
theorem idx_whole9 : ∀ t : Fin cfg1.N, win1_9.index t (0 : Fin 2) = 0 ∧ win1_9.index t (1 : Fin 2) = 0 :=
  (by decide +kernel : ∀ t : Fin grid1.N, _)
theorem idx_whole10 : ∀ t : Fin cfg1.N, win1_10.index t (0 : Fin 2) = 0 ∧ win1_10.index t (1 : Fin 2) = 0 :=
  (by decide +kernel : ∀ t : Fin grid1.N, _)
theorem idx_whole11 : ∀ t : Fin cfg1.N, win1_11.index t (0 : Fin 2) = 0 ∧ win1_11.index t (1 : Fin 2) = 0 :=
  (by decide +kernel : ∀ t : Fin grid1.N, _)
theorem idx_whole12 : ∀ t : Fin cfg1.N, win1_12.index t (0 : Fin 2) = 0 ∧ win1_12.index t (1 : Fin 2) = 0 :=
  (by decide +kernel : ∀ t : Fin grid1.N, _)

/-! ### The input blocks read off their arrays -/

/-- Row r of the block at point t is row 2000 t + r of the array. -/
theorem e_rows (c : Dev nD) (t : Fin cfg1.N) (r : Fin 2000) (R : Fin 100000) (hR : R.val = t.val * 2000 + r.val) :
    Spec.rowOf (n := 2000) (iblk1 V c 0 t : Vec Ideal S2000x128 .f32) r = Spec.rowOf (n := 100000) (V c main_arg1) R := by
  funext k
  obtain ⟨h0, h1⟩ := idx_rows0 t
  show (iblk1 V c 0 t : Vec Ideal S2000x128 .f32) (ix2 r k) = V c main_arg1 (ix2 R k)
  unfold iblk1
  rw [View.read_apply]
  show V c main_arg1 _ = V c main_arg1 _
  congr 1
  funext a
  apply Fin.ext
  match a with
  | ⟨0, _⟩ => show win1_0.index t (0 : Fin 2) * 2000 + 1 * r.val = R.val; rw [h0, hR]; omega
  | ⟨1, _⟩ => show win1_0.index t (1 : Fin 2) * 128 + 1 * k.val = k.val; rw [h1]; omega

/-- Row r of the block at point t is row 2000 t + r of the array. -/
theorem nb_rows (c : Dev nD) (t : Fin cfg1.N) (r : Fin 2000) (R : Fin 100000) (hR : R.val = t.val * 2000 + r.val) :
    Spec.rowOf (n := 2000) (iblk1 V c 1 t : Vec Ideal S2000x128 .f32) r = Spec.rowOf (n := 100000) (V c main_v32) R := by
  funext k
  obtain ⟨h0, h1⟩ := idx_rows1 t
  show (iblk1 V c 1 t : Vec Ideal S2000x128 .f32) (ix2 r k) = V c main_v32 (ix2 R k)
  unfold iblk1
  rw [View.read_apply]
  show V c main_v32 _ = V c main_v32 _
  congr 1
  funext a
  apply Fin.ext
  match a with
  | ⟨0, _⟩ => show win1_1.index t (0 : Fin 2) * 2000 + 1 * r.val = R.val; rw [h0, hR]; omega
  | ⟨1, _⟩ => show win1_1.index t (1 : Fin 2) * 128 + 1 * k.val = k.val; rw [h1]; omega

theorem whole2 (c : Dev nD) (t : Fin cfg1.N) : (iblk1 V c 2 t : Vec Ideal S128x128 .f32) = V c main_v34 := by
  funext i
  obtain ⟨h0, h1⟩ := idx_whole2 t
  unfold iblk1
  rw [View.read_apply]
  show V c main_v34 _ = V c main_v34 _
  congr 1
  funext a
  apply Fin.ext
  match a with
  | ⟨0, _⟩ => show win1_2.index t (0 : Fin 2) * 128 + 1 * (i 0).val = (i 0).val; rw [h0]; omega
  | ⟨1, _⟩ => show win1_2.index t (1 : Fin 2) * 128 + 1 * (i 1).val = (i 1).val; rw [h1]; omega

theorem whole3 (c : Dev nD) (t : Fin cfg1.N) : (iblk1 V c 3 t : Vec Ideal S128x128 .f32) = V c main_v36 := by
  funext i
  obtain ⟨h0, h1⟩ := idx_whole3 t
  unfold iblk1
  rw [View.read_apply]
  show V c main_v36 _ = V c main_v36 _
  congr 1
  funext a
  apply Fin.ext
  match a with
  | ⟨0, _⟩ => show win1_3.index t (0 : Fin 2) * 128 + 1 * (i 0).val = (i 0).val; rw [h0]; omega
  | ⟨1, _⟩ => show win1_3.index t (1 : Fin 2) * 128 + 1 * (i 1).val = (i 1).val; rw [h1]; omega

theorem whole4 (c : Dev nD) (t : Fin cfg1.N) : (iblk1 V c 4 t : Vec Ideal S1x128 .f32) = V c main_v45 := by
  funext i
  obtain ⟨h0, h1⟩ := idx_whole4 t
  unfold iblk1
  rw [View.read_apply]
  show V c main_v45 _ = V c main_v45 _
  congr 1
  funext a
  apply Fin.ext
  match a with
  | ⟨0, _⟩ => show win1_4.index t (0 : Fin 2) * 1 + 1 * (i 0).val = (i 0).val; rw [h0]; omega
  | ⟨1, _⟩ => show win1_4.index t (1 : Fin 2) * 128 + 1 * (i 1).val = (i 1).val; rw [h1]; omega

theorem whole5 (c : Dev nD) (t : Fin cfg1.N) : (iblk1 V c 5 t : Vec Ideal S128x128 .f32) = V c main_v40 := by
  funext i
  obtain ⟨h0, h1⟩ := idx_whole5 t
  unfold iblk1
  rw [View.read_apply]
  show V c main_v40 _ = V c main_v40 _
  congr 1
  funext a
  apply Fin.ext
  match a with
  | ⟨0, _⟩ => show win1_5.index t (0 : Fin 2) * 128 + 1 * (i 0).val = (i 0).val; rw [h0]; omega
  | ⟨1, _⟩ => show win1_5.index t (1 : Fin 2) * 128 + 1 * (i 1).val = (i 1).val; rw [h1]; omega

theorem whole6 (c : Dev nD) (t : Fin cfg1.N) : (iblk1 V c 6 t : Vec Ideal S128x128 .f32) = V c main_v42 := by
  funext i
  obtain ⟨h0, h1⟩ := idx_whole6 t
  unfold iblk1
  rw [View.read_apply]
  show V c main_v42 _ = V c main_v42 _
  congr 1
  funext a
  apply Fin.ext
  match a with
  | ⟨0, _⟩ => show win1_6.index t (0 : Fin 2) * 128 + 1 * (i 0).val = (i 0).val; rw [h0]; omega
  | ⟨1, _⟩ => show win1_6.index t (1 : Fin 2) * 128 + 1 * (i 1).val = (i 1).val; rw [h1]; omega

theorem whole7 (c : Dev nD) (t : Fin cfg1.N) : (iblk1 V c 7 t : Vec Ideal S1x128 .f32) = V c main_v46 := by
  funext i
  obtain ⟨h0, h1⟩ := idx_whole7 t
  unfold iblk1
  rw [View.read_apply]
  show V c main_v46 _ = V c main_v46 _
  congr 1
  funext a
  apply Fin.ext
  match a with
  | ⟨0, _⟩ => show win1_7.index t (0 : Fin 2) * 1 + 1 * (i 0).val = (i 0).val; rw [h0]; omega
  | ⟨1, _⟩ => show win1_7.index t (1 : Fin 2) * 128 + 1 * (i 1).val = (i 1).val; rw [h1]; omega

theorem whole8 (c : Dev nD) (t : Fin cfg1.N) : (iblk1 V c 8 t : Vec Ideal S128x128 .f32) = V c main_v8 := by
  funext i
  obtain ⟨h0, h1⟩ := idx_whole8 t
  unfold iblk1
  rw [View.read_apply]
  show V c main_v8 _ = V c main_v8 _
  congr 1
  funext a
  apply Fin.ext
  match a with
  | ⟨0, _⟩ => show win1_8.index t (0 : Fin 2) * 128 + 1 * (i 0).val = (i 0).val; rw [h0]; omega
  | ⟨1, _⟩ => show win1_8.index t (1 : Fin 2) * 128 + 1 * (i 1).val = (i 1).val; rw [h1]; omega

theorem whole9 (c : Dev nD) (t : Fin cfg1.N) : (iblk1 V c 9 t : Vec Ideal S1x128 .f32) = V c main_v47 := by
  funext i
  obtain ⟨h0, h1⟩ := idx_whole9 t
  unfold iblk1
  rw [View.read_apply]
  show V c main_v47 _ = V c main_v47 _
  congr 1
  funext a
  apply Fin.ext
  match a with
  | ⟨0, _⟩ => show win1_9.index t (0 : Fin 2) * 1 + 1 * (i 0).val = (i 0).val; rw [h0]; omega
  | ⟨1, _⟩ => show win1_9.index t (1 : Fin 2) * 128 + 1 * (i 1).val = (i 1).val; rw [h1]; omega

theorem whole10 (c : Dev nD) (t : Fin cfg1.N) : (iblk1 V c 10 t : Vec Ideal S128x128 .f32) = V c main_v11 := by
  funext i
  obtain ⟨h0, h1⟩ := idx_whole10 t
  unfold iblk1
  rw [View.read_apply]
  show V c main_v11 _ = V c main_v11 _
  congr 1
  funext a
  apply Fin.ext
  match a with
  | ⟨0, _⟩ => show win1_10.index t (0 : Fin 2) * 128 + 1 * (i 0).val = (i 0).val; rw [h0]; omega
  | ⟨1, _⟩ => show win1_10.index t (1 : Fin 2) * 128 + 1 * (i 1).val = (i 1).val; rw [h1]; omega

theorem whole11 (c : Dev nD) (t : Fin cfg1.N) : (iblk1 V c 11 t : Vec Ideal S128x128 .f32) = V c main_v13 := by
  funext i
  obtain ⟨h0, h1⟩ := idx_whole11 t
  unfold iblk1
  rw [View.read_apply]
  show V c main_v13 _ = V c main_v13 _
  congr 1
  funext a
  apply Fin.ext
  match a with
  | ⟨0, _⟩ => show win1_11.index t (0 : Fin 2) * 128 + 1 * (i 0).val = (i 0).val; rw [h0]; omega
  | ⟨1, _⟩ => show win1_11.index t (1 : Fin 2) * 128 + 1 * (i 1).val = (i 1).val; rw [h1]; omega

theorem whole12 (c : Dev nD) (t : Fin cfg1.N) : (iblk1 V c 12 t : Vec Ideal S1x128 .f32) = V c main_v48 := by
  funext i
  obtain ⟨h0, h1⟩ := idx_whole12 t
  unfold iblk1
  rw [View.read_apply]
  show V c main_v48 _ = V c main_v48 _
  congr 1
  funext a
  apply Fin.ext
  match a with
  | ⟨0, _⟩ => show win1_12.index t (0 : Fin 2) * 1 + 1 * (i 0).val = (i 0).val; rw [h0]; omega
  | ⟨1, _⟩ => show win1_12.index t (1 : Fin 2) * 128 + 1 * (i 1).val = (i 1).val; rw [h1]; omega

end Blocks

theorem sage2_congr {e e' nb nb' : Spec.Row} {s0 s0' n0 n0' : Spec.Mat} {b0 b0' : Spec.Row} {s1 s1' n1 n1' : Spec.Mat} {b1 b1' : Spec.Row}
    {w w' : Spec.Mat} {bw bw' : Spec.Row} {j j' : Fin 128}
    (he : e = e') (hnb : nb = nb') (hs0 : s0 = s0') (hn0 : n0 = n0') (hb0 : b0 = b0') (hs1 : s1 = s1') (hn1 : n1 = n1') (hb1 : b1 = b1')
    (hw : w = w') (hbw : bw = bw') (hj : j = j') :
    Spec.sage2 e nb s0 n0 b0 s1 n1 b1 w bw j = Spec.sage2 e' nb' s0' n0' b0' s1' n1' b1' w' bw' j' := by
  subst he hnb hs0 hn0 hb0 hs1 hn1 hb1 hw hbw hj; rfl

theorem lin2_congr' {a a' b b' : Spec.Row} {wa wa' wb wb' : Spec.Mat} {bias bias' : Spec.Row} {j j' : Fin 128}
    (ha : a = a') (hb : b = b') (hwa : wa = wa') (hwb : wb = wb') (hbias : bias = bias') (hj : j = j') :
    Spec.lin2 a b wa wb bias j = Spec.lin2 a' b' wa' wb' bias' j' := by
  subst ha hb hwa hwb hbias hj; rfl

section Arrays

variable (V : (c : Dev nD) → (b : Ref sig .tc) → Buf (Elt Ideal) ((c : Thread nD τ).loc b))

/-- What point t writes back to the first output's array is block t of the stack of the arrays the region finds. -/
theorem writes_hi (c : Dev nD) (t : Fin cfg1.N) :
    (dat1 V c).flushed 13 t = ((cfg1.win 13).blk t).view.read (Elt Ideal)
      (HIw (V c main_arg1) (V c main_v32) (V c main_v34) (V c main_v36) (V c main_v45) (V c main_v40) (V c main_v42) (V c main_v46) (V c main_v8) (V c main_v47)) := by
  show (cfg1.win 13).cut (grid1.coords t) ((dat1 V c).after 13 t) = _
  rw [after1_13]
  funext y
  obtain ⟨p, q, rfl⟩ : ∃ (p : Fin 2000) (q : Fin 128), y = ix2 p q := ⟨y 0, y 1, eq_ix2 y⟩
  rw [View.read_apply]
  refine (body_hi_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) p q).trans ?_
  obtain ⟨h0, h1⟩ := idx_rows13 t
  have hR : ((((cfg1.win 13).blk t).view.emb (ix2 p q)) 0).val = t.val * 2000 + p.val := by
    show win1_13.index t (0 : Fin 2) * 2000 + 1 * p.val = _
    rw [h0]; omega
  have hQ : q = (((cfg1.win 13).blk t).view.emb (ix2 p q)) 1 := Fin.ext (by
    show q.val = win1_13.index t (1 : Fin 2) * 128 + 1 * q.val
    rw [h1]; omega)
  exact sage2_congr (e_rows V c t p _ hR) (nb_rows V c t p _ hR) (congrArg Spec.matOf (whole2 V c t)) (congrArg Spec.matOf (whole3 V c t))
    (congrArg Spec.rowb (whole4 V c t)) (congrArg Spec.matOf (whole5 V c t)) (congrArg Spec.matOf (whole6 V c t)) (congrArg Spec.rowb (whole7 V c t))
    (congrArg Spec.matOf (whole8 V c t)) (congrArg Spec.rowb (whole9 V c t)) hQ

/-- What point t writes back to the second output's array is block t of the join of the arrays the region finds. -/
theorem writes_sc (c : Dev nD) (t : Fin cfg1.N) :
    (dat1 V c).flushed 14 t = ((cfg1.win 14).blk t).view.read (Elt Ideal)
      (SCw (V c main_arg1) (V c main_v32) (V c main_v34) (V c main_v36) (V c main_v45) (V c main_v40) (V c main_v42) (V c main_v46) (V c main_v8) (V c main_v47)
        (V c main_v11) (V c main_v13) (V c main_v48)) := by
  show (cfg1.win 14).cut (grid1.coords t) ((dat1 V c).after 14 t) = _
  rw [after1_14]
  funext y
  obtain ⟨p, q, rfl⟩ : ∃ (p : Fin 2000) (q : Fin 128), y = ix2 p q := ⟨y 0, y 1, eq_ix2 y⟩
  rw [View.read_apply]
  refine (body_sc_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) p q).trans ?_
  obtain ⟨h0, h1⟩ := idx_rows14 t
  have hR : ((((cfg1.win 14).blk t).view.emb (ix2 p q)) 0).val = t.val * 2000 + p.val := by
    show win1_14.index t (0 : Fin 2) * 2000 + 1 * p.val = _
    rw [h0]; omega
  have hQ : q = (((cfg1.win 14).blk t).view.emb (ix2 p q)) 1 := Fin.ext (by
    show q.val = win1_14.index t (1 : Fin 2) * 128 + 1 * q.val
    rw [h1]; omega)
  exact lin2_congr' (funext fun k => sage2_congr (e_rows V c t p _ hR) (nb_rows V c t p _ hR) (congrArg Spec.matOf (whole2 V c t)) (congrArg Spec.matOf (whole3 V c t))
      (congrArg Spec.rowb (whole4 V c t)) (congrArg Spec.matOf (whole5 V c t)) (congrArg Spec.matOf (whole6 V c t)) (congrArg Spec.rowb (whole7 V c t))
      (congrArg Spec.matOf (whole8 V c t)) (congrArg Spec.rowb (whole9 V c t)) rfl)
    (e_rows V c t p _ hR) (congrArg Spec.matOf (whole10 V c t)) (congrArg Spec.matOf (whole11 V c t)) (congrArg Spec.rowb (whole12 V c t)) hQ

/-- An index of the first output's array is in point t's block iff each coordinate is in the block's range. -/
theorem mem_block_hi (t : Fin cfg1.N) (i : S100000x128.Idx) :
    i ∈ ((cfg1.win 13).blk t).view.set ↔ ∀ a : Fin 2, win1_13.index t a * S2000x128.size a ≤ (i a).val ∧ (i a).val < win1_13.index t a * S2000x128.size a + S2000x128.size a := by
  show i ∈ ((View.whole main_v49_0).slice (win1_13.rect t)).set ↔ _
  rw [View.set_slice_whole, Rect.mem_set_unit]
  exact Iff.rfl

theorem mem_block_sc (t : Fin cfg1.N) (i : S100000x128.Idx) :
    i ∈ ((cfg1.win 14).blk t).view.set ↔ ∀ a : Fin 2, win1_14.index t a * S2000x128.size a ≤ (i a).val ∧ (i a).val < win1_14.index t a * S2000x128.size a + S2000x128.size a := by
  show i ∈ ((View.whole main_v49_1).slice (win1_14.rect t)).set ↔ _
  rw [View.set_slice_whole, Rect.mem_set_unit]
  exact Iff.rfl

/-- Row r of the array is in the block of point r / 2000: the 50 blocks of 2000 rows tile the 100000 rows. -/
theorem rows_tiled_hi (i : S100000x128.Idx) : ∃ t : Fin cfg1.N, (cfg1.win 13).flush t = true ∧ i ∈ ((cfg1.win 13).blk t).view.set := by
  have hi0 : (i 0).val < 100000 := idx2_lt0 i
  have hi1 : (i 1).val < 128 := idx2_lt1 i
  have hN : cfg1.N = 50 := N_1
  refine ⟨⟨(i 0).val / 2000, by rw [hN]; omega⟩, flush1_13 _, ?_⟩
  rw [mem_block_hi]
  obtain ⟨h0, h1⟩ := idx_rows13 ⟨(i 0).val / 2000, by rw [hN]; omega⟩
  intro a
  match a with
  | ⟨0, _⟩ =>
    show win1_13.index _ (0 : Fin 2) * 2000 ≤ (i 0).val ∧ (i 0).val < win1_13.index _ (0 : Fin 2) * 2000 + 2000
    rw [h0]; show (i 0).val / 2000 * 2000 ≤ (i 0).val ∧ (i 0).val < (i 0).val / 2000 * 2000 + 2000; omega
  | ⟨1, _⟩ =>
    show win1_13.index _ (1 : Fin 2) * 128 ≤ (i 1).val ∧ (i 1).val < win1_13.index _ (1 : Fin 2) * 128 + 128
    rw [h1]; omega

theorem rows_tiled_sc (i : S100000x128.Idx) : ∃ t : Fin cfg1.N, (cfg1.win 14).flush t = true ∧ i ∈ ((cfg1.win 14).blk t).view.set := by
  have hi0 : (i 0).val < 100000 := idx2_lt0 i
  have hi1 : (i 1).val < 128 := idx2_lt1 i
  have hN : cfg1.N = 50 := N_1
  refine ⟨⟨(i 0).val / 2000, by rw [hN]; omega⟩, flush1_14 _, ?_⟩
  rw [mem_block_sc]
  obtain ⟨h0, h1⟩ := idx_rows14 ⟨(i 0).val / 2000, by rw [hN]; omega⟩
  intro a
  match a with
  | ⟨0, _⟩ =>
    show win1_14.index _ (0 : Fin 2) * 2000 ≤ (i 0).val ∧ (i 0).val < win1_14.index _ (0 : Fin 2) * 2000 + 2000
    rw [h0]; show (i 0).val / 2000 * 2000 ≤ (i 0).val ∧ (i 0).val < (i 0).val / 2000 * 2000 + 2000; omega
  | ⟨1, _⟩ =>
    show win1_14.index _ (1 : Fin 2) * 128 ≤ (i 1).val ∧ (i 1).val < win1_14.index _ (1 : Fin 2) * 128 + 128
    rw [h1]; omega

/-- The first output's array after the region: the stack of the arrays the region finds. -/
theorem array_hi (c : Dev nD) : (dat1 V c).arrAt 13 cfg1.N
    = HIw (V c main_arg1) (V c main_v32) (V c main_v34) (V c main_v36) (V c main_v45) (V c main_v40) (V c main_v42) (V c main_v46) (V c main_v8) (V c main_v47) :=
  (dat1 V c).arrAt_eq_of_cover 13 _ (fun t _ => writes_hi V c t) rows_tiled_hi

/-- The second output's array after the region: the join of the arrays the region finds. -/
theorem array_sc (c : Dev nD) : (dat1 V c).arrAt 14 cfg1.N
    = SCw (V c main_arg1) (V c main_v32) (V c main_v34) (V c main_v36) (V c main_v45) (V c main_v40) (V c main_v42) (V c main_v46) (V c main_v8) (V c main_v47)
        (V c main_v11) (V c main_v13) (V c main_v48) :=
  (dat1 V c).arrAt_eq_of_cover 14 _ (fun t _ => writes_sc V c t) rows_tiled_sc

end Arrays

/-! ## The weight arrays the region finds, read at an index -/

/-- Layer l of a stack of matrices, each transposed, then cut out and flattened: entry (k, j) is the stack at (l, j, k). -/
theorem layer_mat (X : Spec.W3) (o : Nat) (l : Fin 2) (hl : l.val = o) (hS : S2x128x128.Slices ![o, 0, 0] S1x128x128) (k j : Fin 128) :
    shapeCast S128x128 (extractStridedSlice S1x128x128 ![o, 0, 0] (transpose S2x128x128 [0, 2, 1] X transposes_S2x128x128_S2x128x128_0_2_1) hS)
      shapeCasts_S1x128x128_S128x128 (ix2 k j) = X (ix3 l j k) := by
  rw [shapeCast_1ab_ab_apply]
  rw [extractStridedSlice_apply ![o, 0, 0] _ hS (ix3 (0 : Fin 1) k j) (ix3 l k j) (fun a => by
    match a with
    | ⟨0, _⟩ => show l.val = o + 0; omega
    | ⟨1, _⟩ => show k.val = 0 + k.val; omega
    | ⟨2, _⟩ => show j.val = 0 + j.val; omega)]
  exact transpose_ix3_021_apply X _ l k j

/-- Row l of a two-row bias, cut out, flattened and made a one-row array again: entry (0, j) is the bias at (l, j). -/
theorem layer_bias (X : Spec.B2) (o : Nat) (l : Fin 2) (hl : l.val = o) (hS : S2x128.Slices ![o, 0] S1x128) (j : Fin 128) :
    shapeCast S1x128 (shapeCast S128 (extractStridedSlice S1x128 ![o, 0] X hS) shapeCasts_S1x128_S128) shapeCasts_S128_S1x128 (ix2 (0 : Fin 1) j)
      = X (ix2 l j) := by
  rw [shapeCast_a_1a_apply, shapeCast_1a_a_apply]
  exact slice2_axis0_apply o X hS (0 : Fin 1) j l (by show l.val = o + 0; omega)

/-- A bias vector made a one-row array: entry (0, j) is the vector at j. -/
theorem vec_row (X : Spec.B1) (j : Fin 128) : shapeCast S1x128 X shapeCasts_S128_S1x128 (ix2 (0 : Fin 1) j) = X (ix1 j) :=
  shapeCast_a_1a_apply X _ (0 : Fin 1) j

/-- A square matrix transposed: entry (k, j) is the matrix at (j, k). -/
theorem sq_T (X : Spec.W22) (k j : Fin 128) : transpose S128x128 [1, 0] X transposes_S128x128_S128x128_1_0 (ix2 k j) = X (ix2 j k) :=
  transpose_ix2_apply X _ k j

/-- The left half of a 128 by 256 matrix, transposed: entry (k, j) is the matrix at (j, k). -/
theorem lo_T (X : Spec.W2w) (k j : Fin 128) :
    transpose S128x128 [1, 0] (extractStridedSlice S128x128 ![0, 0] X slices_S128x256_S128x128_0_0) transposes_S128x128_S128x128_1_0 (ix2 k j)
      = X (ix2 j (Fin.castAdd 128 k)) := by
  rw [transpose_ix2_apply]
  exact slice2_axis1_apply 0 X slices_S128x256_S128x128_0_0 j k (Fin.castAdd 128 k) (by show k.val = 0 + k.val; omega)

/-- The right half of a 128 by 256 matrix, transposed: entry (k, j) is the matrix at (j, 128 + k). -/
theorem hi_T (X : Spec.W2w) (k j : Fin 128) :
    transpose S128x128 [1, 0] (extractStridedSlice S128x128 ![0, 128] X slices_S128x256_S128x128_0_128) transposes_S128x128_S128x128_1_0 (ix2 k j)
      = X (ix2 j (Fin.natAdd 128 k)) := by
  rw [transpose_ix2_apply]
  exact slice2_axis1_apply 128 X slices_S128x256_S128x128_0_128 j k (Fin.natAdd 128 k) rfl

/-! ## What the region finds in each window's array, from the arguments -/

section Walk

variable (m : (ℓ : Loc nD τ sig) → Buf (Elt Ideal) ℓ) (ρ : Dev nD → PrngReg)

/-- The employee table reaches the region as launched. -/
theorem found_e (c : Dev nD) : V4 m ρ c main_arg1 = m ((c.tc : Thread nD τ).loc main_arg1) :=
  calc W4 m ρ c (Proc.devRef .tc main_arg1)
    _ = W3 m ρ c (Proc.devRef .tc main_arg1) := by kept_host hostOps1_1
    _ = W2 m ρ c (Proc.devRef .tc main_arg1) := by kept_host hostOps1
    _ = W1 m ρ c (Proc.devRef .tc main_arg1) := W2_of_ne m ρ c main_arg1 (by decide)
    _ = W0 m ρ c (Proc.devRef .tc main_arg1) := by kept_host hostOps0
    _ = m ((c.tc : Thread nD τ).loc main_arg1) := rfl

/-- A buffer the first stretch wrote and nothing later touches is, at the region's entry, what the first stretch left. -/
theorem found_of_first (c : Dev nD) (b : Ref sig .tc)
    (h3 : StableHlo.after hostOps1_1 (W3 m ρ c) (Proc.devRef .tc b) = W3 m ρ c (Proc.devRef .tc b))
    (h2 : StableHlo.after hostOps1 (W2 m ρ c) (Proc.devRef .tc b) = W2 m ρ c (Proc.devRef .tc b))
    (h1 : ∀ w, Pipeline.arrRef spec0 w ≠ b) :
    W4 m ρ c (Proc.devRef .tc b) = W1 m ρ c (Proc.devRef .tc b) :=
  h3.trans (h2.trans (W2_of_ne m ρ c b h1))

/-- An argument nothing writes is, after the first region, as launched. -/
theorem early_arg (c : Dev nD) (b : Ref sig .tc) (h1 : ∀ w, Pipeline.arrRef spec0 w ≠ b)
    (h0 : StableHlo.after hostOps0 (W0 m ρ c) (Proc.devRef .tc b) = W0 m ρ c (Proc.devRef .tc b)) :
    W2 m ρ c (Proc.devRef .tc b) = W0 m ρ c (Proc.devRef .tc b) :=
  (W2_of_ne m ρ c b h1).trans h0

/-! ### The first stretch's transposes -/

theorem first_v4 (c : Dev nD) : W1 m ρ c (Proc.devRef .tc main_v4)
    = transpose S2x128x128 [0, 2, 1] (m ((c.tc : Thread nD τ).loc main_arg8)) transposes_S2x128x128_S2x128x128_0_2_1 := by
  show StableHlo.after hostOps0 (W0 m ρ c) (Proc.devRef .tc main_v4) = _
  after_results

theorem first_v5 (c : Dev nD) : W1 m ρ c (Proc.devRef .tc main_v5)
    = transpose S2x128x128 [0, 2, 1] (m ((c.tc : Thread nD τ).loc main_arg9)) transposes_S2x128x128_S2x128x128_0_2_1 := by
  show StableHlo.after hostOps0 (W0 m ρ c) (Proc.devRef .tc main_v5) = _
  after_results

theorem first_v8 (c : Dev nD) : W1 m ρ c (Proc.devRef .tc main_v8)
    = transpose S128x128 [1, 0] (m ((c.tc : Thread nD τ).loc main_arg16)) transposes_S128x128_S128x128_1_0 := by
  show StableHlo.after hostOps0 (W0 m ρ c) (Proc.devRef .tc main_v8) = _
  after_results

theorem first_v11 (c : Dev nD) : W1 m ρ c (Proc.devRef .tc main_v11)
    = transpose S128x128 [1, 0] (extractStridedSlice S128x128 ![0, 0] (m ((c.tc : Thread nD τ).loc main_arg14)) slices_S128x256_S128x128_0_0)
        transposes_S128x128_S128x128_1_0 := by
  show StableHlo.after hostOps0 (W0 m ρ c) (Proc.devRef .tc main_v11) = _
  after_results

theorem first_v13 (c : Dev nD) : W1 m ρ c (Proc.devRef .tc main_v13)
    = transpose S128x128 [1, 0] (extractStridedSlice S128x128 ![0, 128] (m ((c.tc : Thread nD τ).loc main_arg14)) slices_S128x256_S128x128_0_128)
        transposes_S128x128_S128x128_1_0 := by
  show StableHlo.after hostOps0 (W0 m ρ c) (Proc.devRef .tc main_v13) = _
  after_results

end Walk

section Walk2

variable (m : (ℓ : Loc nD τ sig) → Buf (Elt Ideal) ℓ) (ρ : Dev nD → PrngReg)

/-! ### The last stretch's slices and reshapes -/

theorem last_v34 (c : Dev nD) : W4 m ρ c (Proc.devRef .tc main_v34)
    = shapeCast S128x128 (extractStridedSlice S1x128x128 ![0, 0, 0] (W2 m ρ c (Proc.devRef .tc main_v4)) slices_S2x128x128_S1x128x128_0_0_0)
        shapeCasts_S1x128x128_S128x128 := by
  show StableHlo.after hostOps1_1 (W3 m ρ c) (Proc.devRef .tc main_v34) = _
  after_results
  rfl

theorem last_v36 (c : Dev nD) : W4 m ρ c (Proc.devRef .tc main_v36)
    = shapeCast S128x128 (extractStridedSlice S1x128x128 ![0, 0, 0] (W2 m ρ c (Proc.devRef .tc main_v5)) slices_S2x128x128_S1x128x128_0_0_0)
        shapeCasts_S1x128x128_S128x128 := by
  show StableHlo.after hostOps1_1 (W3 m ρ c) (Proc.devRef .tc main_v36) = _
  after_results
  rfl

theorem last_v40 (c : Dev nD) : W4 m ρ c (Proc.devRef .tc main_v40)
    = shapeCast S128x128 (extractStridedSlice S1x128x128 ![1, 0, 0] (W2 m ρ c (Proc.devRef .tc main_v4)) slices_S2x128x128_S1x128x128_1_0_0)
        shapeCasts_S1x128x128_S128x128 := by
  show StableHlo.after hostOps1_1 (W3 m ρ c) (Proc.devRef .tc main_v40) = _
  after_results
  rfl

theorem last_v42 (c : Dev nD) : W4 m ρ c (Proc.devRef .tc main_v42)
    = shapeCast S128x128 (extractStridedSlice S1x128x128 ![1, 0, 0] (W2 m ρ c (Proc.devRef .tc main_v5)) slices_S2x128x128_S1x128x128_1_0_0)
        shapeCasts_S1x128x128_S128x128 := by
  show StableHlo.after hostOps1_1 (W3 m ρ c) (Proc.devRef .tc main_v42) = _
  after_results
  rfl

theorem last_v45 (c : Dev nD) : W4 m ρ c (Proc.devRef .tc main_v45)
    = shapeCast S1x128 (shapeCast S128 (extractStridedSlice S1x128 ![0, 0] (W2 m ρ c (Proc.devRef .tc main_arg10)) slices_S2x128_S1x128_0_0)
        shapeCasts_S1x128_S128) shapeCasts_S128_S1x128 := by
  show StableHlo.after hostOps1_1 (W3 m ρ c) (Proc.devRef .tc main_v45) = _
  after_results
  rfl

theorem last_v46 (c : Dev nD) : W4 m ρ c (Proc.devRef .tc main_v46)
    = shapeCast S1x128 (shapeCast S128 (extractStridedSlice S1x128 ![1, 0] (W2 m ρ c (Proc.devRef .tc main_arg10)) slices_S2x128_S1x128_1_0)
        shapeCasts_S1x128_S128) shapeCasts_S128_S1x128 := by
  show StableHlo.after hostOps1_1 (W3 m ρ c) (Proc.devRef .tc main_v46) = _
  after_results
  rfl

theorem last_v47 (c : Dev nD) : W4 m ρ c (Proc.devRef .tc main_v47)
    = shapeCast S1x128 (W2 m ρ c (Proc.devRef .tc main_arg17)) shapeCasts_S128_S1x128 := by
  show StableHlo.after hostOps1_1 (W3 m ρ c) (Proc.devRef .tc main_v47) = _
  after_results
  rfl

theorem last_v48 (c : Dev nD) : W4 m ρ c (Proc.devRef .tc main_v48)
    = shapeCast S1x128 (W2 m ρ c (Proc.devRef .tc main_arg15)) shapeCasts_S128_S1x128 := by
  show StableHlo.after hostOps1_1 (W3 m ρ c) (Proc.devRef .tc main_v48) = _
  after_results
  rfl

/-! ### Each weight window's array as the specification reads the arguments -/

theorem found_s0 (c : Dev nD) : Spec.matOf (V4 m ρ c main_v34) = Spec.matT3 (m ((c.tc : Thread nD τ).loc main_arg8)) 0 := by
  funext k j
  show W4 m ρ c (Proc.devRef .tc main_v34) (ix2 k j) = m ((c.tc : Thread nD τ).loc main_arg8) (ix3 0 j k)
  rw [last_v34, W2_of_ne m ρ c main_v4 (by decide), first_v4]
  exact layer_mat _ 0 0 rfl _ k j

theorem found_n0 (c : Dev nD) : Spec.matOf (V4 m ρ c main_v36) = Spec.matT3 (m ((c.tc : Thread nD τ).loc main_arg9)) 0 := by
  funext k j
  show W4 m ρ c (Proc.devRef .tc main_v36) (ix2 k j) = m ((c.tc : Thread nD τ).loc main_arg9) (ix3 0 j k)
  rw [last_v36, W2_of_ne m ρ c main_v5 (by decide), first_v5]
  exact layer_mat _ 0 0 rfl _ k j

theorem found_s1 (c : Dev nD) : Spec.matOf (V4 m ρ c main_v40) = Spec.matT3 (m ((c.tc : Thread nD τ).loc main_arg8)) 1 := by
  funext k j
  show W4 m ρ c (Proc.devRef .tc main_v40) (ix2 k j) = m ((c.tc : Thread nD τ).loc main_arg8) (ix3 1 j k)
  rw [last_v40, W2_of_ne m ρ c main_v4 (by decide), first_v4]
  exact layer_mat _ 1 1 rfl _ k j

theorem found_n1 (c : Dev nD) : Spec.matOf (V4 m ρ c main_v42) = Spec.matT3 (m ((c.tc : Thread nD τ).loc main_arg9)) 1 := by
  funext k j
  show W4 m ρ c (Proc.devRef .tc main_v42) (ix2 k j) = m ((c.tc : Thread nD τ).loc main_arg9) (ix3 1 j k)
  rw [last_v42, W2_of_ne m ρ c main_v5 (by decide), first_v5]
  exact layer_mat _ 1 1 rfl _ k j

theorem found_b0 (c : Dev nD) : Spec.rowb (V4 m ρ c main_v45) = Spec.row2 (m ((c.tc : Thread nD τ).loc main_arg10)) 0 := by
  funext j
  show W4 m ρ c (Proc.devRef .tc main_v45) (ix2 0 j) = m ((c.tc : Thread nD τ).loc main_arg10) (ix2 0 j)
  rw [last_v45, early_arg m ρ c main_arg10 (by decide) (by kept_host hostOps0)]
  exact layer_bias _ 0 0 rfl _ j

theorem found_b1 (c : Dev nD) : Spec.rowb (V4 m ρ c main_v46) = Spec.row2 (m ((c.tc : Thread nD τ).loc main_arg10)) 1 := by
  funext j
  show W4 m ρ c (Proc.devRef .tc main_v46) (ix2 0 j) = m ((c.tc : Thread nD τ).loc main_arg10) (ix2 1 j)
  rw [last_v46, early_arg m ρ c main_arg10 (by decide) (by kept_host hostOps0)]
  exact layer_bias _ 1 1 rfl _ j

theorem found_w2 (c : Dev nD) : Spec.matOf (V4 m ρ c main_v8) = Spec.matT (m ((c.tc : Thread nD τ).loc main_arg16)) := by
  funext k j
  show W4 m ρ c (Proc.devRef .tc main_v8) (ix2 k j) = m ((c.tc : Thread nD τ).loc main_arg16) (ix2 j k)
  rw [found_of_first m ρ c main_v8 (by kept_host hostOps1_1) (by kept_host hostOps1) (by decide), first_v8]
  exact sq_T _ k j

theorem found_w2b (c : Dev nD) : Spec.rowb (V4 m ρ c main_v47) = Spec.row1 (m ((c.tc : Thread nD τ).loc main_arg17)) := by
  funext j
  show W4 m ρ c (Proc.devRef .tc main_v47) (ix2 0 j) = m ((c.tc : Thread nD τ).loc main_arg17) (ix1 j)
  rw [last_v47, early_arg m ρ c main_arg17 (by decide) (by kept_host hostOps0)]
  exact vec_row _ j

theorem found_w1lo (c : Dev nD) : Spec.matOf (V4 m ρ c main_v11) = Spec.matTlo (m ((c.tc : Thread nD τ).loc main_arg14)) := by
  funext k j
  show W4 m ρ c (Proc.devRef .tc main_v11) (ix2 k j) = m ((c.tc : Thread nD τ).loc main_arg14) (ix2 j (Fin.castAdd 128 k))
  rw [found_of_first m ρ c main_v11 (by kept_host hostOps1_1) (by kept_host hostOps1) (by decide), first_v11]
  exact lo_T _ k j

theorem found_w1hi (c : Dev nD) : Spec.matOf (V4 m ρ c main_v13) = Spec.matThi (m ((c.tc : Thread nD τ).loc main_arg14)) := by
  funext k j
  show W4 m ρ c (Proc.devRef .tc main_v13) (ix2 k j) = m ((c.tc : Thread nD τ).loc main_arg14) (ix2 j (Fin.natAdd 128 k))
  rw [found_of_first m ρ c main_v13 (by kept_host hostOps1_1) (by kept_host hostOps1) (by decide), first_v13]
  exact hi_T _ k j

theorem found_w1b (c : Dev nD) : Spec.rowb (V4 m ρ c main_v48) = Spec.row1 (m ((c.tc : Thread nD τ).loc main_arg15)) := by
  funext j
  show W4 m ρ c (Proc.devRef .tc main_v48) (ix2 0 j) = m ((c.tc : Thread nD τ).loc main_arg15) (ix1 j)
  rw [last_v48, early_arg m ρ c main_arg15 (by decide) (by kept_host hostOps0)]
  exact vec_row _ j

end Walk2

/-! ## The two arrays as the specification states them -/

theorem HIw_eq {e e' nb : Spec.A2 100000} {s0 n0 : Spec.W22} {b0 : Spec.B1r} {s1 n1 : Spec.W22} {b1 : Spec.B1r} {w : Spec.W22} {bw : Spec.B1r}
    {eks ekn : Spec.W3} {ekb : Spec.B2} {w2 : Spec.W22} {w2b : Spec.B1} (he : e = e')
    (hs0 : Spec.matOf s0 = Spec.matT3 eks 0) (hn0 : Spec.matOf n0 = Spec.matT3 ekn 0) (hb0 : Spec.rowb b0 = Spec.row2 ekb 0)
    (hs1 : Spec.matOf s1 = Spec.matT3 eks 1) (hn1 : Spec.matOf n1 = Spec.matT3 ekn 1) (hb1 : Spec.rowb b1 = Spec.row2 ekb 1)
    (hw : Spec.matOf w = Spec.matT w2) (hbw : Spec.rowb bw = Spec.row1 w2b) :
    HIw e nb s0 n0 b0 s1 n1 b1 w bw = Spec.HI e' nb eks ekn ekb w2 w2b := by
  subst he
  exact funext fun i => sage2_congr rfl rfl hs0 hn0 hb0 hs1 hn1 hb1 hw hbw rfl

theorem SCw_eq {e e' nb : Spec.A2 100000} {s0 n0 : Spec.W22} {b0 : Spec.B1r} {s1 n1 : Spec.W22} {b1 : Spec.B1r} {w : Spec.W22} {bw : Spec.B1r}
    {wlo whi : Spec.W22} {bj : Spec.B1r}
    {eks ekn : Spec.W3} {ekb : Spec.B2} {w2 : Spec.W22} {w2b : Spec.B1} {w1 : Spec.W2w} {w1b : Spec.B1} (he : e = e')
    (hs0 : Spec.matOf s0 = Spec.matT3 eks 0) (hn0 : Spec.matOf n0 = Spec.matT3 ekn 0) (hb0 : Spec.rowb b0 = Spec.row2 ekb 0)
    (hs1 : Spec.matOf s1 = Spec.matT3 eks 1) (hn1 : Spec.matOf n1 = Spec.matT3 ekn 1) (hb1 : Spec.rowb b1 = Spec.row2 ekb 1)
    (hw : Spec.matOf w = Spec.matT w2) (hbw : Spec.rowb bw = Spec.row1 w2b)
    (hlo : Spec.matOf wlo = Spec.matTlo w1) (hhi : Spec.matOf whi = Spec.matThi w1) (hbj : Spec.rowb bj = Spec.row1 w1b) :
    SCw e nb s0 n0 b0 s1 n1 b1 w bw wlo whi bj = Spec.SC e' nb eks ekn ekb w2 w2b w1 w1b := by
  subst he
  exact funext fun i => lin2_congr' (funext fun k => sage2_congr rfl rfl hs0 hn0 hb0 hs1 hn1 hb1 hw hbw rfl) rfl hlo hhi hbj rfl

variable (m : (ℓ : Loc nD τ sig) → Buf (Elt Ideal) ℓ) (ρ : Dev nD → PrngReg)

/-- After region 1 the buffers of `h_iI` and `src_com` hold the two dense stages of the employee table `e_emb` and of
    whatever neighbour means `NB` the region found in its second window's array. -/
theorem v49_eq (c : Dev nD) (NB : FVec Ideal S100000x128 .f32) (hNB : V4 m ρ c main_v32 = NB) :
    W5 m ρ c (Proc.devRef .tc main_v49_0) = Spec.HI (m ((c.tc : Thread nD τ).loc main_arg1)) NB (m ((c.tc : Thread nD τ).loc main_arg8)) (m ((c.tc : Thread nD τ).loc main_arg9)) (m ((c.tc : Thread nD τ).loc main_arg10)) (m ((c.tc : Thread nD τ).loc main_arg16)) (m ((c.tc : Thread nD τ).loc main_arg17))
    ∧ W5 m ρ c (Proc.devRef .tc main_v49_1) = Spec.SC (m ((c.tc : Thread nD τ).loc main_arg1)) NB (m ((c.tc : Thread nD τ).loc main_arg8)) (m ((c.tc : Thread nD τ).loc main_arg9)) (m ((c.tc : Thread nD τ).loc main_arg10)) (m ((c.tc : Thread nD τ).loc main_arg16)) (m ((c.tc : Thread nD τ).loc main_arg17)) (m ((c.tc : Thread nD τ).loc main_arg14)) (m ((c.tc : Thread nD τ).loc main_arg15)) := by
  subst hNB
  constructor
  · exact ((W5_arr m ρ c 13).trans (array_hi (V4 m ρ) c)).trans
      (HIw_eq (found_e m ρ c) (found_s0 m ρ c) (found_n0 m ρ c) (found_b0 m ρ c) (found_s1 m ρ c) (found_n1 m ρ c) (found_b1 m ρ c)
        (found_w2 m ρ c) (found_w2b m ρ c))
  · exact ((W5_arr m ρ c 14).trans (array_sc (V4 m ρ) c)).trans
      (SCw_eq (found_e m ρ c) (found_s0 m ρ c) (found_n0 m ρ c) (found_b0 m ρ c) (found_s1 m ρ c) (found_n1 m ρ c) (found_b1 m ρ c)
        (found_w2 m ρ c) (found_w2b m ρ c) (found_w1lo m ρ c) (found_w1hi m ρ c) (found_w1b m ρ c))

end Cert.KernelIdeal.KReg1

end
-- ==== Proof.KReg2.lean ====
/-
  Region 2 (the employee-to-employee stack, w3, the join and the leaky rectifier): what its output array holds after the run.
-/
import proofs.«428482_j83468394431314_1_alg».proof.Proof.Gen.KernelIdeal.Frame
import proofs.«428482_j83468394431314_1_alg».proof.Proof.Spec
import proofs.«428482_j83468394431314_1_alg».proof.Proof.Glue
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KReg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The block product: row r of the left block against column j of the right

Where the product reads its two operands, axis by axis: the left at the result's row and the contracted feature, the
right at the contracted feature and the result's column. -/

theorem lhs_rows (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_cols (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a 128 by 128 matrix, accumulated from zero: entry (r, j) is the sum over the 128
    contracted features of row r's feature times the matrix's entry in column j. -/
theorem blockmm_apply {φ₁ φ₂ : FTy} (lhs : FVec Ideal S2000x128 φ₁) (rhs : FVec Ideal S128x128 φ₂) (r : Fin 2000) (j : Fin 128) :
    (matmul dot_S2000x128_S128x128_S2000x128_1_0_0_1_n_n none lhs rhs (constant (F := Ideal) S2000x128 .f32 0x00000000#32) : FVec Ideal S2000x128 .f32) (ix2 r j)
      = ∑ k : Fin 128, lhs (ix2 r k) * rhs (ix2 k j) := by
  show FloatOps.matmul dot_S2000x128_S128x128_S2000x128_1_0_0_1_n_n none lhs rhs (constant (F := Ideal) S2000x128 .f32 0x00000000#32) (ix2 r j) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_rows _ _
    | ⟨1, _⟩ => exact (lhs_contr _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_contr _ _).trans hk
    | ⟨1, _⟩ => exact rhs_cols _ _)
  rw [el, er]

/-! ## The body's arithmetic at an entry of the block -/

/-- The two stacked layers on a block: entry (r, j) is the second layer's two products and bias, of the rectified first
    layer of row r of the features and of the neighbour means. -/
theorem layers_apply (x0 x1 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    k2_pay3 (F := Ideal) x0 x1 x3 x4 x5 x6 x7 x8 (ix2 r j)
      = Spec.lin2 (Spec.relu0 (Spec.lin2 (Spec.rowOf x0 r) (Spec.rowOf x1 r) (Spec.matOf x3) (Spec.matOf x4) (Spec.rowb x5)))
          (Spec.rowOf x1 r) (Spec.matOf x6) (Spec.matOf x7) (Spec.rowb x8) j := by
  unfold k2_pay3
  simp only [addf_apply, maximumf_apply, broadcast_apply, blockmm_apply, truncf_apply, shapeCast_self, broadcastTo_1b_ab_apply]
  rfl

/-- The last stage on a block: entry (r, j) is the leaky rectifier of the join of row r of the first operand with the
    linear map of row r of the second. -/
theorem join_apply (h s : FVec Ideal S2000x128 .f32) (w3 : Vec Ideal S128x128 .f32) (b3 : Vec Ideal S1x128 .f32)
    (c1 c2 : Vec Ideal S128x128 .f32) (cb : Vec Ideal S1x128 .f32) (r : Fin 2000) (j : Fin 128) :
    k2_pay1 (F := Ideal) h s w3 b3 c1 c2 cb (ix2 r j)
      = Spec.leaky (Spec.lin2 (Spec.rowOf h r) (Spec.lin1 (Spec.rowOf s r) (Spec.matOf w3) (Spec.rowb b3))
          (Spec.matOf c1) (Spec.matOf c2) (Spec.rowb cb)) j := by
  unfold k2_pay1
  simp only [addf_apply, mulf_apply, select_apply, cmpf_apply, broadcast_apply, blockmm_apply, truncf_apply, shapeCast_self, broadcastTo_1b_ab_apply]
  rfl

/-- The whole body on a block, entry by entry. -/
theorem body_apply (x0 x1 x2 : Vec Ideal S2000x128 .f32) (x3 x4 : Vec Ideal S128x128 .f32) (x5 : Vec Ideal S1x128 .f32)
    (x6 x7 : Vec Ideal S128x128 .f32) (x8 : Vec Ideal S1x128 .f32) (x9 : Vec Ideal S128x128 .f32) (x10 : Vec Ideal S1x128 .f32)
    (x11 x12 : Vec Ideal S128x128 .f32) (x13 : Vec Ideal S1x128 .f32) (r : Fin 2000) (j : Fin 128) :
    k2_pay1 (F := Ideal) (k2_pay2 x2) (k2_pay3 x0 x1 x3 x4 x5 x6 x7 x8) x9 x10 x11 x12 x13 (ix2 r j)
      = Spec.leaky (Spec.lin2 (Spec.rowOf x2 r)
          (Spec.sage2 (Spec.rowOf x0 r) (Spec.rowOf x1 r) (Spec.matOf x3) (Spec.matOf x4) (Spec.rowb x5) (Spec.matOf x6) (Spec.matOf x7) (Spec.rowb x8)
            (Spec.matOf x9) (Spec.rowb x10))
          (Spec.matOf x11) (Spec.matOf x12) (Spec.rowb x13)) j := by
  rw [join_apply]
  have e2 : k2_pay2 (F := Ideal) x2 = x2 := by unfold k2_pay2; exact shapeCast_self _ _
  have e3 : Spec.rowOf (k2_pay3 (F := Ideal) x0 x1 x3 x4 x5 x6 x7 x8) r
      = Spec.lin2 (Spec.relu0 (Spec.lin2 (Spec.rowOf x0 r) (Spec.rowOf x1 r) (Spec.matOf x3) (Spec.matOf x4) (Spec.rowb x5)))
          (Spec.rowOf x1 r) (Spec.matOf x6) (Spec.matOf x7) (Spec.rowb x8) := funext fun k => layers_apply x0 x1 x3 x4 x5 x6 x7 x8 r k
  rw [e2, e3]
  rfl

/-! ## From the blocks to the array -/

/-- The last dense stage as ONE function of the arrays the region finds in its windows: row by row of the first three,
    the weight matrices as stored (contraction index first), each bias its one row. -/
def stageD (E NC HI : FVec Ideal S100000x128 .f32) (s0 n0 : FVec Ideal S128x128 .f32) (b0 : FVec Ideal S1x128 .f32)
    (s1 n1 : FVec Ideal S128x128 .f32) (b1 : FVec Ideal S1x128 .f32) (w3 : FVec Ideal S128x128 .f32) (b3 : FVec Ideal S1x128 .f32)
    (c1 c2 : FVec Ideal S128x128 .f32) (cb : FVec Ideal S1x128 .f32) : FVec Ideal S100000x128 .f32 := fun i =>
  Spec.leaky (Spec.lin2 (Spec.rowOf HI (i 0))
    (Spec.sage2 (Spec.rowOf E (i 0)) (Spec.rowOf NC (i 0)) (Spec.matOf s0) (Spec.matOf n0) (Spec.rowb b0) (Spec.matOf s1) (Spec.matOf n1) (Spec.rowb b1)
      (Spec.matOf w3) (Spec.rowb b3))
    (Spec.matOf c1) (Spec.matOf c2) (Spec.rowb cb)) (i 1)

/-- The body on blocks whose rows are rows of three arrays: the entry at y of the block is the stage's entry at the
    array index i that has y's row of the block as its row and y's column. -/
theorem stage_of_blocks (A0 A1 A2 : FVec Ideal S100000x128 .f32) (x0 x1 x2 : Vec Ideal S2000x128 .f32)
    (x3 x4 : Vec Ideal S128x128 .f32) (x5 : Vec Ideal S1x128 .f32) (x6 x7 : Vec Ideal S128x128 .f32) (x8 : Vec Ideal S1x128 .f32)
    (x9 : Vec Ideal S128x128 .f32) (x10 : Vec Ideal S1x128 .f32) (x11 x12 : Vec Ideal S128x128 .f32) (x13 : Vec Ideal S1x128 .f32)
    (y : S2000x128.Idx) (i : S100000x128.Idx)
    (h0 : ∀ k, x0 (ix2 (y 0) k) = A0 (ix2 (i 0) k)) (h1 : ∀ k, x1 (ix2 (y 0) k) = A1 (ix2 (i 0) k))
    (h2 : ∀ k, x2 (ix2 (y 0) k) = A2 (ix2 (i 0) k)) (hj : (y 1).val = (i 1).val) :
    k2_pay1 (F := Ideal) (k2_pay2 x2) (k2_pay3 x0 x1 x3 x4 x5 x6 x7 x8) x9 x10 x11 x12 x13 y
      = stageD A0 A1 A2 x3 x4 x5 x6 x7 x8 x9 x10 x11 x12 x13 i := by
  obtain ⟨r, j, rfl⟩ : ∃ (r : Fin 2000) (j : Fin 128), y = ix2 r j := ⟨y 0, y 1, eq_ix2 y⟩
  rw [body_apply]
  have r0 : Spec.rowOf x0 r = Spec.rowOf A0 (i 0) := funext h0
  have r1 : Spec.rowOf x1 r = Spec.rowOf A1 (i 0) := funext h1
  have r2 : Spec.rowOf x2 r = Spec.rowOf A2 (i 0) := funext h2
  have hj' : j = i 1 := Fin.ext hj
  rw [r0, r1, r2, hj']
  rfl

section Region
variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid's 50 points: the three row windows and the result window sit at block row t and
    block column 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_14.index t (0 : Fin 2) = t.val ∧ win2_14.index t (1 : Fin 2) = 0 :=
  (by decide +kernel : ∀ t : Fin grid2.N, _)

/-! Each weight window's block, at any point, is its whole array. -/
theorem whole_blk3 (c : Dev nD) (t : Fin cfg2.N) : iblk2 V c 3 t = V c main_v67 := by
  funext z
  show V c main_v67 (((cfg2.win 3).blk t).view.emb z) = V c main_v67 z
  refine congrArg _ (funext fun a => Fin.ext ?_)
  match a with
  | ⟨0, _⟩ => show win2_3.index t (0 : Fin 2) * 128 + 1 * (z 0).val = (z 0).val; rw [show win2_3.index t (0 : Fin 2) = 0 from rfl]; omega
  | ⟨1, _⟩ => show win2_3.index t (1 : Fin 2) * 128 + 1 * (z 1).val = (z 1).val; rw [show win2_3.index t (1 : Fin 2) = 0 from rfl]; omega
theorem whole_blk4 (c : Dev nD) (t : Fin cfg2.N) : iblk2 V c 4 t = V c main_v69 := by
  funext z
  show V c main_v69 (((cfg2.win 4).blk t).view.emb z) = V c main_v69 z
  refine congrArg _ (funext fun a => Fin.ext ?_)
  match a with
  | ⟨0, _⟩ => show win2_4.index t (0 : Fin 2) * 128 + 1 * (z 0).val = (z 0).val; rw [show win2_4.index t (0 : Fin 2) = 0 from rfl]; omega
  | ⟨1, _⟩ => show win2_4.index t (1 : Fin 2) * 128 + 1 * (z 1).val = (z 1).val; rw [show win2_4.index t (1 : Fin 2) = 0 from rfl]; omega
theorem whole_blk5 (c : Dev nD) (t : Fin cfg2.N) : iblk2 V c 5 t = V c main_v78 := by
  funext z
  show V c main_v78 (((cfg2.win 5).blk t).view.emb z) = V c main_v78 z
  refine congrArg _ (funext fun a => Fin.ext ?_)
  match a with
  | ⟨0, _⟩ => show win2_5.index t (0 : Fin 2) * 1 + 1 * (z 0).val = (z 0).val; rw [show win2_5.index t (0 : Fin 2) = 0 from rfl]; omega
  | ⟨1, _⟩ => show win2_5.index t (1 : Fin 2) * 128 + 1 * (z 1).val = (z 1).val; rw [show win2_5.index t (1 : Fin 2) = 0 from rfl]; omega
theorem whole_blk6 (c : Dev nD) (t : Fin cfg2.N) : iblk2 V c 6 t = V c main_v73 := by
  funext z
  show V c main_v73 (((cfg2.win 6).blk t).view.emb z) = V c main_v73 z
  refine congrArg _ (funext fun a => Fin.ext ?_)
  match a with
  | ⟨0, _⟩ => show win2_6.index t (0 : Fin 2) * 128 + 1 * (z 0).val = (z 0).val; rw [show win2_6.index t (0 : Fin 2) = 0 from rfl]; omega
  | ⟨1, _⟩ => show win2_6.index t (1 : Fin 2) * 128 + 1 * (z 1).val = (z 1).val; rw [show win2_6.index t (1 : Fin 2) = 0 from rfl]; omega
theorem whole_blk7 (c : Dev nD) (t : Fin cfg2.N) : iblk2 V c 7 t = V c main_v75 := by
  funext z
  show V c main_v75 (((cfg2.win 7).blk t).view.emb z) = V c main_v75 z
  refine congrArg _ (funext fun a => Fin.ext ?_)
  match a with
  | ⟨0, _⟩ => show win2_7.index t (0 : Fin 2) * 128 + 1 * (z 0).val = (z 0).val; rw [show win2_7.index t (0 : Fin 2) = 0 from rfl]; omega
  | ⟨1, _⟩ => show win2_7.index t (1 : Fin 2) * 128 + 1 * (z 1).val = (z 1).val; rw [show win2_7.index t (1 : Fin 2) = 0 from rfl]; omega
theorem whole_blk8 (c : Dev nD) (t : Fin cfg2.N) : iblk2 V c 8 t = V c main_v79 := by
  funext z
  show V c main_v79 (((cfg2.win 8).blk t).view.emb z) = V c main_v79 z
  refine congrArg _ (funext fun a => Fin.ext ?_)
  match a with
  | ⟨0, _⟩ => show win2_8.index t (0 : Fin 2) * 1 + 1 * (z 0).val = (z 0).val; rw [show win2_8.index t (0 : Fin 2) = 0 from rfl]; omega
  | ⟨1, _⟩ => show win2_8.index t (1 : Fin 2) * 128 + 1 * (z 1).val = (z 1).val; rw [show win2_8.index t (1 : Fin 2) = 0 from rfl]; omega
theorem whole_blk9 (c : Dev nD) (t : Fin cfg2.N) : iblk2 V c 9 t = V c main_v9 := by
  funext z
  show V c main_v9 (((cfg2.win 9).blk t).view.emb z) = V c main_v9 z
  refine congrArg _ (funext fun a => Fin.ext ?_)
  match a with
  | ⟨0, _⟩ => show win2_9.index t (0 : Fin 2) * 128 + 1 * (z 0).val = (z 0).val; rw [show win2_9.index t (0 : Fin 2) = 0 from rfl]; omega
  | ⟨1, _⟩ => show win2_9.index t (1 : Fin 2) * 128 + 1 * (z 1).val = (z 1).val; rw [show win2_9.index t (1 : Fin 2) = 0 from rfl]; omega
theorem whole_blk10 (c : Dev nD) (t : Fin cfg2.N) : iblk2 V c 10 t = V c main_v80 := by
  funext z
  show V c main_v80 (((cfg2.win 10).blk t).view.emb z) = V c main_v80 z
  refine congrArg _ (funext fun a => Fin.ext ?_)
  match a with
  | ⟨0, _⟩ => show win2_10.index t (0 : Fin 2) * 1 + 1 * (z 0).val = (z 0).val; rw [show win2_10.index t (0 : Fin 2) = 0 from rfl]; omega
  | ⟨1, _⟩ => show win2_10.index t (1 : Fin 2) * 128 + 1 * (z 1).val = (z 1).val; rw [show win2_10.index t (1 : Fin 2) = 0 from rfl]; omega
theorem whole_blk11 (c : Dev nD) (t : Fin cfg2.N) : iblk2 V c 11 t = V c main_v15 := by
  funext z
  show V c main_v15 (((cfg2.win 11).blk t).view.emb z) = V c main_v15 z
  refine congrArg _ (funext fun a => Fin.ext ?_)
  match a with
  | ⟨0, _⟩ => show win2_11.index t (0 : Fin 2) * 128 + 1 * (z 0).val = (z 0).val; rw [show win2_11.index t (0 : Fin 2) = 0 from rfl]; omega
  | ⟨1, _⟩ => show win2_11.index t (1 : Fin 2) * 128 + 1 * (z 1).val = (z 1).val; rw [show win2_11.index t (1 : Fin 2) = 0 from rfl]; omega
theorem whole_blk12 (c : Dev nD) (t : Fin cfg2.N) : iblk2 V c 12 t = V c main_v17 := by
  funext z
  show V c main_v17 (((cfg2.win 12).blk t).view.emb z) = V c main_v17 z
  refine congrArg _ (funext fun a => Fin.ext ?_)
  match a with
  | ⟨0, _⟩ => show win2_12.index t (0 : Fin 2) * 128 + 1 * (z 0).val = (z 0).val; rw [show win2_12.index t (0 : Fin 2) = 0 from rfl]; omega
  | ⟨1, _⟩ => show win2_12.index t (1 : Fin 2) * 128 + 1 * (z 1).val = (z 1).val; rw [show win2_12.index t (1 : Fin 2) = 0 from rfl]; omega
theorem whole_blk13 (c : Dev nD) (t : Fin cfg2.N) : iblk2 V c 13 t = V c main_v81 := by
  funext z
  show V c main_v81 (((cfg2.win 13).blk t).view.emb z) = V c main_v81 z
  refine congrArg _ (funext fun a => Fin.ext ?_)
  match a with
  | ⟨0, _⟩ => show win2_13.index t (0 : Fin 2) * 1 + 1 * (z 0).val = (z 0).val; rw [show win2_13.index t (0 : Fin 2) = 0 from rfl]; omega
  | ⟨1, _⟩ => show win2_13.index t (1 : Fin 2) * 128 + 1 * (z 1).val = (z 1).val; rw [show win2_13.index t (1 : Fin 2) = 0 from rfl]; omega

/-! Row y of a row window's block at point t is the array's row under y in the result window's block at t. -/
theorem row_blk0 (c : Dev nD) (t : Fin cfg2.N) (y : S2000x128.Idx) (k : Fin 128) :
    iblk2 V c 0 t (ix2 (y 0) k) = V c main_arg1 (ix2 ((((cfg2.win 14).blk t).view.emb y) 0) k) := by
  obtain ⟨e00, e01, e10, e11, e20, e21, eo0, eo1⟩ := idx_facts t
  show V c main_arg1 (((cfg2.win 0).blk t).view.emb (ix2 (y 0) k)) = _
  refine congrArg _ (funext fun a => Fin.ext ?_)
  match a with
  | ⟨0, _⟩ => show win2_0.index t (0 : Fin 2) * 2000 + 1 * (y 0).val = win2_14.index t (0 : Fin 2) * 2000 + 1 * (y 0).val; rw [e00, eo0]
  | ⟨1, _⟩ => show win2_0.index t (1 : Fin 2) * 128 + 1 * k.val = k.val; rw [e01]; omega
theorem row_blk1 (c : Dev nD) (t : Fin cfg2.N) (y : S2000x128.Idx) (k : Fin 128) :
    iblk2 V c 1 t (ix2 (y 0) k) = V c main_v65 (ix2 ((((cfg2.win 14).blk t).view.emb y) 0) k) := by
  obtain ⟨e00, e01, e10, e11, e20, e21, eo0, eo1⟩ := idx_facts t
  show V c main_v65 (((cfg2.win 1).blk t).view.emb (ix2 (y 0) k)) = _
  refine congrArg _ (funext fun a => Fin.ext ?_)
  match a with
  | ⟨0, _⟩ => show win2_1.index t (0 : Fin 2) * 2000 + 1 * (y 0).val = win2_14.index t (0 : Fin 2) * 2000 + 1 * (y 0).val; rw [e10, eo0]
  | ⟨1, _⟩ => show win2_1.index t (1 : Fin 2) * 128 + 1 * k.val = k.val; rw [e11]; omega
theorem row_blk2 (c : Dev nD) (t : Fin cfg2.N) (y : S2000x128.Idx) (k : Fin 128) :
    iblk2 V c 2 t (ix2 (y 0) k) = V c main_v49_0 (ix2 ((((cfg2.win 14).blk t).view.emb y) 0) k) := by
  obtain ⟨e00, e01, e10, e11, e20, e21, eo0, eo1⟩ := idx_facts t
  show V c main_v49_0 (((cfg2.win 2).blk t).view.emb (ix2 (y 0) k)) = _
  refine congrArg _ (funext fun a => Fin.ext ?_)
  match a with
  | ⟨0, _⟩ => show win2_2.index t (0 : Fin 2) * 2000 + 1 * (y 0).val = win2_14.index t (0 : Fin 2) * 2000 + 1 * (y 0).val; rw [e20, eo0]
  | ⟨1, _⟩ => show win2_2.index t (1 : Fin 2) * 128 + 1 * k.val = k.val; rw [e21]; omega

/-- What point t writes back is block t of the stage of the arrays the region finds. -/
theorem written_eq (c : Dev nD) (t : Fin cfg2.N) :
    (dat2 V c).flushed 14 t = ((cfg2.win 14).blk t).view.read (Elt Ideal)
      (stageD (V c main_arg1) (V c main_v65) (V c main_v49_0) (V c main_v67) (V c main_v69) (V c main_v78) (V c main_v73) (V c main_v75)
        (V c main_v79) (V c main_v9) (V c main_v80) (V c main_v15) (V c main_v17) (V c main_v81)) := by
  show (cfg2.win 14).cut (grid2.coords t) ((dat2 V c).after 14 t) = _
  rw [after2_14]
  unfold out2_14
  rw [View.canon_unit_zero zero_off]
  simp only [View.ld_unit_zero (S := S2000x128) zero_off, View.ld_unit_zero (S := S128x128) zero_off, View.ld_unit_zero (S := S1x128) zero_off]
  rw [whole_blk3, whole_blk4, whole_blk5, whole_blk6, whole_blk7, whole_blk8, whole_blk9, whole_blk10, whole_blk11, whole_blk12, whole_blk13]
  funext y
  have eo1 := (idx_facts t).2.2.2.2.2.2.2
  exact stage_of_blocks (V c main_arg1) (V c main_v65) (V c main_v49_0) _ _ _ _ _ _ _ _ _ _ _ _ _ _ y (((cfg2.win 14).blk t).view.emb y)
    (row_blk0 V c t y) (row_blk1 V c t y) (row_blk2 V c t y)
    (by show (y 1).val = win2_14.index t (1 : Fin 2) * 128 + 1 * (y 1).val; rw [eo1]; omega)

/-- An index of the result array is in point t's block iff each coordinate is in the block's range on its axis. -/
theorem mem_blk (t : Fin cfg2.N) (i : S100000x128.Idx) :
    i ∈ ((cfg2.win 14).blk t).view.set ↔ ∀ a : Fin 2, win2_14.index t a * S2000x128.size a ≤ (i a).val ∧ (i a).val < win2_14.index t a * S2000x128.size a + S2000x128.size a := by
  show i ∈ ((View.whole main_v82).slice (win2_14.rect t)).set ↔ _
  rw [View.set_slice_whole, Rect.mem_set_unit]
  exact Iff.rfl

/-- Row r of the result is written by point r / 2000: the 50 blocks of 2000 rows tile the 100000 rows. -/
theorem covered (i : S100000x128.Idx) : ∃ t : Fin cfg2.N, (cfg2.win 14).flush t = true ∧ i ∈ ((cfg2.win 14).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨_, _, _, _, _, _, eo0, eo1⟩ := idx_facts t
  refine ⟨t, flush2_14 t, ?_⟩
  rw [mem_blk]
  intro a
  have ht : t.val = (i 0).val / 2000 := rfl
  match a with
  | ⟨0, _⟩ => show win2_14.index t (0 : Fin 2) * 2000 ≤ (i 0).val ∧ (i 0).val < win2_14.index t (0 : Fin 2) * 2000 + 2000; rw [eo0, ht]; omega
  | ⟨1, _⟩ => show win2_14.index t (1 : Fin 2) * 128 ≤ (i 1).val ∧ (i 1).val < win2_14.index t (1 : Fin 2) * 128 + 128; rw [eo1]; omega

/-- The result array after the region: the stage of the arrays the region finds. -/
theorem result_arr (c : Dev nD) : (dat2 V c).arrAt 14 cfg2.N
    = stageD (V c main_arg1) (V c main_v65) (V c main_v49_0) (V c main_v67) (V c main_v69) (V c main_v78) (V c main_v73) (V c main_v75)
        (V c main_v79) (V c main_v9) (V c main_v80) (V c main_v15) (V c main_v17) (V c main_v81) :=
  (dat2 V c).arrAt_eq_of_cover 14 _ (fun t _ => written_eq V c t) covered

end Region

/-! ## The host's layout operations on the weights, entry by entry -/

/-- Layer l of a stack of matrices, each transposed, cut out and its unit axis dropped: entry (k, j) is the stack's
    entry (l, j, k). -/
theorem stack_T_apply (X : FVec Ideal S2x128x128 .f32) (o : Nat) (l : Fin 2) (ho : l.val = o)
    (ht : S2x128x128.Transposes [0, 2, 1] S2x128x128) (hs : S2x128x128.Slices ![o, 0, 0] S1x128x128)
    (hc : S1x128x128.ShapeCasts S128x128) (k j : Fin 128) :
    shapeCast S128x128 (extractStridedSlice S1x128x128 ![o, 0, 0] (transpose S2x128x128 [0, 2, 1] X ht) hs) hc (ix2 k j)
      = X (ix3 l j k) := by
  rw [shapeCast_1ab_ab_apply,
    extractStridedSlice_apply ![o, 0, 0] _ hs (ix3 (0 : Fin 1) k j) (ix3 l k j) (fun a => by
      match a with
      | ⟨0, _⟩ => exact ho.trans (Nat.add_zero o).symm
      | ⟨1, _⟩ => exact (Nat.zero_add _).symm
      | ⟨2, _⟩ => exact (Nat.zero_add _).symm),
    transpose_ix3_021_apply]

/-- Row l of a two-row array cut out, flattened and given back its unit axis: entry (0, j) is the array's entry (l, j). -/
theorem row_cut_apply (X : FVec Ideal S2x128 .f32) (o : Nat) (l : Fin 2) (ho : l.val = o)
    (hs : S2x128.Slices ![o, 0] S1x128) (h1 : S1x128.ShapeCasts S128) (h2 : S128.ShapeCasts S1x128) (j : Fin 128) :
    shapeCast S1x128 (shapeCast S128 (extractStridedSlice S1x128 ![o, 0] X hs) h1) h2 (ix2 (0 : Fin 1) j) = X (ix2 l j) := by
  rw [shapeCast_a_1a_apply, shapeCast_1a_a_apply]
  exact slice2_axis0_apply o X hs (0 : Fin 1) j l (ho.trans (Nat.add_zero o).symm)

/-- The first 128 columns of a 128 by 256 matrix, transposed: entry (k, j) is the matrix's entry (j, k). -/
theorem lo_T_apply (X : FVec Ideal S128x256 .f32) (hs : S128x256.Slices ![0, 0] S128x128)
    (ht : S128x128.Transposes [1, 0] S128x128) (k j : Fin 128) :
    transpose S128x128 [1, 0] (extractStridedSlice S128x128 ![0, 0] X hs) ht (ix2 k j) = X (ix2 j (Fin.castAdd 128 k)) := by
  rw [transpose_ix2_apply]
  exact slice2_axis1_apply 0 X hs j k (Fin.castAdd 128 k) (Nat.zero_add _).symm

/-- The last 128 columns of a 128 by 256 matrix, transposed: entry (k, j) is the matrix's entry (j, 128 + k). -/
theorem hi_T_apply (X : FVec Ideal S128x256 .f32) (hs : S128x256.Slices ![0, 128] S128x128)
    (ht : S128x128.Transposes [1, 0] S128x128) (k j : Fin 128) :
    transpose S128x128 [1, 0] (extractStridedSlice S128x128 ![0, 128] X hs) ht (ix2 k j) = X (ix2 j (Fin.natAdd 128 k)) := by
  rw [transpose_ix2_apply]
  exact slice2_axis1_apply 128 X hs j k (Fin.natAdd 128 k) rfl

/-! ## What the region finds in its windows, in terms of the arguments

Before the last two stretches of host operations: an argument they read is as launched; a transposed weight made by the
first stretch is that transpose of its argument. -/

theorem main_arg13_mid (c : Dev nD) : W5 m ρ c (Proc.devRef .tc main_arg13) = m ((c.tc : Thread nD τ).loc main_arg13) := by
  have h7 : W7 m ρ c (Proc.devRef .tc main_arg13) = W5 m ρ c (Proc.devRef .tc main_arg13) := by
    show StableHlo.after hostOps2_1 (StableHlo.after hostOps2 (W5 m ρ c)) (Proc.devRef .tc main_arg13) = _
    after_results_simp
  exact h7.symm.trans ((W8_of_ne m ρ c main_arg13 (by decide)).symm.trans (W8_main_arg13 m ρ c))

theorem main_arg19_mid (c : Dev nD) : W5 m ρ c (Proc.devRef .tc main_arg19) = m ((c.tc : Thread nD τ).loc main_arg19) := by
  have h7 : W7 m ρ c (Proc.devRef .tc main_arg19) = W5 m ρ c (Proc.devRef .tc main_arg19) := by
    show StableHlo.after hostOps2_1 (StableHlo.after hostOps2 (W5 m ρ c)) (Proc.devRef .tc main_arg19) = _
    after_results_simp
  exact h7.symm.trans ((W8_of_ne m ρ c main_arg19 (by decide)).symm.trans (W8_main_arg19 m ρ c))

theorem main_arg23_mid (c : Dev nD) : W5 m ρ c (Proc.devRef .tc main_arg23) = m ((c.tc : Thread nD τ).loc main_arg23) := by
  have h7 : W7 m ρ c (Proc.devRef .tc main_arg23) = W5 m ρ c (Proc.devRef .tc main_arg23) := by
    show StableHlo.after hostOps2_1 (StableHlo.after hostOps2 (W5 m ρ c)) (Proc.devRef .tc main_arg23) = _
    after_results_simp
  exact h7.symm.trans ((W8_of_ne m ρ c main_arg23 (by decide)).symm.trans (W8_main_arg23 m ρ c))

theorem main_v6_mid (c : Dev nD) : (W5 m ρ c (Proc.devRef .tc main_v6) : S2x128x128.Idx → EReal)
    = transpose S2x128x128 [0, 2, 1] (m ((c.tc : Thread nD τ).loc main_arg11)) transposes_S2x128x128_S2x128x128_0_2_1 := by
  have h4 : W4 m ρ c (Proc.devRef .tc main_v6) = W2 m ρ c (Proc.devRef .tc main_v6) := by
    show StableHlo.after hostOps1_1 (StableHlo.after hostOps1 (W2 m ρ c)) (Proc.devRef .tc main_v6) = _
    after_results_simp
  have h1 : (W1 m ρ c (Proc.devRef .tc main_v6) : S2x128x128.Idx → EReal) = transpose S2x128x128 [0, 2, 1] (m ((c.tc : Thread nD τ).loc main_arg11)) transposes_S2x128x128_S2x128x128_0_2_1 := by
    show StableHlo.after hostOps0 (W0 m ρ c) (Proc.devRef .tc main_v6) = _
    after_results_simp
  exact (W5_of_ne m ρ c main_v6 (by decide)).trans (h4.trans ((W2_of_ne m ρ c main_v6 (by decide)).trans h1))

theorem main_v7_mid (c : Dev nD) : (W5 m ρ c (Proc.devRef .tc main_v7) : S2x128x128.Idx → EReal)
    = transpose S2x128x128 [0, 2, 1] (m ((c.tc : Thread nD τ).loc main_arg12)) transposes_S2x128x128_S2x128x128_0_2_1 := by
  have h4 : W4 m ρ c (Proc.devRef .tc main_v7) = W2 m ρ c (Proc.devRef .tc main_v7) := by
    show StableHlo.after hostOps1_1 (StableHlo.after hostOps1 (W2 m ρ c)) (Proc.devRef .tc main_v7) = _
    after_results_simp
  have h1 : (W1 m ρ c (Proc.devRef .tc main_v7) : S2x128x128.Idx → EReal) = transpose S2x128x128 [0, 2, 1] (m ((c.tc : Thread nD τ).loc main_arg12)) transposes_S2x128x128_S2x128x128_0_2_1 := by
    show StableHlo.after hostOps0 (W0 m ρ c) (Proc.devRef .tc main_v7) = _
    after_results_simp
  exact (W5_of_ne m ρ c main_v7 (by decide)).trans (h4.trans ((W2_of_ne m ρ c main_v7 (by decide)).trans h1))

theorem main_v9_mid (c : Dev nD) : (W5 m ρ c (Proc.devRef .tc main_v9) : S128x128.Idx → EReal)
    = transpose S128x128 [1, 0] (m ((c.tc : Thread nD τ).loc main_arg18)) transposes_S128x128_S128x128_1_0 := by
  have h4 : W4 m ρ c (Proc.devRef .tc main_v9) = W2 m ρ c (Proc.devRef .tc main_v9) := by
    show StableHlo.after hostOps1_1 (StableHlo.after hostOps1 (W2 m ρ c)) (Proc.devRef .tc main_v9) = _
    after_results_simp
  have h1 : (W1 m ρ c (Proc.devRef .tc main_v9) : S128x128.Idx → EReal) = transpose S128x128 [1, 0] (m ((c.tc : Thread nD τ).loc main_arg18)) transposes_S128x128_S128x128_1_0 := by
    show StableHlo.after hostOps0 (W0 m ρ c) (Proc.devRef .tc main_v9) = _
    after_results_simp
  exact (W5_of_ne m ρ c main_v9 (by decide)).trans (h4.trans ((W2_of_ne m ρ c main_v9 (by decide)).trans h1))

theorem main_v15_mid (c : Dev nD) : (W5 m ρ c (Proc.devRef .tc main_v15) : S128x128.Idx → EReal)
    = transpose S128x128 [1, 0] (extractStridedSlice S128x128 ![0, 0] (m ((c.tc : Thread nD τ).loc main_arg22)) slices_S128x256_S128x128_0_0) transposes_S128x128_S128x128_1_0 := by
  have h4 : W4 m ρ c (Proc.devRef .tc main_v15) = W2 m ρ c (Proc.devRef .tc main_v15) := by
    show StableHlo.after hostOps1_1 (StableHlo.after hostOps1 (W2 m ρ c)) (Proc.devRef .tc main_v15) = _
    after_results_simp
  have h1 : (W1 m ρ c (Proc.devRef .tc main_v15) : S128x128.Idx → EReal) = transpose S128x128 [1, 0] (extractStridedSlice S128x128 ![0, 0] (m ((c.tc : Thread nD τ).loc main_arg22)) slices_S128x256_S128x128_0_0) transposes_S128x128_S128x128_1_0 := by
    show StableHlo.after hostOps0 (W0 m ρ c) (Proc.devRef .tc main_v15) = _
    after_results_simp
  exact (W5_of_ne m ρ c main_v15 (by decide)).trans (h4.trans ((W2_of_ne m ρ c main_v15 (by decide)).trans h1))

theorem main_v17_mid (c : Dev nD) : (W5 m ρ c (Proc.devRef .tc main_v17) : S128x128.Idx → EReal)
    = transpose S128x128 [1, 0] (extractStridedSlice S128x128 ![0, 128] (m ((c.tc : Thread nD τ).loc main_arg22)) slices_S128x256_S128x128_0_128) transposes_S128x128_S128x128_1_0 := by
  have h4 : W4 m ρ c (Proc.devRef .tc main_v17) = W2 m ρ c (Proc.devRef .tc main_v17) := by
    show StableHlo.after hostOps1_1 (StableHlo.after hostOps1 (W2 m ρ c)) (Proc.devRef .tc main_v17) = _
    after_results_simp
  have h1 : (W1 m ρ c (Proc.devRef .tc main_v17) : S128x128.Idx → EReal) = transpose S128x128 [1, 0] (extractStridedSlice S128x128 ![0, 128] (m ((c.tc : Thread nD τ).loc main_arg22)) slices_S128x256_S128x128_0_128) transposes_S128x128_S128x128_1_0 := by
    show StableHlo.after hostOps0 (W0 m ρ c) (Proc.devRef .tc main_v17) = _
    after_results_simp
  exact (W5_of_ne m ρ c main_v17 (by decide)).trans (h4.trans ((W2_of_ne m ρ c main_v17 (by decide)).trans h1))

/-- The features' array is the argument: no stretch and no region writes it. -/
theorem win_main_arg1 (c : Dev nD) : V7 m ρ c main_arg1 = m ((c.tc : Thread nD τ).loc main_arg1) :=
  ((W8_arr m ρ c 0).trans (((dat2 (V7 m ρ) c).arrAt_in 0 rfl _).trans (A_eq2 (V7 m ρ) c 0))).symm.trans (W8_main_arg1 m ρ c)

/-! Each weight window, read as the matrix or row the stage uses, is the reference's reading of its argument. -/

theorem win_main_v67 (c : Dev nD) : Spec.matOf (V7 m ρ c main_v67) = Spec.matT3 (m ((c.tc : Thread nD τ).loc main_arg11)) 0 := by
  have e : (V7 m ρ c main_v67 : S128x128.Idx → EReal) = shapeCast S128x128 (extractStridedSlice S1x128x128 ![0, 0, 0] (W5 m ρ c (Proc.devRef .tc main_v6)) slices_S2x128x128_S1x128x128_0_0_0) shapeCasts_S1x128x128_S128x128 := by
    show StableHlo.after hostOps2_1 (StableHlo.after hostOps2 (W5 m ρ c)) (Proc.devRef .tc main_v67) = _
    after_results_simp
    rfl
  funext k j
  show (V7 m ρ c main_v67 : S128x128.Idx → EReal) (ix2 k j) = _
  rw [e, main_v6_mid]
  exact stack_T_apply _ 0 0 rfl _ _ _ k j

theorem win_main_v69 (c : Dev nD) : Spec.matOf (V7 m ρ c main_v69) = Spec.matT3 (m ((c.tc : Thread nD τ).loc main_arg12)) 0 := by
  have e : (V7 m ρ c main_v69 : S128x128.Idx → EReal) = shapeCast S128x128 (extractStridedSlice S1x128x128 ![0, 0, 0] (W5 m ρ c (Proc.devRef .tc main_v7)) slices_S2x128x128_S1x128x128_0_0_0) shapeCasts_S1x128x128_S128x128 := by
    show StableHlo.after hostOps2_1 (StableHlo.after hostOps2 (W5 m ρ c)) (Proc.devRef .tc main_v69) = _
    after_results_simp
    rfl
  funext k j
  show (V7 m ρ c main_v69 : S128x128.Idx → EReal) (ix2 k j) = _
  rw [e, main_v7_mid]
  exact stack_T_apply _ 0 0 rfl _ _ _ k j

theorem win_main_v78 (c : Dev nD) : Spec.rowb (V7 m ρ c main_v78) = Spec.row2 (m ((c.tc : Thread nD τ).loc main_arg13)) 0 := by
  have e : (V7 m ρ c main_v78 : S1x128.Idx → EReal) = shapeCast S1x128 (shapeCast S128 (extractStridedSlice S1x128 ![0, 0] (W5 m ρ c (Proc.devRef .tc main_arg13)) slices_S2x128_S1x128_0_0) shapeCasts_S1x128_S128) shapeCasts_S128_S1x128 := by
    show StableHlo.after hostOps2_1 (StableHlo.after hostOps2 (W5 m ρ c)) (Proc.devRef .tc main_v78) = _
    after_results_simp
    rfl
  funext j
  show (V7 m ρ c main_v78 : S1x128.Idx → EReal) (ix2 (0 : Fin 1) j) = _
  rw [e, main_arg13_mid]
  exact row_cut_apply _ 0 0 rfl _ _ _ j

theorem win_main_v73 (c : Dev nD) : Spec.matOf (V7 m ρ c main_v73) = Spec.matT3 (m ((c.tc : Thread nD τ).loc main_arg11)) 1 := by
  have e : (V7 m ρ c main_v73 : S128x128.Idx → EReal) = shapeCast S128x128 (extractStridedSlice S1x128x128 ![1, 0, 0] (W5 m ρ c (Proc.devRef .tc main_v6)) slices_S2x128x128_S1x128x128_1_0_0) shapeCasts_S1x128x128_S128x128 := by
    show StableHlo.after hostOps2_1 (StableHlo.after hostOps2 (W5 m ρ c)) (Proc.devRef .tc main_v73) = _
    after_results_simp
    rfl
  funext k j
  show (V7 m ρ c main_v73 : S128x128.Idx → EReal) (ix2 k j) = _
  rw [e, main_v6_mid]
  exact stack_T_apply _ 1 1 rfl _ _ _ k j

theorem win_main_v75 (c : Dev nD) : Spec.matOf (V7 m ρ c main_v75) = Spec.matT3 (m ((c.tc : Thread nD τ).loc main_arg12)) 1 := by
  have e : (V7 m ρ c main_v75 : S128x128.Idx → EReal) = shapeCast S128x128 (extractStridedSlice S1x128x128 ![1, 0, 0] (W5 m ρ c (Proc.devRef .tc main_v7)) slices_S2x128x128_S1x128x128_1_0_0) shapeCasts_S1x128x128_S128x128 := by
    show StableHlo.after hostOps2_1 (StableHlo.after hostOps2 (W5 m ρ c)) (Proc.devRef .tc main_v75) = _
    after_results_simp
    rfl
  funext k j
  show (V7 m ρ c main_v75 : S128x128.Idx → EReal) (ix2 k j) = _
  rw [e, main_v7_mid]
  exact stack_T_apply _ 1 1 rfl _ _ _ k j

theorem win_main_v79 (c : Dev nD) : Spec.rowb (V7 m ρ c main_v79) = Spec.row2 (m ((c.tc : Thread nD τ).loc main_arg13)) 1 := by
  have e : (V7 m ρ c main_v79 : S1x128.Idx → EReal) = shapeCast S1x128 (shapeCast S128 (extractStridedSlice S1x128 ![1, 0] (W5 m ρ c (Proc.devRef .tc main_arg13)) slices_S2x128_S1x128_1_0) shapeCasts_S1x128_S128) shapeCasts_S128_S1x128 := by
    show StableHlo.after hostOps2_1 (StableHlo.after hostOps2 (W5 m ρ c)) (Proc.devRef .tc main_v79) = _
    after_results_simp
    rfl
  funext j
  show (V7 m ρ c main_v79 : S1x128.Idx → EReal) (ix2 (0 : Fin 1) j) = _
  rw [e, main_arg13_mid]
  exact row_cut_apply _ 1 1 rfl _ _ _ j

theorem win_main_v9 (c : Dev nD) : Spec.matOf (V7 m ρ c main_v9) = Spec.matT (m ((c.tc : Thread nD τ).loc main_arg18)) := by
  have e : V7 m ρ c main_v9 = W5 m ρ c (Proc.devRef .tc main_v9) := by
    show StableHlo.after hostOps2_1 (StableHlo.after hostOps2 (W5 m ρ c)) (Proc.devRef .tc main_v9) = _
    after_results_simp
  funext k j
  show (V7 m ρ c main_v9 : S128x128.Idx → EReal) (ix2 k j) = _
  rw [e, main_v9_mid]
  exact transpose_ix2_apply _ _ k j

theorem win_main_v80 (c : Dev nD) : Spec.rowb (V7 m ρ c main_v80) = Spec.row1 (m ((c.tc : Thread nD τ).loc main_arg19)) := by
  have e : (V7 m ρ c main_v80 : S1x128.Idx → EReal) = shapeCast S1x128 (W5 m ρ c (Proc.devRef .tc main_arg19)) shapeCasts_S128_S1x128 := by
    show StableHlo.after hostOps2_1 (StableHlo.after hostOps2 (W5 m ρ c)) (Proc.devRef .tc main_v80) = _
    after_results_simp
    rfl
  funext j
  show (V7 m ρ c main_v80 : S1x128.Idx → EReal) (ix2 (0 : Fin 1) j) = _
  rw [e, main_arg19_mid]
  exact shapeCast_a_1a_apply _ _ (0 : Fin 1) j

theorem win_main_v15 (c : Dev nD) : Spec.matOf (V7 m ρ c main_v15) = Spec.matTlo (m ((c.tc : Thread nD τ).loc main_arg22)) := by
  have e : V7 m ρ c main_v15 = W5 m ρ c (Proc.devRef .tc main_v15) := by
    show StableHlo.after hostOps2_1 (StableHlo.after hostOps2 (W5 m ρ c)) (Proc.devRef .tc main_v15) = _
    after_results_simp
  funext k j
  show (V7 m ρ c main_v15 : S128x128.Idx → EReal) (ix2 k j) = _
  rw [e, main_v15_mid]
  exact lo_T_apply _ _ _ k j

theorem win_main_v17 (c : Dev nD) : Spec.matOf (V7 m ρ c main_v17) = Spec.matThi (m ((c.tc : Thread nD τ).loc main_arg22)) := by
  have e : V7 m ρ c main_v17 = W5 m ρ c (Proc.devRef .tc main_v17) := by
    show StableHlo.after hostOps2_1 (StableHlo.after hostOps2 (W5 m ρ c)) (Proc.devRef .tc main_v17) = _
    after_results_simp
  funext k j
  show (V7 m ρ c main_v17 : S128x128.Idx → EReal) (ix2 k j) = _
  rw [e, main_v17_mid]
  exact hi_T_apply _ _ _ k j

theorem win_main_v81 (c : Dev nD) : Spec.rowb (V7 m ρ c main_v81) = Spec.row1 (m ((c.tc : Thread nD τ).loc main_arg23)) := by
  have e : (V7 m ρ c main_v81 : S1x128.Idx → EReal) = shapeCast S1x128 (W5 m ρ c (Proc.devRef .tc main_arg23)) shapeCasts_S128_S1x128 := by
    show StableHlo.after hostOps2_1 (StableHlo.after hostOps2 (W5 m ρ c)) (Proc.devRef .tc main_v81) = _
    after_results_simp
    rfl
  funext j
  show (V7 m ρ c main_v81 : S1x128.Idx → EReal) (ix2 (0 : Fin 1) j) = _
  rw [e, main_arg23_mid]
  exact shapeCast_a_1a_apply _ _ (0 : Fin 1) j

/-- After region 2 the result buffer holds the last dense stage of `e_emb`, of the neighbour means `NC` found in the
    second window's array and of the `h_iI` array `HIa` found in the third. -/
theorem v82_eq (c : Dev nD) (NC HIa : FVec Ideal S100000x128 .f32) (hNC : V7 m ρ c main_v65 = NC) (hHI : V7 m ρ c main_v49_0 = HIa) :
    W8 m ρ c (Proc.devRef .tc main_v82) = Spec.FIN (m ((c.tc : Thread nD τ).loc main_arg1)) NC HIa (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg22)) (m ((c.tc : Thread nD τ).loc main_arg23)) := by
  have hw : W8 m ρ c (Proc.devRef .tc main_v82) = (dat2 (V7 m ρ) c).arrAt 14 cfg2.N := W8_arr m ρ c 14
  rw [hw, result_arr (V7 m ρ) c, hNC, hHI, win_main_arg1]
  funext i
  unfold stageD Spec.FIN
  rw [win_main_v67, win_main_v69, win_main_v78, win_main_v73, win_main_v75, win_main_v79, win_main_v9, win_main_v80,
    win_main_v15, win_main_v17, win_main_v81]

end Cert.KernelIdeal.KReg2

end
-- ==== Proof.PreIdx.lean ====
/-
  What the precondition says of the two source-index arrays, and what it buys: every index lies in its table's range, so
  the wrap of negative indices that both programs apply before gathering leaves every index as it is.
-/
import proofs.«428482_j83468394431314_1_alg».proof.Defs
import proofs.«428482_j83468394431314_1_alg».proof.Proof.Gen.KernelIdeal
import proofs.«428482_j83468394431314_1_alg».proof.Proof.Gen.Pre_finite_inputs
import proofs.«428482_j83468394431314_1_alg».proof.Proof.Glue
import Idealize.ShloMosaic.Lib.ValueIdx
import Idealize.ShloMosaic.Lib.ReduceAll
import Idealize.ShloMosaic.Lib.StableHlo.Predicate

set_option maxRecDepth 16384

noncomputable section

namespace Cert.PreIdx.Decode

open Idealize.ShloMosaic Idealize.ShloMosaic.ValueIdx Cert.Pre_finite_inputs Cert.Pre_finite_inputs.Facts

/-- A word that compares at least zero and below the word of a count `n < 2³¹`, both read signed, has its signed
    value in `[0, n)`. -/
theorem word_range (w : BitVec 32) (n : Nat) (hn : n < 2 ^ 31) (h0 : IntOp.cmpi .sge w 0#32 = 1#1)
    (h1 : IntOp.cmpi .slt w (BitVec.ofNat 32 n) = 1#1) : 0 ≤ w.toInt ∧ w.toInt < (n : Int) := by
  have z : (0#32 : BitVec 32).toInt = 0 := by decide
  have a := IntOp.cmpi_sge.1 h0
  have b := IntOp.cmpi_slt.1 h1
  rw [StableHlo.Predicate.toInt_ofNat_small n hn] at b
  rw [z] at a
  exact ⟨a, b⟩

/-- "Every position is at least zero and below `n`", folded by conjunction into one bit: when that bit is one, every
    position of the array has its signed value in `[0, n)`. -/
theorem all_range (idx : IVec S1600000 32) (n : Nat) (hn : n < 2 ^ 31) (init : IVec S_ 1)
    (h : Host.reduce IntOp.andi
        (andi (cmpi .sge idx (broadcastInDim S1600000 ![] bcast_S_S1600000 (constantI S_ 32 0#32)))
          (cmpi .slt idx (broadcastInDim S1600000 ![] bcast_S_S1600000 (constantI S_ 32 (BitVec.ofNat 32 n)))))
        init reducesTo_S1600000_S_d0 h_S_ ix0 = 1#1) :
    ∀ i, 0 ≤ (idx i).toInt ∧ (idx i).toInt < (n : Int) := by
  intro i
  haveI : Subsingleton S_.Idx := ⟨fun a b => funext fun d => d.elim0⟩
  -- the bit at position `i` is the conjunction of the two comparisons of the word at `i` with the two constants
  have e : IntOp.andi (IntOp.cmpi .sge (idx i) 0#32) (IntOp.cmpi .slt (idx i) (BitVec.ofNat 32 n)) = 1#1 :=
    Host.reduce_andi_all _ _ _ _ ix0 h i
  obtain ⟨a, b⟩ := IntOp.andi_eq_one.1 e
  exact word_range _ n hn a b

/-- The last stretch of the predicate is the conjunction of three bits: everything checked before it, the range check
    of the first index array, the range check of the second. When the conjunction is one, so are the last two. -/
theorem part6_split (a4 a6 : IVec S1600000 32) (v98 : IVec S_ 1) (v100 : IVec S1600000 1) (v101 : IVec S1600000 32)
    (h : fn_part6 (F := Ideal) a4 a6 v98 v100 v101 ix0 = 1#1) :
    Host.reduce IntOp.andi (andi v100 (cmpi .slt a4 v101)) (constantI S_ 1 1#1) reducesTo_S1600000_S_d0 h_S_ ix0 = 1#1
    ∧ Host.reduce IntOp.andi
        (andi (cmpi .sge a6 (broadcastInDim S1600000 ![] bcast_S_S1600000 (constantI S_ 32 0#32)))
          (cmpi .slt a6 (broadcastInDim S1600000 ![] bcast_S_S1600000 (constantI S_ 32 100000#32))))
        (constantI S_ 1 1#1) reducesTo_S1600000_S_d0 h_S_ ix0 = 1#1 := by
  have h' : IntOp.andi (IntOp.andi (v98 ix0)
      (Host.reduce IntOp.andi (andi v100 (cmpi .slt a4 v101)) (constantI S_ 1 1#1) reducesTo_S1600000_S_d0 h_S_ ix0))
      (Host.reduce IntOp.andi
        (andi (cmpi .sge a6 (broadcastInDim S1600000 ![] bcast_S_S1600000 (constantI S_ 32 0#32)))
          (cmpi .slt a6 (broadcastInDim S1600000 ![] bcast_S_S1600000 (constantI S_ 32 100000#32))))
        (constantI S_ 1 1#1) reducesTo_S1600000_S_d0 h_S_ ix0) = 1#1 := h
  obtain ⟨h1, h2⟩ := IntOp.andi_eq_one.1 h'
  exact ⟨(IntOp.andi_eq_one.1 h1).2, h2⟩

/-- The whole predicate is its last stretch applied to the conjunction of all the earlier checks (the finiteness of the
    float arrays, which stays one unnamed bit here), to the comparison of the first index array with zero, and to the
    constant 10000 spread over the array. -/
theorem fn_tail {F : FTy → Type} [FloatOps F] (a0 : FVec F S10000x128 .f32) (a1 : FVec F S100000x128 .f32) (a2 : FVec F S10000x128 .f32) (a3 : FVec F S1600000 .f32) (a4 : IVec S1600000 32) (a5 : IVec S1600000 32) (a6 : IVec S1600000 32) (a7 : IVec S1600000 32) (a8 : FVec F S2x128x128 .f32) (a9 : FVec F S2x128x128 .f32) (a10 : FVec F S2x128 .f32) (a11 : FVec F S2x128x128 .f32) (a12 : FVec F S2x128x128 .f32) (a13 : FVec F S2x128 .f32) (a14 : FVec F S128x256 .f32) (a15 : FVec F S128 .f32) (a16 : FVec F S128x128 .f32) (a17 : FVec F S128 .f32) (a18 : FVec F S128x128 .f32) (a19 : FVec F S128 .f32) (a20 : FVec F S128x256 .f32) (a21 : FVec F S128 .f32) (a22 : FVec F S128x256 .f32) (a23 : FVec F S128 .f32) :
    ∃ v98 : IVec S_ 1, fn (F := F) a0 a1 a2 a3 a4 a5 a6 a7 a8 a9 a10 a11 a12 a13 a14 a15 a16 a17 a18 a19 a20 a21 a22 a23
      = fn_part6 (F := F) a4 a6 v98 (cmpi .sge a4 (broadcastInDim S1600000 ![] bcast_S_S1600000 (constantI S_ 32 0#32)))
          (broadcastInDim S1600000 ![] bcast_S_S1600000 (constantI S_ 32 10000#32)) :=
  ⟨_, rfl⟩

/-- The predicate all ones: the first index array lies in `[0, 10000)` and the second in `[0, 100000)`. -/
theorem decode {a0 : FVec Ideal S10000x128 .f32} {a1 : FVec Ideal S100000x128 .f32} {a2 : FVec Ideal S10000x128 .f32} {a3 : FVec Ideal S1600000 .f32} {a4 : IVec S1600000 32} {a5 : IVec S1600000 32} {a6 : IVec S1600000 32} {a7 : IVec S1600000 32} {a8 : FVec Ideal S2x128x128 .f32} {a9 : FVec Ideal S2x128x128 .f32} {a10 : FVec Ideal S2x128 .f32} {a11 : FVec Ideal S2x128x128 .f32} {a12 : FVec Ideal S2x128x128 .f32} {a13 : FVec Ideal S2x128 .f32} {a14 : FVec Ideal S128x256 .f32} {a15 : FVec Ideal S128 .f32} {a16 : FVec Ideal S128x128 .f32} {a17 : FVec Ideal S128 .f32} {a18 : FVec Ideal S128x128 .f32} {a19 : FVec Ideal S128 .f32} {a20 : FVec Ideal S128x256 .f32} {a21 : FVec Ideal S128 .f32} {a22 : FVec Ideal S128x256 .f32} {a23 : FVec Ideal S128 .f32}
    (h : fn (F := Ideal) a0 a1 a2 a3 a4 a5 a6 a7 a8 a9 a10 a11 a12 a13 a14 a15 a16 a17 a18 a19 a20 a21 a22 a23 = fun _ => 1#1) :
    (∀ i, 0 ≤ (a4 i).toInt ∧ (a4 i).toInt < ((10000 : Nat) : Int))
      ∧ (∀ i, 0 ≤ (a6 i).toInt ∧ (a6 i).toInt < ((100000 : Nat) : Int)) := by
  obtain ⟨v98, e⟩ := fn_tail (F := Ideal) a0 a1 a2 a3 a4 a5 a6 a7 a8 a9 a10 a11 a12 a13 a14 a15 a16 a17 a18 a19 a20 a21 a22 a23
  have h0 := congrFun h ix0
  rw [e] at h0
  obtain ⟨h4, h6⟩ := part6_split _ _ _ _ _ h0
  exact ⟨all_range a4 10000 (by norm_num) _ h4, all_range a6 100000 (by norm_num) _ h6⟩

end Cert.PreIdx.Decode

namespace Cert.PreIdx

open Idealize.ShloMosaic Idealize.ShloMosaic.ValueIdx Idealize.SL.Sem Cert.KernelIdeal Cert.KernelIdeal.Facts₀ Cert.KernelIdeal.Facts

/-- Under the precondition the knowledge-side source indices lie in `[0, 10000)` and the employee-side ones in
    `[0, 100000)`. -/
theorem ranges (m : (ℓ : Loc nD τ sig) → Buf (Elt Ideal) ℓ) (h : Cert.Pre_KernelIdeal m) (c : Dev nD) :
    Glue.InRange (m ((c.tc : Thread nD τ).loc main_arg4)) 10000 ∧ Glue.InRange (m ((c.tc : Thread nD τ).loc main_arg6)) 100000 := by
  -- the precondition on device `c` is the printed predicate, all ones, at this device's 24 arrays
  exact Decode.decode (h c)

/-- The wrap of negative indices (add the table's length where the index is negative) is the identity on indices
    that are not negative. -/
theorem wrap_eq (idx : IVec S1600000 32) (N : Nat) (nw : BitVec 32) (h : Glue.InRange idx N) :
    select (cmpi .slt idx (broadcastInDim S1600000 ![] bcast_S_S1600000 (constantI S_ 32 0#32)))
      (addi idx (broadcastInDim S1600000 ![] bcast_S_S1600000 (constantI S_ 32 nw))) idx = idx := by
  funext i
  have z : (0#32 : BitVec 32).toInt = 0 := by decide
  -- the index at `i` is not negative, so "below zero" is the zero bit there and the selection keeps the index
  have h0 : IntOp.cmpi .slt (idx i) 0#32 = 0#1 := eq_zero_of_ne_one fun hc => by
    have a := IntOp.cmpi_slt.1 hc
    have b := (h i).1
    omega
  show Scalar.select (IntOp.cmpi .slt (idx i) 0#32) _ (idx i) = idx i
  rw [h0, select_zero]

end Cert.PreIdx

end
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.KGlue.lean ====
/-
  The host stretches between the regions: the neighbour means each later region finds in its second window's array,
  and that region 2 finds `h_iI` where region 1 left it.
-/
import proofs.«428482_j83468394431314_1_alg».proof.Proof.Gen.KernelIdeal.Frame
import proofs.«428482_j83468394431314_1_alg».proof.Proof.Spec
import proofs.«428482_j83468394431314_1_alg».proof.Proof.Glue
import proofs.«428482_j83468394431314_1_alg».proof.Proof.PreIdx
import proofs.«428482_j83468394431314_1_alg».proof.Proof.LibTypedRef
import proofs.«428482_j83468394431314_1_alg».proof.Proof.LibKeep
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KGlue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## Words and masks: a take's in-bounds guard when every index is in range -/

/-- A left fold by `and` over one-bit words, started at 1 and meeting only 1s, ends at 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    have e : IntOp.andi (1#1) (1#1) = 1#1 := by decide
    rw [List.foldl_cons, hf a List.mem_cons_self, e]
    exact ih fun n hn => hf n (List.mem_cons_of_mem _ hn)

/-- A reduction by `and` of an array of 1s from an initial value of 1s is 1 everywhere, whatever the reduced axes. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

/-- A word that is not negative as a signed integer compares `≥ 0`. -/
theorem sge_zero (a : BitVec 32) (h : 0 ≤ a.toInt) : IntOp.cmpi .sge a 0#32 = 1#1 := by
  show BitVec.ofBool ((0#32).sle a) = 1#1
  rw [StableHlo.Predicate.ofBool_eq_one_iff, BitVec.sle_iff_toInt_le]
  exact h

/-- Signed `≤` of words is `≤` of their signed values. -/
theorem sle_of (a c : BitVec 32) (h : a.toInt ≤ c.toInt) : IntOp.cmpi .sle a c = 1#1 := by
  show BitVec.ofBool (a.sle c) = 1#1
  rw [StableHlo.Predicate.ofBool_eq_one_iff, BitVec.sle_iff_toInt_le]
  exact h

/-- The in-bounds mask of a take: when every index lies in `[0, c]`, the `and` over the one-column axis of
    `0 ≤ idx ∧ idx ≤ c` is 1 at every row. -/
theorem take_mask {n : Nat} (idx : IVec ⟨1, ![n]⟩ 32) (c : BitVec 32)
    (b0 : (⟨1, ![n]⟩ : Shape).BroadcastsInDim ⟨2, ![n, 1]⟩ ![0])
    (bz : (⟨0, ![]⟩ : Shape).BroadcastsInDim ⟨2, ![n, 1]⟩ ![])
    (b1 : (⟨1, ![1]⟩ : Shape).BroadcastsInDim ⟨2, ![1, 1]⟩ ![1])
    (b2 : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel)
    (h : ∀ i, 0 ≤ (idx i).toInt ∧ (idx i).toInt ≤ c.toInt) :
    Host.reduce IntOp.andi
      (andi (cmpi .sge (broadcastInDim ⟨2, ![n, 1]⟩ ![0] b0 idx) (broadcastInDim ⟨2, ![n, 1]⟩ ![] bz (constantI ⟨0, ![]⟩ 32 0#32)))
        (cmpi .sle (broadcastInDim ⟨2, ![n, 1]⟩ ![0] b0 idx)
          (broadcastInDim ⟨2, ![n, 1]⟩ ![0, 1] b2 (broadcastInDim ⟨2, ![1, 1]⟩ ![1] b1 (constantI ⟨1, ![1]⟩ 32 c)))))
      (constantI ⟨0, ![]⟩ 1 1#1) hr hu = fun _ => 1#1 := by
  funext j
  refine reduce_andi_ones _ _ hr hu (fun i => ?_) (fun _ => rfl) j
  show IntOp.andi (IntOp.cmpi .sge (idx _) 0#32) (IntOp.cmpi .sle (idx _) c) = 1#1
  rw [sge_zero _ (h _).1, sle_of _ _ (h _).2]
  decide

/-- A select whose condition is the all-ones column laid along the rows returns its first operand. -/
theorem select_bcast_ones {α : Type} {n k : Nat} (bm : (⟨1, ![n]⟩ : Shape).BroadcastsInDim ⟨2, ![n, k]⟩ ![0])
    (A B : (⟨2, ![n, k]⟩ : Shape).Idx → α) :
    select (broadcastInDim (s := ⟨1, ![n]⟩) ⟨2, ![n, k]⟩ ![0] bm (fun _ => 1#1)) A B = A := by
  funext i
  exact select_one (A i) (B i)

/-- The guarded take: with every index in `[0, c]` the guard passes every row, so the select returns the gathered rows. -/
theorem take_guard {α : Type} (idx : IVec S1600000 32) (c : BitVec 32)
    (h : ∀ i, 0 ≤ (idx i).toInt ∧ (idx i).toInt ≤ c.toInt) (A B : S1600000x128.Idx → α) :
    select (broadcastInDim S1600000x128 ![0] bcast_S1600000_S1600000x128_0
      (Host.reduce IntOp.andi
        (andi (cmpi .sge (broadcastInDim S1600000x1 ![0] bcast_S1600000_S1600000x1_0 idx)
            (broadcastInDim S1600000x1 ![] bcast_S_S1600000x1 (constantI S_ 32 0#32)))
          (cmpi .sle (broadcastInDim S1600000x1 ![0] bcast_S1600000_S1600000x1_0 idx)
            (broadcastInDim S1600000x1 ![0, 1] bcast_S1x1_S1600000x1_0_1
              (broadcastInDim S1x1 ![1] bcast_S1_S1x1_1 (constantI S1 32 c)))))
        (constantI S_ 1 1#1) reducesTo_S1600000x1_S1600000_d1 h_S_)) A B = A := by
  rw [take_mask (n := 1600000) idx c bcast_S1600000_S1600000x1_0 bcast_S_S1600000x1 bcast_S1_S1x1_1
    bcast_S1x1_S1600000x1_0_1 reducesTo_S1600000x1_S1600000_d1 h_S_ h]
  exact select_bcast_ones (n := 1600000) (k := 128) bcast_S1600000_S1600000x128_0 A B

/-- The take's body over a table of any shape: with every index in `[0, N)` and `N - 1 ≤ c`, the wrap of negative
    indices is the identity and the in-bounds guard passes every row, so the body is the gather at the indices. -/
theorem take_body {s : Shape} (g : GatherDims s S1600000x1 S1600000x128) (X : FVec Ideal s .f32) (idx : IVec S1600000 32)
    (N : Nat) (nw c : BitVec 32) (h : Glue.InRange idx N) (hc : (N : Int) ≤ c.toInt + 1) :
    select (broadcastInDim S1600000x128 ![0] bcast_S1600000_S1600000x128_0
      (Host.reduce IntOp.andi
        (andi
          (cmpi .sge
            (broadcastInDim S1600000x1 ![0] bcast_S1600000_S1600000x1_0
              (select (cmpi .slt idx (broadcastInDim S1600000 ![] bcast_S_S1600000 (constantI S_ 32 0#32)))
                (addi idx (broadcastInDim S1600000 ![] bcast_S_S1600000 (constantI S_ 32 nw))) idx))
            (broadcastInDim S1600000x1 ![] bcast_S_S1600000x1 (constantI S_ 32 0#32)))
          (cmpi .sle
            (broadcastInDim S1600000x1 ![0] bcast_S1600000_S1600000x1_0
              (select (cmpi .slt idx (broadcastInDim S1600000 ![] bcast_S_S1600000 (constantI S_ 32 0#32)))
                (addi idx (broadcastInDim S1600000 ![] bcast_S_S1600000 (constantI S_ 32 nw))) idx))
            (broadcastInDim S1600000x1 ![0, 1] bcast_S1x1_S1600000x1_0_1
              (broadcastInDim S1x1 ![1] bcast_S1_S1x1_1 (constantI S1 32 c)))))
        (constantI S_ 1 1#1) reducesTo_S1600000x1_S1600000_d1 h_S_))
      (Host.gather g X
        (broadcastInDim S1600000x1 ![0] bcast_S1600000_S1600000x1_0
          (select (cmpi .slt idx (broadcastInDim S1600000 ![] bcast_S_S1600000 (constantI S_ 32 0#32)))
            (addi idx (broadcastInDim S1600000 ![] bcast_S_S1600000 (constantI S_ 32 nw))) idx)))
      (broadcastInDim S1600000x128 ![] bcast_S_S1600000x128 (constant S_ .f32 0x7FC00000#32))
    = Host.gather g X (broadcastInDim S1600000x1 ![0] bcast_S1600000_S1600000x1_0 idx) := by
  rw [Cert.PreIdx.wrap_eq idx N nw h]
  exact take_guard idx c (fun i => ⟨(h i).1, by have := (h i).2; omega⟩) _ _

/-! ## The four host stretches, each over any contents of the buffers it reads -/

/-- Contents read through a typed reference to a literal buffer are the buffer's contents (the buffer's type is the
    reference's by computation), and so are contents written through one. -/
theorem ofBuf_main_arg4 (p1 p2 p3) (v : (Proc.devRef (τ := τ) .tc main_arg4).ty.Contents (Elt Ideal)) :
    (StableHlo.TRef.of main_arg4 p1 p2 p3 : StableHlo.TRef sig ⟨S1600000, .i32⟩).ofBuf v = v := rfl
theorem ofBuf_main_v19 (p1 p2 p3) (v : (Proc.devRef (τ := τ) .tc main_v19).ty.Contents (Elt Ideal)) :
    (StableHlo.TRef.of main_v19 p1 p2 p3 : StableHlo.TRef sig ⟨S10000x128, .f32⟩).ofBuf v = v := rfl
theorem toBuf_main_v20 (p1 p2 p3) (v : FVec Ideal S1600000x128 .f32) :
    (StableHlo.TRef.of main_v20 p1 p2 p3 : StableHlo.TRef sig ⟨S1600000x128, .f32⟩).toBuf (Val := Elt Ideal) v = v := rfl
theorem ofBuf_main_arg6 (p1 p2 p3) (v : (Proc.devRef (τ := τ) .tc main_arg6).ty.Contents (Elt Ideal)) :
    (StableHlo.TRef.of main_arg6 p1 p2 p3 : StableHlo.TRef sig ⟨S1600000, .i32⟩).ofBuf v = v := rfl
theorem ofBuf_main_v49_1 (p1 p2 p3) (v : (Proc.devRef (τ := τ) .tc main_v49_1).ty.Contents (Elt Ideal)) :
    (StableHlo.TRef.of main_v49_1 p1 p2 p3 : StableHlo.TRef sig ⟨S100000x128, .f32⟩).ofBuf v = v := rfl
theorem toBuf_main_v50 (p1 p2 p3) (v : FVec Ideal S1600000x128 .f32) :
    (StableHlo.TRef.of main_v50 p1 p2 p3 : StableHlo.TRef sig ⟨S1600000x128, .f32⟩).toBuf (Val := Elt Ideal) v = v := rfl

/-- The host stretch before region 1, from the gathered rows on: the scatter-added rows over the scatter-added count
    floored at one. -/
theorem mean1 (V : Valuation τ sig (Elt Ideal)) :
    StableHlo.after (hostOps1_1 (F := Ideal)) V (Proc.devRef .tc main_v32)
      = Glue.segMean (V (Proc.devRef .tc main_v20)) (V (Proc.devRef .tc main_arg5)) := by
  after_results_simp
  rfl

/-- The first take returns the gathered rows of its table when its indices are in range. -/
theorem take1 (V : Valuation τ sig (Elt Ideal)) (h : Glue.InRange (V (Proc.devRef .tc main_arg4)) 10000) :
    StableHlo.after (hostOps1 (F := Ideal)) V (Proc.devRef .tc main_v20)
      = Glue.gatherB (V (Proc.devRef .tc main_v19)) (V (Proc.devRef .tc main_arg4)) := by
  after_results_simp
  simp only [Cert.LibTypedRef.ofBuf_toBuf, ofBuf_main_arg4, ofBuf_main_v19, toBuf_main_v20]
  unfold Glue.gatherB
  exact take_body _ _ _ 10000 10000#32 9999#32 h (by decide)

/-- The host stretch before region 2, from the gathered rows on: each row scaled by its edge's weight, then the mean. -/
theorem mean2 (V : Valuation τ sig (Elt Ideal)) :
    StableHlo.after (hostOps2_1 (F := Ideal)) V (Proc.devRef .tc main_v65)
      = Glue.segMean (Glue.wMul (V (Proc.devRef .tc main_v50)) (V (Proc.devRef .tc main_arg3))) (V (Proc.devRef .tc main_arg7)) := by
  after_results_simp
  rfl

/-- The second take returns the gathered rows of its table when its indices are in range. -/
theorem take2 (V : Valuation τ sig (Elt Ideal)) (h : Glue.InRange (V (Proc.devRef .tc main_arg6)) 100000) :
    StableHlo.after (hostOps2 (F := Ideal)) V (Proc.devRef .tc main_v50)
      = Glue.gatherC (V (Proc.devRef .tc main_v49_1)) (V (Proc.devRef .tc main_arg6)) := by
  after_results_simp
  simp only [Cert.LibTypedRef.ofBuf_toBuf, ofBuf_main_arg6, ofBuf_main_v49_1, toBuf_main_v50]
  unfold Glue.gatherC
  exact take_body _ _ _ 100000 100000#32 99999#32 h (by decide)

/-! ## What the stretches leave alone -/

/-- Region 0 and the stretch before it write none of the index arrays: after region 0 the first gather's source
    indices are the launch's. -/
theorem W2_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by kept_host hostOps0
    _ = m ((c.tc : Thread nD τ).loc main_arg4) := rfl

/-- Nor does the first take write the first mean's destination indices. -/
theorem W3_arg5 (c : Dev nD) : W3 m ρ c (Proc.devRef .tc main_arg5) = m ((c.tc : Thread nD τ).loc main_arg5) :=
  calc W3 m ρ c (Proc.devRef .tc main_arg5)
    _ = W2 m ρ c (Proc.devRef .tc main_arg5) := by kept_host hostOps1
    _ = W1 m ρ c (Proc.devRef .tc main_arg5) := W2_of_ne m ρ c main_arg5 (by decide)
    _ = W0 m ρ c (Proc.devRef .tc main_arg5) := by kept_host hostOps0
    _ = m ((c.tc : Thread nD τ).loc main_arg5) := rfl

/-- After region 1 the second gather's source indices are still the launch's … -/
theorem W5_arg6 (c : Dev nD) : W5 m ρ c (Proc.devRef .tc main_arg6) = m ((c.tc : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := by kept_host hostOps1_1
    _ = W2 m ρ c (Proc.devRef .tc main_arg6) := by kept_host hostOps1
    _ = W1 m ρ c (Proc.devRef .tc main_arg6) := W2_of_ne m ρ c main_arg6 (by decide)
    _ = W0 m ρ c (Proc.devRef .tc main_arg6) := by kept_host hostOps0
    _ = m ((c.tc : Thread nD τ).loc main_arg6) := rfl

/-- … and after the second take so are the edge weights … -/
theorem W6_arg3 (c : Dev nD) : W6 m ρ c (Proc.devRef .tc main_arg3) = m ((c.tc : Thread nD τ).loc main_arg3) :=
  calc W6 m ρ c (Proc.devRef .tc main_arg3)
    _ = W5 m ρ c (Proc.devRef .tc main_arg3) := by kept_host hostOps2
    _ = W4 m ρ c (Proc.devRef .tc main_arg3) := W5_of_ne m ρ c main_arg3 (by decide)
    _ = W3 m ρ c (Proc.devRef .tc main_arg3) := by kept_host hostOps1_1
    _ = W2 m ρ c (Proc.devRef .tc main_arg3) := by kept_host hostOps1
    _ = W1 m ρ c (Proc.devRef .tc main_arg3) := W2_of_ne m ρ c main_arg3 (by decide)
    _ = W0 m ρ c (Proc.devRef .tc main_arg3) := by kept_host hostOps0
    _ = m ((c.tc : Thread nD τ).loc main_arg3) := rfl

/-- … and the second mean's destination indices. -/
theorem W6_arg7 (c : Dev nD) : W6 m ρ c (Proc.devRef .tc main_arg7) = m ((c.tc : Thread nD τ).loc main_arg7) :=
  calc W6 m ρ c (Proc.devRef .tc main_arg7)
    _ = W5 m ρ c (Proc.devRef .tc main_arg7) := by kept_host hostOps2
    _ = W4 m ρ c (Proc.devRef .tc main_arg7) := W5_of_ne m ρ c main_arg7 (by decide)
    _ = W3 m ρ c (Proc.devRef .tc main_arg7) := by kept_host hostOps1_1
    _ = W2 m ρ c (Proc.devRef .tc main_arg7) := by kept_host hostOps1
    _ = W1 m ρ c (Proc.devRef .tc main_arg7) := W2_of_ne m ρ c main_arg7 (by decide)
    _ = W0 m ρ c (Proc.devRef .tc main_arg7) := by kept_host hostOps0
    _ = m ((c.tc : Thread nD τ).loc main_arg7) := rfl

/-! ## The three statements -/

/-- Region 1 finds, in its second window's array, the mean over incoming edges of the gathered rows of region 0's
    output, when every source index is in range. -/
theorem v32_eq (c : Dev nD) (h4 : Glue.InRange (m ((c.tc : Thread nD τ).loc main_arg4)) 10000) :
    V4 m ρ c main_v32 = Glue.segMean (Glue.gatherB (W2 m ρ c (Proc.devRef .tc main_v19)) (m ((c.tc : Thread nD τ).loc main_arg4))) (m ((c.tc : Thread nD τ).loc main_arg5)) := by
  have h4' : Glue.InRange (W2 m ρ c (Proc.devRef .tc main_arg4)) 10000 := by rw [W2_arg4]; exact h4
  show StableHlo.after hostOps1_1 (W3 m ρ c) (Proc.devRef .tc main_v32) = _
  rw [mean1 (W3 m ρ c), W3_arg5 m ρ c]
  show Glue.segMean (StableHlo.after hostOps1 (W2 m ρ c) (Proc.devRef .tc main_v20)) _ = _
  rw [take1 (W2 m ρ c) h4', W2_arg4 m ρ c]

/-- Region 2 finds, in its second window's array, the weighted mean over incoming edges of the gathered rows of region 1's
    second output, when every source index is in range. -/
theorem v65_eq (c : Dev nD) (h6 : Glue.InRange (m ((c.tc : Thread nD τ).loc main_arg6)) 100000) :
    V7 m ρ c main_v65 = Glue.segMean (Glue.wMul (Glue.gatherC (W5 m ρ c (Proc.devRef .tc main_v49_1)) (m ((c.tc : Thread nD τ).loc main_arg6))) (m ((c.tc : Thread nD τ).loc main_arg3))) (m ((c.tc : Thread nD τ).loc main_arg7)) := by
  have h6' : Glue.InRange (W5 m ρ c (Proc.devRef .tc main_arg6)) 100000 := by rw [W5_arg6]; exact h6
  show StableHlo.after hostOps2_1 (W6 m ρ c) (Proc.devRef .tc main_v65) = _
  rw [mean2 (W6 m ρ c), W6_arg3 m ρ c, W6_arg7 m ρ c]
  show Glue.segMean (Glue.wMul (StableHlo.after hostOps2 (W5 m ρ c) (Proc.devRef .tc main_v50)) _) _ = _
  rw [take2 (W5 m ρ c) h6', W5_arg6 m ρ c]

/-- No host operation between regions 1 and 2 writes `h_iI`'s buffer. -/
theorem v49_0_kept (c : Dev nD) : V7 m ρ c main_v49_0 = W5 m ρ c (Proc.devRef .tc main_v49_0) :=
  calc V7 m ρ c main_v49_0
    _ = W6 m ρ c (Proc.devRef .tc main_v49_0) := by kept_host hostOps2_1
    _ = W5 m ρ c (Proc.devRef .tc main_v49_0) := by kept_host hostOps2

end Cert.KernelIdeal.KGlue

end
-- ==== Proof.KVal.lean ====
/-
  The kernel program's result, as one function of its argument arrays: region 0's output is gathered and averaged into
  region 1's second operand, region 1's second output is gathered, weighted and averaged into region 2's second operand,
  and region 2 joins its own stack with region 1's first output.
-/
import proofs.«428482_j83468394431314_1_alg».proof.Proof.KReg0
import proofs.«428482_j83468394431314_1_alg».proof.Proof.KReg1
import proofs.«428482_j83468394431314_1_alg».proof.Proof.KReg2
import proofs.«428482_j83468394431314_1_alg».proof.Proof.KGlue

set_option maxRecDepth 16384

noncomputable section

namespace Cert.KernelIdeal.KVal

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the last boundary holds at the result buffer, when the source indices are in range. -/
theorem value (c : Dev nD) (h4 : Glue.InRange (m ((c.tc : Thread nD τ).loc main_arg4)) 10000) (h6 : Glue.InRange (m ((c.tc : Thread nD τ).loc main_arg6)) 100000) :
    W8 m ρ c (Proc.devRef .tc main_v82) = Glue.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  have e32 := (KGlue.v32_eq m ρ c h4).trans
    (congrArg (fun X => Glue.segMean (Glue.gatherB X (m ((c.tc : Thread nD τ).loc main_arg4))) (m ((c.tc : Thread nD τ).loc main_arg5))) (KReg0.v19_eq m ρ c))
  obtain ⟨eHI, eSC⟩ := KReg1.v49_eq m ρ c _ e32
  have e65 := (KGlue.v65_eq m ρ c h6).trans
    (congrArg (fun X => Glue.segMean (Glue.wMul (Glue.gatherC X (m ((c.tc : Thread nD τ).loc main_arg6))) (m ((c.tc : Thread nD τ).loc main_arg3))) (m ((c.tc : Thread nD τ).loc main_arg7))) eSC)
  have eK := (KGlue.v49_0_kept m ρ c).trans eHI
  exact KReg2.v82_eq m ρ c _ _ e65 eK

end Cert.KernelIdeal.KVal

end
-- ==== Proof.RStageA.lean ====
/-
  The reference's two stages over a concatenated operand, read index by index: a product over 256 joined features is the
  two products over 128.
-/
import proofs.«428482_j83468394431314_1_alg».proof.Proof.Gen.ReferenceIdeal.Read
import proofs.«428482_j83468394431314_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RStageA

open Cert.ReferenceIdeal Cert.ReferenceIdeal.Gen Cert.ReferenceIdeal.Read
open Idealize.ShloMosaic Idealize.ShloMosaic.TcCoe Idealize.ShloMosaic.ValueIdx Idealize.SL.Sem

/-! ## Two arrays of 128-feature rows joined along the feature axis -/

/-- On the joined axis a coordinate `k < 128` reads the first array at `k`. -/
theorem cat_lo {n : Nat} (A B : (⟨2, ![n, 128]⟩ : Shape).Idx → EReal)
    (h : Shape.Concatenates [(⟨2, ![n, 128]⟩ : Shape), ⟨2, ![n, 128]⟩] ⟨2, ![n, 256]⟩ 1)
    (r : Fin n) (k : Fin 128) :
    concatenate (⟨2, ![n, 256]⟩ : Shape) 1 [⟨⟨2, ![n, 128]⟩, A⟩, ⟨⟨2, ![n, 128]⟩, B⟩] h (ix2 r (Fin.castAdd 128 k))
      = A (ix2 r k) := by
  refine concatenate_pair_apply_left 1 A B h _ rfl (ix2 r k) ?_
  intro b
  match b with
  | ⟨0, _⟩ => rfl
  | ⟨1, _⟩ => rfl

/-- On the joined axis the coordinate `128 + k` reads the second array at `k`. -/
theorem cat_hi {n : Nat} (A B : (⟨2, ![n, 128]⟩ : Shape).Idx → EReal)
    (h : Shape.Concatenates [(⟨2, ![n, 128]⟩ : Shape), ⟨2, ![n, 128]⟩] ⟨2, ![n, 256]⟩ 1)
    (r : Fin n) (k : Fin 128) :
    concatenate (⟨2, ![n, 256]⟩ : Shape) 1 [⟨⟨2, ![n, 128]⟩, A⟩, ⟨⟨2, ![n, 128]⟩, B⟩] h (ix2 r (Fin.natAdd 128 k))
      = B (ix2 r k) := by
  refine concatenate_pair_apply_right 1 A B h _ rfl rfl (ix2 r k) ?_ ?_
  · intro b hb
    match b with
    | ⟨0, _⟩ => rfl
    | ⟨1, _⟩ => exact absurd rfl hb
  · show k.val + 128 = 128 + k.val
    omega

/-- Row `r` of the joined array against row `j` of a `[128, 256]` matrix: the sum over the 256 joined features is
    the first array's row times the matrix's first 128 columns plus the second array's row times its last 128. -/
theorem cat_dot {n : Nat} (A B : Spec.A2 n) (W : Spec.W2w)
    (h : Shape.Concatenates [(⟨2, ![n, 128]⟩ : Shape), ⟨2, ![n, 128]⟩] ⟨2, ![n, 256]⟩ 1)
    (r : Fin n) (j : Fin 128) :
    ∑ k : Fin 256, concatenate (⟨2, ![n, 256]⟩ : Shape) 1 [⟨⟨2, ![n, 128]⟩, A⟩, ⟨⟨2, ![n, 128]⟩, B⟩] h (ix2 r k) * W (ix2 j k)
      = Spec.rmm (Spec.rowOf A r) (Spec.matTlo W) j + Spec.rmm (Spec.rowOf B r) (Spec.matThi W) j := by
  rw [Spec.sum_join]
  simp only [cat_lo, cat_hi]
  rfl

/-! ## The two stages -/

/-- `concatenate([ii, k_emb]) @ w4.T + w4_b`, index by index. -/
theorem II2_ref (x0 : FVec Ideal S10000x128 .f32) (x2 : FVec Ideal S10000x128 .f32) (x20 : FVec Ideal S128x256 .f32) (x21 : FVec Ideal S128 .f32) :
    val_main_v5 (F := Ideal) x0 x2 x20 x21 = Spec.II2 x0 x2 x20 x21 := by
  funext i
  obtain ⟨r, j, rfl⟩ : ∃ (r : Fin 10000) (j : Fin 128), i = ix2 r j := ⟨i 0, i 1, eq_ix2 i⟩
  -- the left factor sits at (r, k), the transposed weight at (j, k), the bias at j
  have e1 : ∀ k : Fin 256, lidx_main_v2 (ix2 r j) k = ix2 r k := fun k =>
    funext fun a => Fin.ext (by match a with | ⟨0, _⟩ => rfl | ⟨1, _⟩ => rfl)
  have e2 : ∀ k : Fin 256, idx_main_v1 (ridx_main_v2 (ix2 r j) k) = ix2 j k := fun k =>
    funext fun a => Fin.ext (by match a with | ⟨0, _⟩ => rfl | ⟨1, _⟩ => rfl)
  have e3 : idx_main_v3 (idx_main_v4 (ix2 r j)) = ix1 j :=
    funext fun a => Fin.ext (by match a with | ⟨0, _⟩ => rfl)
  have hs : (∑ k : Fin 256, val_main_v0 (F := Ideal) x0 x2 (lidx_main_v2 (ix2 r j) k)
        * val_main_v1 (F := Ideal) x20 (ridx_main_v2 (ix2 r j) k))
      = Spec.rmm (Spec.rowOf x0 r) (Spec.matTlo x20) j + Spec.rmm (Spec.rowOf x2 r) (Spec.matThi x20) j := by
    rw [← cat_dot x0 x2 x20 concatenates_S10000x128_S10000x128_S10000x256_d1 r j]
    refine Finset.sum_congr rfl fun k _ => ?_
    rw [val_main_v1_apply, e1, e2]
    rfl
  rw [val_main_v5_apply, val_main_v2_apply, val_main_v4_apply, val_main_v3_apply, hs, e3, Ideal.addf_def]
  rfl

/-- `concatenate([h_iI, e_emb]) @ w1.T + w1_b`, index by index, over whatever array `HIa` the stage before it left. -/
theorem SC_ref (x0 : FVec Ideal S10000x128 .f32) (x1 : FVec Ideal S100000x128 .f32) (x2 : FVec Ideal S10000x128 .f32) (x4 : IVec S1600000 32) (x5 : IVec S1600000 32) (x8 : FVec Ideal S2x128x128 .f32) (x9 : FVec Ideal S2x128x128 .f32) (x10 : FVec Ideal S2x128 .f32) (x14 : FVec Ideal S128x256 .f32) (x15 : FVec Ideal S128 .f32) (x16 : FVec Ideal S128x128 .f32) (x17 : FVec Ideal S128 .f32) (x20 : FVec Ideal S128x256 .f32) (x21 : FVec Ideal S128 .f32) (HIa : FVec Ideal S100000x128 .f32)
    (h77 : val_main_v77 (F := Ideal) x0 x1 x2 x4 x5 x8 x9 x10 x16 x17 x20 x21 = HIa) :
    val_main_v83 (F := Ideal) x0 x1 x2 x4 x5 x8 x9 x10 x14 x15 x16 x17 x20 x21
      = fun i => Spec.lin2 (Spec.rowOf HIa (i 0)) (Spec.rowOf x1 (i 0)) (Spec.matTlo x14) (Spec.matThi x14) (Spec.row1 x15) (i 1) := by
  funext i
  obtain ⟨r, j, rfl⟩ : ∃ (r : Fin 100000) (j : Fin 128), i = ix2 r j := ⟨i 0, i 1, eq_ix2 i⟩
  -- the left factor sits at (r, k), the transposed weight at (j, k), the bias at j
  have e1 : ∀ k : Fin 256, lidx_main_v80 (ix2 r j) k = ix2 r k := fun k =>
    funext fun a => Fin.ext (by match a with | ⟨0, _⟩ => rfl | ⟨1, _⟩ => rfl)
  have e2 : ∀ k : Fin 256, idx_main_v79 (ridx_main_v80 (ix2 r j) k) = ix2 j k := fun k =>
    funext fun a => Fin.ext (by match a with | ⟨0, _⟩ => rfl | ⟨1, _⟩ => rfl)
  have e3 : idx_main_v81 (idx_main_v82 (ix2 r j)) = ix1 j :=
    funext fun a => Fin.ext (by match a with | ⟨0, _⟩ => rfl)
  -- the joined operand is the given array beside the second argument
  have hcat : val_main_v78 (F := Ideal) x0 x1 x2 x4 x5 x8 x9 x10 x16 x17 x20 x21
      = concatenate S100000x256 1 [⟨S100000x128, HIa⟩, ⟨S100000x128, x1⟩]
          concatenates_S100000x128_S100000x128_S100000x256_d1 := by
    unfold val_main_v78
    rw [h77]
  have hs : (∑ k : Fin 256, val_main_v78 (F := Ideal) x0 x1 x2 x4 x5 x8 x9 x10 x16 x17 x20 x21 (lidx_main_v80 (ix2 r j) k)
        * val_main_v79 (F := Ideal) x14 (ridx_main_v80 (ix2 r j) k))
      = Spec.rmm (Spec.rowOf HIa r) (Spec.matTlo x14) j + Spec.rmm (Spec.rowOf x1 r) (Spec.matThi x14) j := by
    rw [← cat_dot HIa x1 x14 concatenates_S100000x128_S100000x128_S100000x256_d1 r j, hcat]
    refine Finset.sum_congr rfl fun k _ => ?_
    rw [val_main_v79_apply, e1, e2]
  rw [val_main_v83_apply, val_main_v80_apply, val_main_v82_apply, val_main_v81_apply, hs, e3, Ideal.addf_def]
  rfl

end Cert.ReferenceIdeal.RStageA

end
-- ==== Proof.RStageB.lean ====
/-
  The reference's knowledge-to-employee stack and `w2`, read index by index, over whatever neighbour means its two
  layers computed.
-/
import proofs.«428482_j83468394431314_1_alg».proof.Proof.Gen.ReferenceIdeal.Read
import proofs.«428482_j83468394431314_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RStageB

open Cert.ReferenceIdeal Cert.ReferenceIdeal.Gen Cert.ReferenceIdeal.Read
open Idealize.ShloMosaic Idealize.ShloMosaic.TcCoe Idealize.ShloMosaic.ValueIdx Idealize.SL.Sem

/-! ## The weight blocks and bias rows as the products meet them

Each layer takes block `l` out of a stacked `[2, 128, 128]` array, drops the unit axis and transposes, so the entry
that meets feature `k` of a row on the way to output feature `j` is the stored entry `(l, j, k)`. Dropping the unit axis
goes through the flat position `j * 128 + k`, whose quotient and remainder by 128 are `j` and `k` again. -/

/-- Layer 0, the weights of the row itself. -/
theorem selfW0 (W : FVec Ideal S2x128x128 .f32) (k j : Fin 128) :
    val_main_v31 (F := Ideal) W (ix2 k j) = Spec.matT3 W 0 k j := by
  rw [val_main_v31_apply, val_main_v7_apply, val_main_v6_apply]
  show W _ = W (ix3 0 j k)
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- Layer 0, the weights of the neighbour mean. -/
theorem nbrW0 (W : FVec Ideal S2x128x128 .f32) (k j : Fin 128) :
    val_main_v33 (F := Ideal) W (ix2 k j) = Spec.matT3 W 0 k j := by
  rw [val_main_v33_apply, val_main_v9_apply, val_main_v8_apply]
  show W _ = W (ix3 0 j k)
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- Layer 1, the weights of the row itself. -/
theorem selfW1 (W : FVec Ideal S2x128x128 .f32) (k j : Fin 128) :
    val_main_v65 (F := Ideal) W (ix2 k j) = Spec.matT3 W 1 k j := by
  rw [val_main_v65_apply, val_main_v41_apply, val_main_v40_apply]
  show W _ = W (ix3 1 j k)
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- Layer 1, the weights of the neighbour mean. -/
theorem nbrW1 (W : FVec Ideal S2x128x128 .f32) (k j : Fin 128) :
    val_main_v67 (F := Ideal) W (ix2 k j) = Spec.matT3 W 1 k j := by
  rw [val_main_v67_apply, val_main_v43_apply, val_main_v42_apply]
  show W _ = W (ix3 1 j k)
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The weights of the last linear map, transposed. -/
theorem outW (W : FVec Ideal S128x128 .f32) (k j : Fin 128) :
    val_main_v73 (F := Ideal) W (ix2 k j) = Spec.matT W k j := by
  rw [val_main_v73_apply]
  show W _ = W (ix2 j k)
  congr 1
  funext a
  apply Fin.ext
  match a with
  | ⟨0, _⟩ => rfl
  | ⟨1, _⟩ => rfl

/-- Layer 0's bias: row 0 of the stacked biases, the same under every row of the array. -/
theorem bias0 (b : FVec Ideal S2x128 .f32) (r : Fin 100000) (j : Fin 128) :
    val_main_v37 (F := Ideal) b (ix2 r j) = Spec.row2 b 0 j := by
  rw [val_main_v37_apply, val_main_v36_apply, val_main_v11_apply, val_main_v10_apply]
  show b _ = b (ix2 0 j)
  congr 1
  funext a
  apply Fin.ext
  have hj := j.isLt
  match a with
  | ⟨0, _⟩ => rfl
  | ⟨1, _⟩ => show j.val % 128 = j.val; omega

/-- Layer 1's bias: row 1 of the stacked biases, the same under every row of the array. -/
theorem bias1 (b : FVec Ideal S2x128 .f32) (r : Fin 100000) (j : Fin 128) :
    val_main_v71 (F := Ideal) b (ix2 r j) = Spec.row2 b 1 j := by
  rw [val_main_v71_apply, val_main_v70_apply, val_main_v45_apply, val_main_v44_apply]
  show b _ = b (ix2 1 j)
  congr 1
  funext a
  apply Fin.ext
  have hj := j.isLt
  match a with
  | ⟨0, _⟩ => rfl
  | ⟨1, _⟩ => show j.val % 128 = j.val; omega

/-- The bias of the last linear map, the same under every row of the array. -/
theorem outBias (b : FVec Ideal S128 .f32) (r : Fin 100000) (j : Fin 128) :
    val_main_v76 (F := Ideal) b (ix2 r j) = Spec.row1 b j := by
  rw [val_main_v76_apply, val_main_v75_apply]
  show b _ = b (ix1 j)
  congr 1
  funext a
  apply Fin.ext
  match a with
  | ⟨0, _⟩ => rfl

/-! ## The stages, one row at a time

A product of the `[100000, 128]` array with a `[128, 128]` matrix pairs feature `k` of row `r` with entry `(k, j)` of the
matrix; with the matrices and biases above, each stage at `(r, j)` is the row-wise function of the specification. -/

/-- Layer 0 before the rectifier: the row's product, the neighbour mean's product, and the bias. -/
theorem layer0 (x0 : FVec Ideal S10000x128 .f32) (x1 : FVec Ideal S100000x128 .f32) (x2 : FVec Ideal S10000x128 .f32) (x4 : IVec S1600000 32) (x5 : IVec S1600000 32) (x8 : FVec Ideal S2x128x128 .f32) (x9 : FVec Ideal S2x128x128 .f32) (x10 : FVec Ideal S2x128 .f32) (x20 : FVec Ideal S128x256 .f32) (x21 : FVec Ideal S128 .f32) (NB : FVec Ideal S100000x128 .f32)
    (h30 : val_main_v30 (F := Ideal) x0 x2 x4 x5 x20 x21 = NB) (r : Fin 100000) (j : Fin 128) :
    val_main_v38 (F := Ideal) x0 x1 x2 x4 x5 x8 x9 x10 x20 x21 (ix2 r j)
      = Spec.lin2 (Spec.rowOf x1 r) (Spec.rowOf NB r) (Spec.matT3 x8 0) (Spec.matT3 x9 0) (Spec.row2 x10 0) j := by
  have el32 : ∀ k : Fin 128, lidx_main_v32 (ix2 r j) k = ix2 r k := fun k =>
    funext fun a => Fin.ext (by match a with | ⟨0, _⟩ => rfl | ⟨1, _⟩ => rfl)
  have er32 : ∀ k : Fin 128, ridx_main_v32 (ix2 r j) k = ix2 k j := fun k =>
    funext fun a => Fin.ext (by match a with | ⟨0, _⟩ => rfl | ⟨1, _⟩ => rfl)
  have el34 : ∀ k : Fin 128, lidx_main_v34 (ix2 r j) k = ix2 r k := fun k =>
    funext fun a => Fin.ext (by match a with | ⟨0, _⟩ => rfl | ⟨1, _⟩ => rfl)
  have er34 : ∀ k : Fin 128, ridx_main_v34 (ix2 r j) k = ix2 k j := fun k =>
    funext fun a => Fin.ext (by match a with | ⟨0, _⟩ => rfl | ⟨1, _⟩ => rfl)
  rw [val_main_v38_apply, val_main_v35_apply, val_main_v32_apply, val_main_v34_apply, h30, bias0]
  simp only [el32, er32, el34, er34, selfW0, nbrW0, Ideal.addf_def]
  rfl

/-- Layer 0 after the rectifier: the larger of the value and the zero word. -/
theorem layer0_relu (x0 : FVec Ideal S10000x128 .f32) (x1 : FVec Ideal S100000x128 .f32) (x2 : FVec Ideal S10000x128 .f32) (x4 : IVec S1600000 32) (x5 : IVec S1600000 32) (x8 : FVec Ideal S2x128x128 .f32) (x9 : FVec Ideal S2x128x128 .f32) (x10 : FVec Ideal S2x128 .f32) (x20 : FVec Ideal S128x256 .f32) (x21 : FVec Ideal S128 .f32) (NB : FVec Ideal S100000x128 .f32)
    (h30 : val_main_v30 (F := Ideal) x0 x2 x4 x5 x20 x21 = NB) (r : Fin 100000) (j : Fin 128) :
    val_main_v39 (F := Ideal) x0 x1 x2 x4 x5 x8 x9 x10 x20 x21 (ix2 r j)
      = Spec.relu0 (Spec.lin2 (Spec.rowOf x1 r) (Spec.rowOf NB r) (Spec.matT3 x8 0) (Spec.matT3 x9 0) (Spec.row2 x10 0)) j := by
  rw [val_main_v39_apply, layer0 x0 x1 x2 x4 x5 x8 x9 x10 x20 x21 NB h30, val_main_call0_v0_apply, val_main_call0_cst_apply]
  rfl

/-- Layer 1: the same two products and bias with block 1 of the weights, over the rectified layer 0. -/
theorem layer1 (x0 : FVec Ideal S10000x128 .f32) (x1 : FVec Ideal S100000x128 .f32) (x2 : FVec Ideal S10000x128 .f32) (x4 : IVec S1600000 32) (x5 : IVec S1600000 32) (x8 : FVec Ideal S2x128x128 .f32) (x9 : FVec Ideal S2x128x128 .f32) (x10 : FVec Ideal S2x128 .f32) (x20 : FVec Ideal S128x256 .f32) (x21 : FVec Ideal S128 .f32) (NB : FVec Ideal S100000x128 .f32)
    (h30 : val_main_v30 (F := Ideal) x0 x2 x4 x5 x20 x21 = NB) (h64 : val_main_v64 (F := Ideal) x0 x2 x4 x5 x20 x21 = NB) (r : Fin 100000) (j : Fin 128) :
    val_main_v72 (F := Ideal) x0 x1 x2 x4 x5 x8 x9 x10 x20 x21 (ix2 r j)
      = Spec.lin2 (Spec.relu0 (Spec.lin2 (Spec.rowOf x1 r) (Spec.rowOf NB r) (Spec.matT3 x8 0) (Spec.matT3 x9 0) (Spec.row2 x10 0))) (Spec.rowOf NB r) (Spec.matT3 x8 1) (Spec.matT3 x9 1) (Spec.row2 x10 1) j := by
  have el66 : ∀ k : Fin 128, lidx_main_v66 (ix2 r j) k = ix2 r k := fun k =>
    funext fun a => Fin.ext (by match a with | ⟨0, _⟩ => rfl | ⟨1, _⟩ => rfl)
  have er66 : ∀ k : Fin 128, ridx_main_v66 (ix2 r j) k = ix2 k j := fun k =>
    funext fun a => Fin.ext (by match a with | ⟨0, _⟩ => rfl | ⟨1, _⟩ => rfl)
  have el68 : ∀ k : Fin 128, lidx_main_v68 (ix2 r j) k = ix2 r k := fun k =>
    funext fun a => Fin.ext (by match a with | ⟨0, _⟩ => rfl | ⟨1, _⟩ => rfl)
  have er68 : ∀ k : Fin 128, ridx_main_v68 (ix2 r j) k = ix2 k j := fun k =>
    funext fun a => Fin.ext (by match a with | ⟨0, _⟩ => rfl | ⟨1, _⟩ => rfl)
  rw [val_main_v72_apply, val_main_v69_apply, val_main_v66_apply, val_main_v68_apply, h64, bias1]
  simp only [el66, er66, el68, er68, selfW1, nbrW1, layer0_relu x0 x1 x2 x4 x5 x8 x9 x10 x20 x21 NB h30, Ideal.addf_def]
  rfl

/-- Two SAGE layers over the same neighbour means `NB` (the reference computes them twice), then `w2`. -/
theorem HI_ref (x0 : FVec Ideal S10000x128 .f32) (x1 : FVec Ideal S100000x128 .f32) (x2 : FVec Ideal S10000x128 .f32) (x4 : IVec S1600000 32) (x5 : IVec S1600000 32) (x8 : FVec Ideal S2x128x128 .f32) (x9 : FVec Ideal S2x128x128 .f32) (x10 : FVec Ideal S2x128 .f32) (x16 : FVec Ideal S128x128 .f32) (x17 : FVec Ideal S128 .f32) (x20 : FVec Ideal S128x256 .f32) (x21 : FVec Ideal S128 .f32) (NB : FVec Ideal S100000x128 .f32)
    (h30 : val_main_v30 (F := Ideal) x0 x2 x4 x5 x20 x21 = NB) (h64 : val_main_v64 (F := Ideal) x0 x2 x4 x5 x20 x21 = NB) :
    val_main_v77 (F := Ideal) x0 x1 x2 x4 x5 x8 x9 x10 x16 x17 x20 x21 = Spec.HI x1 NB x8 x9 x10 x16 x17 := by
  funext i
  obtain ⟨r, j, rfl⟩ : ∃ (r : Fin 100000) (j : Fin 128), i = ix2 r j := ⟨i 0, i 1, eq_ix2 i⟩
  have el74 : ∀ k : Fin 128, lidx_main_v74 (ix2 r j) k = ix2 r k := fun k =>
    funext fun a => Fin.ext (by match a with | ⟨0, _⟩ => rfl | ⟨1, _⟩ => rfl)
  have er74 : ∀ k : Fin 128, ridx_main_v74 (ix2 r j) k = ix2 k j := fun k =>
    funext fun a => Fin.ext (by match a with | ⟨0, _⟩ => rfl | ⟨1, _⟩ => rfl)
  rw [val_main_v77_apply, val_main_v74_apply, outBias]
  simp only [el74, er74, outW, layer1 x0 x1 x2 x4 x5 x8 x9 x10 x20 x21 NB h30 h64, Ideal.addf_def]
  rfl

end Cert.ReferenceIdeal.RStageB

end
-- ==== Proof.RStageC.lean ====
/-
  The reference's employee-to-employee stack, `w3`, the join with `h_iI` and the leaky rectifier, read index by index.
-/
import proofs.«428482_j83468394431314_1_alg».proof.Proof.Gen.ReferenceIdeal.Read
import proofs.«428482_j83468394431314_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RStageC

open Cert.ReferenceIdeal Cert.ReferenceIdeal.Gen Cert.ReferenceIdeal.Read
open Idealize.ShloMosaic Idealize.ShloMosaic.TcCoe Idealize.ShloMosaic.ValueIdx Idealize.SL.Sem

/-! ## The weight matrices and bias rows as the products meet them

A slice of one layer out of a stacked `[2, 128, 128]` array, flattened to `[128, 128]` and transposed, holds at
`(k, j)` the stacked array's entry `(layer, j, k)`: the row-major position `j * 128 + k` splits back into `j` and `k`. -/

theorem w112 (x11 : FVec Ideal S2x128x128 .f32) (k j : Fin 128) :
    val_main_v112 (F := Ideal) x11 (ix2 k j) = Spec.matT3 x11 0 k j := by
  rw [val_main_v112_apply, val_main_v85_apply, val_main_v84_apply]
  unfold Spec.matT3
  refine congrArg x11 (funext fun a => Fin.ext ?_)
  match a with
  | ⟨0, _⟩ => rfl
  | ⟨1, _⟩ => show (j.val * 128 + k.val) / 128 % 128 = j.val; omega
  | ⟨2, _⟩ => show (j.val * 128 + k.val) % 128 = k.val; omega

theorem w114 (x12 : FVec Ideal S2x128x128 .f32) (k j : Fin 128) :
    val_main_v114 (F := Ideal) x12 (ix2 k j) = Spec.matT3 x12 0 k j := by
  rw [val_main_v114_apply, val_main_v87_apply, val_main_v86_apply]
  unfold Spec.matT3
  refine congrArg x12 (funext fun a => Fin.ext ?_)
  match a with
  | ⟨0, _⟩ => rfl
  | ⟨1, _⟩ => show (j.val * 128 + k.val) / 128 % 128 = j.val; omega
  | ⟨2, _⟩ => show (j.val * 128 + k.val) % 128 = k.val; omega

theorem w149 (x11 : FVec Ideal S2x128x128 .f32) (k j : Fin 128) :
    val_main_v149 (F := Ideal) x11 (ix2 k j) = Spec.matT3 x11 1 k j := by
  rw [val_main_v149_apply, val_main_v122_apply, val_main_v121_apply]
  unfold Spec.matT3
  refine congrArg x11 (funext fun a => Fin.ext ?_)
  match a with
  | ⟨0, _⟩ => rfl
  | ⟨1, _⟩ => show (j.val * 128 + k.val) / 128 % 128 = j.val; omega
  | ⟨2, _⟩ => show (j.val * 128 + k.val) % 128 = k.val; omega

theorem w151 (x12 : FVec Ideal S2x128x128 .f32) (k j : Fin 128) :
    val_main_v151 (F := Ideal) x12 (ix2 k j) = Spec.matT3 x12 1 k j := by
  rw [val_main_v151_apply, val_main_v124_apply, val_main_v123_apply]
  unfold Spec.matT3
  refine congrArg x12 (funext fun a => Fin.ext ?_)
  match a with
  | ⟨0, _⟩ => rfl
  | ⟨1, _⟩ => show (j.val * 128 + k.val) / 128 % 128 = j.val; omega
  | ⟨2, _⟩ => show (j.val * 128 + k.val) % 128 = k.val; omega

/-- The transposed `[128, 128]` matrix of `w3`. -/
theorem w157 (x18 : FVec Ideal S128x128 .f32) (k j : Fin 128) :
    val_main_v157 (F := Ideal) x18 (ix2 k j) = Spec.matT x18 k j := by
  rw [val_main_v157_apply]
  unfold Spec.matT
  refine congrArg x18 (funext fun a => Fin.ext ?_)
  match a with
  | ⟨0, _⟩ => rfl
  | ⟨1, _⟩ => rfl

/-- The transposed `[128, 256]` matrix of the join: row `k` of the transpose is column `k` of the matrix. -/
theorem w163 (x22 : FVec Ideal S128x256 .f32) (k : Fin 256) (j : Fin 128) :
    val_main_v163 (F := Ideal) x22 (ix2 k j) = x22 (ix2 j k) := by
  rw [val_main_v163_apply]
  refine congrArg x22 (funext fun a => Fin.ext ?_)
  match a with
  | ⟨0, _⟩ => rfl
  | ⟨1, _⟩ => rfl

/-- A bias row sliced out of a stacked `[2, 128]` array and broadcast down the rows. -/
theorem b118 (x13 : FVec Ideal S2x128 .f32) (r : Fin 100000) (j : Fin 128) :
    val_main_v118 (F := Ideal) x13 (ix2 r j) = Spec.row2 x13 0 j := by
  rw [val_main_v118_apply, val_main_v117_apply, val_main_v89_apply, val_main_v88_apply]
  unfold Spec.row2
  refine congrArg x13 (funext fun a => Fin.ext ?_)
  match a with
  | ⟨0, _⟩ => rfl
  | ⟨1, _⟩ => show j.val % 128 = j.val; omega

theorem b155 (x13 : FVec Ideal S2x128 .f32) (r : Fin 100000) (j : Fin 128) :
    val_main_v155 (F := Ideal) x13 (ix2 r j) = Spec.row2 x13 1 j := by
  rw [val_main_v155_apply, val_main_v154_apply, val_main_v126_apply, val_main_v125_apply]
  unfold Spec.row2
  refine congrArg x13 (funext fun a => Fin.ext ?_)
  match a with
  | ⟨0, _⟩ => rfl
  | ⟨1, _⟩ => show j.val % 128 = j.val; omega

/-- A `[128]` bias broadcast down the rows. -/
theorem b160 (x19 : FVec Ideal S128 .f32) (r : Fin 100000) (j : Fin 128) :
    val_main_v160 (F := Ideal) x19 (ix2 r j) = Spec.row1 x19 j := by
  rw [val_main_v160_apply, val_main_v159_apply]
  unfold Spec.row1
  refine congrArg x19 (funext fun a => Fin.ext ?_)
  match a with
  | ⟨0, _⟩ => rfl

theorem b166 (x23 : FVec Ideal S128 .f32) (r : Fin 100000) (j : Fin 128) :
    val_main_v166 (F := Ideal) x23 (ix2 r j) = Spec.row1 x23 j := by
  rw [val_main_v166_apply, val_main_v165_apply]
  unfold Spec.row1
  refine congrArg x23 (funext fun a => Fin.ext ?_)
  match a with
  | ⟨0, _⟩ => rfl

/-! ## The stages, one row at a time -/

section Stages

variable {x0 : FVec Ideal S10000x128 .f32} {x1 : FVec Ideal S100000x128 .f32} {x2 : FVec Ideal S10000x128 .f32}
  {x3 : FVec Ideal S1600000 .f32} {x4 x5 x6 x7 : IVec S1600000 32}
  {x8 x9 : FVec Ideal S2x128x128 .f32} {x10 : FVec Ideal S2x128 .f32}
  {x11 x12 : FVec Ideal S2x128x128 .f32} {x13 : FVec Ideal S2x128 .f32}
  {x14 : FVec Ideal S128x256 .f32} {x15 : FVec Ideal S128 .f32} {x16 : FVec Ideal S128x128 .f32} {x17 : FVec Ideal S128 .f32}
  {x18 : FVec Ideal S128x128 .f32} {x19 : FVec Ideal S128 .f32} {x20 : FVec Ideal S128x256 .f32} {x21 : FVec Ideal S128 .f32}
  {x22 : FVec Ideal S128x256 .f32} {x23 : FVec Ideal S128 .f32} {NC HIa : FVec Ideal S100000x128 .f32}

/-- Two rank-2 indices with the same two coordinates are equal. -/
local macro "idx2" : tactic =>
  `(tactic| exact funext fun a => Fin.ext (by match a with | ⟨0, _⟩ => rfl | ⟨1, _⟩ => rfl))

/-- The first layer's product of the employee row with its own weights. -/
theorem d113 (r : Fin 100000) (j : Fin 128) :
    val_main_v113 (F := Ideal) x1 x11 (ix2 r j) = Spec.rmm (Spec.rowOf x1 r) (Spec.matT3 x11 0) j := by
  rw [val_main_v113_apply]
  refine Finset.sum_congr rfl fun k _ => ?_
  have el : lidx_main_v113 (ix2 r j) k = ix2 r k := by idx2
  have er : ridx_main_v113 (ix2 r j) k = ix2 k j := by idx2
  rw [el, er, w112]
  rfl

/-- The first layer's product of the neighbour mean with the neighbour weights. -/
theorem d115 (h111 : val_main_v111 (F := Ideal) x0 x1 x2 x3 x4 x5 x6 x7 x8 x9 x10 x14 x15 x16 x17 x20 x21 = NC) (r : Fin 100000) (j : Fin 128) :
    val_main_v115 (F := Ideal) x0 x1 x2 x3 x4 x5 x6 x7 x8 x9 x10 x12 x14 x15 x16 x17 x20 x21 (ix2 r j) = Spec.rmm (Spec.rowOf NC r) (Spec.matT3 x12 0) j := by
  rw [val_main_v115_apply, h111]
  refine Finset.sum_congr rfl fun k _ => ?_
  have el : lidx_main_v115 (ix2 r j) k = ix2 r k := by idx2
  have er : ridx_main_v115 (ix2 r j) k = ix2 k j := by idx2
  rw [el, er, w114]
  rfl

/-- The first layer before the rectifier. -/
theorem s119 (h111 : val_main_v111 (F := Ideal) x0 x1 x2 x3 x4 x5 x6 x7 x8 x9 x10 x14 x15 x16 x17 x20 x21 = NC) (r : Fin 100000) (j : Fin 128) :
    val_main_v119 (F := Ideal) x0 x1 x2 x3 x4 x5 x6 x7 x8 x9 x10 x11 x12 x13 x14 x15 x16 x17 x20 x21 (ix2 r j) = Spec.lin2 (Spec.rowOf x1 r) (Spec.rowOf NC r) (Spec.matT3 x11 0) (Spec.matT3 x12 0) (Spec.row2 x13 0) j := by
  rw [val_main_v119_apply, val_main_v116_apply, d113, d115 h111, b118]
  rfl

/-- The first layer, rectified against the zero word. -/
theorem s120 (h111 : val_main_v111 (F := Ideal) x0 x1 x2 x3 x4 x5 x6 x7 x8 x9 x10 x14 x15 x16 x17 x20 x21 = NC) (r : Fin 100000) (j : Fin 128) :
    val_main_v120 (F := Ideal) x0 x1 x2 x3 x4 x5 x6 x7 x8 x9 x10 x11 x12 x13 x14 x15 x16 x17 x20 x21 (ix2 r j) = Spec.relu0 (Spec.lin2 (Spec.rowOf x1 r) (Spec.rowOf NC r) (Spec.matT3 x11 0) (Spec.matT3 x12 0) (Spec.row2 x13 0)) j := by
  rw [val_main_v120_apply, s119 h111, val_main_call1_v0_apply, val_main_call1_cst_apply]
  rfl

/-- The second layer's product of the rectified row with its own weights. -/
theorem d150 (h111 : val_main_v111 (F := Ideal) x0 x1 x2 x3 x4 x5 x6 x7 x8 x9 x10 x14 x15 x16 x17 x20 x21 = NC) (r : Fin 100000) (j : Fin 128) :
    val_main_v150 (F := Ideal) x0 x1 x2 x3 x4 x5 x6 x7 x8 x9 x10 x11 x12 x13 x14 x15 x16 x17 x20 x21 (ix2 r j) = Spec.rmm (Spec.relu0 (Spec.lin2 (Spec.rowOf x1 r) (Spec.rowOf NC r) (Spec.matT3 x11 0) (Spec.matT3 x12 0) (Spec.row2 x13 0))) (Spec.matT3 x11 1) j := by
  rw [val_main_v150_apply]
  refine Finset.sum_congr rfl fun k _ => ?_
  have el : lidx_main_v150 (ix2 r j) k = ix2 r k := by idx2
  have er : ridx_main_v150 (ix2 r j) k = ix2 k j := by idx2
  rw [el, er, s120 h111, w149]

/-- The second layer's product of the neighbour mean with the neighbour weights. -/
theorem d152 (h148 : val_main_v148 (F := Ideal) x0 x1 x2 x3 x4 x5 x6 x7 x8 x9 x10 x14 x15 x16 x17 x20 x21 = NC) (r : Fin 100000) (j : Fin 128) :
    val_main_v152 (F := Ideal) x0 x1 x2 x3 x4 x5 x6 x7 x8 x9 x10 x12 x14 x15 x16 x17 x20 x21 (ix2 r j) = Spec.rmm (Spec.rowOf NC r) (Spec.matT3 x12 1) j := by
  rw [val_main_v152_apply, h148]
  refine Finset.sum_congr rfl fun k _ => ?_
  have el : lidx_main_v152 (ix2 r j) k = ix2 r k := by idx2
  have er : ridx_main_v152 (ix2 r j) k = ix2 k j := by idx2
  rw [el, er, w151]
  rfl

/-- The second layer. -/
theorem s156 (h111 : val_main_v111 (F := Ideal) x0 x1 x2 x3 x4 x5 x6 x7 x8 x9 x10 x14 x15 x16 x17 x20 x21 = NC) (h148 : val_main_v148 (F := Ideal) x0 x1 x2 x3 x4 x5 x6 x7 x8 x9 x10 x14 x15 x16 x17 x20 x21 = NC) (r : Fin 100000) (j : Fin 128) :
    val_main_v156 (F := Ideal) x0 x1 x2 x3 x4 x5 x6 x7 x8 x9 x10 x11 x12 x13 x14 x15 x16 x17 x20 x21 (ix2 r j) = Spec.lin2 (Spec.relu0 (Spec.lin2 (Spec.rowOf x1 r) (Spec.rowOf NC r) (Spec.matT3 x11 0) (Spec.matT3 x12 0) (Spec.row2 x13 0))) (Spec.rowOf NC r) (Spec.matT3 x11 1) (Spec.matT3 x12 1) (Spec.row2 x13 1) j := by
  rw [val_main_v156_apply, val_main_v153_apply, d150 h111, d152 h148, b155]
  rfl

/-- The product of the second layer's row with `w3`. -/
theorem d158 (h111 : val_main_v111 (F := Ideal) x0 x1 x2 x3 x4 x5 x6 x7 x8 x9 x10 x14 x15 x16 x17 x20 x21 = NC) (h148 : val_main_v148 (F := Ideal) x0 x1 x2 x3 x4 x5 x6 x7 x8 x9 x10 x14 x15 x16 x17 x20 x21 = NC) (r : Fin 100000) (j : Fin 128) :
    val_main_v158 (F := Ideal) x0 x1 x2 x3 x4 x5 x6 x7 x8 x9 x10 x11 x12 x13 x14 x15 x16 x17 x18 x20 x21 (ix2 r j) = Spec.rmm (Spec.lin2 (Spec.relu0 (Spec.lin2 (Spec.rowOf x1 r) (Spec.rowOf NC r) (Spec.matT3 x11 0) (Spec.matT3 x12 0) (Spec.row2 x13 0))) (Spec.rowOf NC r) (Spec.matT3 x11 1) (Spec.matT3 x12 1) (Spec.row2 x13 1)) (Spec.matT x18) j := by
  rw [val_main_v158_apply]
  refine Finset.sum_congr rfl fun k _ => ?_
  have el : lidx_main_v158 (ix2 r j) k = ix2 r k := by idx2
  have er : ridx_main_v158 (ix2 r j) k = ix2 k j := by idx2
  rw [el, er, s156 h111 h148, w157]

/-- The two layers and `w3` with its bias. -/
theorem s161 (h111 : val_main_v111 (F := Ideal) x0 x1 x2 x3 x4 x5 x6 x7 x8 x9 x10 x14 x15 x16 x17 x20 x21 = NC) (h148 : val_main_v148 (F := Ideal) x0 x1 x2 x3 x4 x5 x6 x7 x8 x9 x10 x14 x15 x16 x17 x20 x21 = NC) (r : Fin 100000) (j : Fin 128) :
    val_main_v161 (F := Ideal) x0 x1 x2 x3 x4 x5 x6 x7 x8 x9 x10 x11 x12 x13 x14 x15 x16 x17 x18 x19 x20 x21 (ix2 r j) = Spec.sage2 (Spec.rowOf x1 r) (Spec.rowOf NC r) (Spec.matT3 x11 0) (Spec.matT3 x12 0) (Spec.row2 x13 0) (Spec.matT3 x11 1) (Spec.matT3 x12 1) (Spec.row2 x13 1) (Spec.matT x18) (Spec.row1 x19) j := by
  rw [val_main_v161_apply, d158 h111 h148, b160]
  rfl

/-- The joined row's first 128 features are `HIa`'s row. -/
theorem c162_lo (h77 : val_main_v77 (F := Ideal) x0 x1 x2 x4 x5 x8 x9 x10 x16 x17 x20 x21 = HIa) (r : Fin 100000) (k : Fin 128) :
    val_main_v162 (F := Ideal) x0 x1 x2 x3 x4 x5 x6 x7 x8 x9 x10 x11 x12 x13 x14 x15 x16 x17 x18 x19 x20 x21 (ix2 r (Fin.castAdd 128 k)) = HIa (ix2 r k) := by
  unfold val_main_v162
  rw [h77]
  exact concatenate_pair_apply_left 1 _ _ concatenates_S100000x128_S100000x128_S100000x256_d1 _ rfl (ix2 r k)
    (fun b => match b with | ⟨0, _⟩ => rfl | ⟨1, _⟩ => rfl)

/-- The joined row's last 128 features are the row after `w3`. -/
theorem c162_hi (h111 : val_main_v111 (F := Ideal) x0 x1 x2 x3 x4 x5 x6 x7 x8 x9 x10 x14 x15 x16 x17 x20 x21 = NC) (h148 : val_main_v148 (F := Ideal) x0 x1 x2 x3 x4 x5 x6 x7 x8 x9 x10 x14 x15 x16 x17 x20 x21 = NC) (r : Fin 100000) (k : Fin 128) :
    val_main_v162 (F := Ideal) x0 x1 x2 x3 x4 x5 x6 x7 x8 x9 x10 x11 x12 x13 x14 x15 x16 x17 x18 x19 x20 x21 (ix2 r (Fin.natAdd 128 k)) = Spec.sage2 (Spec.rowOf x1 r) (Spec.rowOf NC r) (Spec.matT3 x11 0) (Spec.matT3 x12 0) (Spec.row2 x13 0) (Spec.matT3 x11 1) (Spec.matT3 x12 1) (Spec.row2 x13 1) (Spec.matT x18) (Spec.row1 x19) k := by
  refine Eq.trans ?_ (s161 h111 h148 r k)
  unfold val_main_v162
  refine concatenate_pair_apply_right 1 _ _ concatenates_S100000x128_S100000x128_S100000x256_d1 _ rfl rfl (ix2 r k) ?_ ?_
  · intro b hb
    match b, hb with
    | ⟨0, _⟩, _ => rfl
    | ⟨1, _⟩, hb => exact absurd rfl hb
  · show k.val + 128 = 128 + k.val
    omega

/-- The product of the joined row with the join's matrix is the two products over the two halves. -/
theorem d164 (h77 : val_main_v77 (F := Ideal) x0 x1 x2 x4 x5 x8 x9 x10 x16 x17 x20 x21 = HIa) (h111 : val_main_v111 (F := Ideal) x0 x1 x2 x3 x4 x5 x6 x7 x8 x9 x10 x14 x15 x16 x17 x20 x21 = NC) (h148 : val_main_v148 (F := Ideal) x0 x1 x2 x3 x4 x5 x6 x7 x8 x9 x10 x14 x15 x16 x17 x20 x21 = NC) (r : Fin 100000) (j : Fin 128) :
    val_main_v164 (F := Ideal) x0 x1 x2 x3 x4 x5 x6 x7 x8 x9 x10 x11 x12 x13 x14 x15 x16 x17 x18 x19 x20 x21 x22 (ix2 r j) =
      Spec.rmm (Spec.rowOf HIa r) (Spec.matTlo x22) j + Spec.rmm (Spec.sage2 (Spec.rowOf x1 r) (Spec.rowOf NC r) (Spec.matT3 x11 0) (Spec.matT3 x12 0) (Spec.row2 x13 0) (Spec.matT3 x11 1) (Spec.matT3 x12 1) (Spec.row2 x13 1) (Spec.matT x18) (Spec.row1 x19)) (Spec.matThi x22) j := by
  rw [val_main_v164_apply]
  refine (Spec.sum_join _).trans ?_
  refine congrArg₂ (· + ·) ?_ ?_
  · refine Finset.sum_congr rfl fun k _ => ?_
    have el : lidx_main_v164 (ix2 r j) (Fin.castAdd 128 k) = (ix2 r (Fin.castAdd 128 k) : S100000x256.Idx) := by idx2
    have er : ridx_main_v164 (ix2 r j) (Fin.castAdd 128 k) = (ix2 (Fin.castAdd 128 k) j : S256x128.Idx) := by idx2
    rw [el, er, c162_lo h77, w163]
    rfl
  · refine Finset.sum_congr rfl fun k _ => ?_
    have el : lidx_main_v164 (ix2 r j) (Fin.natAdd 128 k) = (ix2 r (Fin.natAdd 128 k) : S100000x256.Idx) := by idx2
    have er : ridx_main_v164 (ix2 r j) (Fin.natAdd 128 k) = (ix2 (Fin.natAdd 128 k) j : S256x128.Idx) := by idx2
    rw [el, er, c162_hi h111 h148, w163]
    rfl

/-- The join with its bias. -/
theorem s167 (h77 : val_main_v77 (F := Ideal) x0 x1 x2 x4 x5 x8 x9 x10 x16 x17 x20 x21 = HIa) (h111 : val_main_v111 (F := Ideal) x0 x1 x2 x3 x4 x5 x6 x7 x8 x9 x10 x14 x15 x16 x17 x20 x21 = NC) (h148 : val_main_v148 (F := Ideal) x0 x1 x2 x3 x4 x5 x6 x7 x8 x9 x10 x14 x15 x16 x17 x20 x21 = NC) (r : Fin 100000) (j : Fin 128) :
    val_main_v167 (F := Ideal) x0 x1 x2 x3 x4 x5 x6 x7 x8 x9 x10 x11 x12 x13 x14 x15 x16 x17 x18 x19 x20 x21 x22 x23 (ix2 r j) = Spec.lin2 (Spec.rowOf HIa r) (Spec.sage2 (Spec.rowOf x1 r) (Spec.rowOf NC r) (Spec.matT3 x11 0) (Spec.matT3 x12 0) (Spec.row2 x13 0) (Spec.matT3 x11 1) (Spec.matT3 x12 1) (Spec.row2 x13 1) (Spec.matT x18) (Spec.row1 x19)) (Spec.matTlo x22) (Spec.matThi x22) (Spec.row1 x23) j := by
  rw [val_main_v167_apply, d164 h77 h111 h148, b166]
  rfl

/-- The leaky rectifier: the join where it is at least the zero word, the slope word times it elsewhere. -/
theorem s172 (h77 : val_main_v77 (F := Ideal) x0 x1 x2 x4 x5 x8 x9 x10 x16 x17 x20 x21 = HIa) (h111 : val_main_v111 (F := Ideal) x0 x1 x2 x3 x4 x5 x6 x7 x8 x9 x10 x14 x15 x16 x17 x20 x21 = NC) (h148 : val_main_v148 (F := Ideal) x0 x1 x2 x3 x4 x5 x6 x7 x8 x9 x10 x14 x15 x16 x17 x20 x21 = NC) (r : Fin 100000) (j : Fin 128) :
    val_main_v172 (F := Ideal) x0 x1 x2 x3 x4 x5 x6 x7 x8 x9 x10 x11 x12 x13 x14 x15 x16 x17 x18 x19 x20 x21 x22 x23 (ix2 r j) = Spec.leaky (Spec.lin2 (Spec.rowOf HIa r) (Spec.sage2 (Spec.rowOf x1 r) (Spec.rowOf NC r) (Spec.matT3 x11 0) (Spec.matT3 x12 0) (Spec.row2 x13 0) (Spec.matT3 x11 1) (Spec.matT3 x12 1) (Spec.row2 x13 1) (Spec.matT x18) (Spec.row1 x19)) (Spec.matTlo x22) (Spec.matThi x22) (Spec.row1 x23)) j := by
  rw [val_main_v172_apply, val_main_v169_apply, val_main_v171_apply, val_main_v168_apply, val_main_cst_22_apply,
    val_main_v170_apply, val_main_cst_23_apply, s167 h77 h111 h148]
  rfl

end Stages

/-- Two SAGE layers over the same neighbour means `NC`, then `w3`, the join with `HIa` through the two halves of
    `comb_W`, and the leaky rectifier. -/
theorem FIN_ref (x0 : FVec Ideal S10000x128 .f32) (x1 : FVec Ideal S100000x128 .f32) (x2 : FVec Ideal S10000x128 .f32) (x3 : FVec Ideal S1600000 .f32) (x4 : IVec S1600000 32) (x5 : IVec S1600000 32) (x6 : IVec S1600000 32) (x7 : IVec S1600000 32) (x8 : FVec Ideal S2x128x128 .f32) (x9 : FVec Ideal S2x128x128 .f32) (x10 : FVec Ideal S2x128 .f32) (x11 : FVec Ideal S2x128x128 .f32) (x12 : FVec Ideal S2x128x128 .f32) (x13 : FVec Ideal S2x128 .f32) (x14 : FVec Ideal S128x256 .f32) (x15 : FVec Ideal S128 .f32) (x16 : FVec Ideal S128x128 .f32) (x17 : FVec Ideal S128 .f32) (x18 : FVec Ideal S128x128 .f32) (x19 : FVec Ideal S128 .f32) (x20 : FVec Ideal S128x256 .f32) (x21 : FVec Ideal S128 .f32) (x22 : FVec Ideal S128x256 .f32) (x23 : FVec Ideal S128 .f32) (NC HIa : FVec Ideal S100000x128 .f32)
    (h111 : val_main_v111 (F := Ideal) x0 x1 x2 x3 x4 x5 x6 x7 x8 x9 x10 x14 x15 x16 x17 x20 x21 = NC) (h148 : val_main_v148 (F := Ideal) x0 x1 x2 x3 x4 x5 x6 x7 x8 x9 x10 x14 x15 x16 x17 x20 x21 = NC)
    (h77 : val_main_v77 (F := Ideal) x0 x1 x2 x4 x5 x8 x9 x10 x16 x17 x20 x21 = HIa) :
    val_main_v172 (F := Ideal) x0 x1 x2 x3 x4 x5 x6 x7 x8 x9 x10 x11 x12 x13 x14 x15 x16 x17 x18 x19 x20 x21 x22 x23 = Spec.FIN x1 NC HIa x11 x12 x13 x18 x19 x22 x23 := by
  funext i
  obtain ⟨r, j, rfl⟩ : ∃ (r : Fin 100000) (j : Fin 128), i = ix2 r j := ⟨i 0, i 1, eq_ix2 i⟩
  exact s172 h77 h111 h148 r j

end Cert.ReferenceIdeal.RStageC

end
-- ==== Proof.RGlue.lean ====
/-
  The reference's neighbour means are the shared sparse stages of the gathered rows, when every source index is in range.
-/
import proofs.«428482_j83468394431314_1_alg».proof.Proof.Gen.ReferenceIdeal.Read
import proofs.«428482_j83468394431314_1_alg».proof.Proof.Spec
import proofs.«428482_j83468394431314_1_alg».proof.Proof.Glue
import proofs.«428482_j83468394431314_1_alg».proof.Proof.PreIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RGlue

open Cert.ReferenceIdeal Cert.ReferenceIdeal.Gen Cert.ReferenceIdeal.Read
open Idealize.ShloMosaic Idealize.ShloMosaic.TcCoe Idealize.ShloMosaic.ValueIdx Idealize.SL.Sem

/-! The two programs name the same shapes and the same gather and scatter records, each in its own namespace.
    The records have equal fields, so they are equal. -/

theorem gatherB_dims :
    Cert.ReferenceIdeal.gather_S10000x128_S1600000x1_S1600000x128_1_0_n_n_0_1_1128
      = Cert.KernelIdeal.gather_S10000x128_S1600000x1_S1600000x128_1_0_n_n_0_1_1128 := rfl

theorem gatherC_dims :
    Cert.ReferenceIdeal.gather_S100000x128_S1600000x1_S1600000x128_1_0_n_n_0_1_1128
      = Cert.KernelIdeal.gather_S100000x128_S1600000x1_S1600000x128_1_0_n_n_0_1_1128 := rfl

theorem scatterRows_dims :
    Cert.ReferenceIdeal.scatter_S100000x128_S1600000x1_S1600000x128_1_0_0_1
      = Cert.KernelIdeal.scatter_S100000x128_S1600000x1_S1600000x128_1_0_0_1 := rfl

theorem scatterCount_dims :
    Cert.ReferenceIdeal.scatter_S100000_S1600000x1_S1600000_n_0_0_1
      = Cert.KernelIdeal.scatter_S100000_S1600000x1_S1600000_n_0_0_1 := rfl

/-- Adding the table's length to the negative indices changes nothing when no index is negative. -/
theorem wrapR (idx : IVec S1600000 32) (N : Nat) (nw : BitVec 32) (h : Glue.InRange idx N) :
    select (cmpi .slt idx (broadcastInDim S1600000 ![] bcast_S_S1600000 (constantI S_ 32 0#32)))
      (addi idx (broadcastInDim S1600000 ![] bcast_S_S1600000 (constantI S_ 32 nw))) idx = idx :=
  Cert.PreIdx.wrap_eq idx N nw h

/-- The gather of the rows of a 10000-row table at a column of indices, written with this program's record,
    is the shared gather stage. -/
theorem gatherB_ref (X : FVec Ideal S10000x128 .f32) (idx : IVec S1600000 32) :
    Host.gather gather_S10000x128_S1600000x1_S1600000x128_1_0_n_n_0_1_1128 X
      (broadcastInDim S1600000x1 ![0] bcast_S1600000_S1600000x1_0 idx) = Glue.gatherB X idx := by
  unfold Glue.gatherB
  rw [gatherB_dims]

/-- The same for the 100000-row table. -/
theorem gatherC_ref (X : FVec Ideal S100000x128 .f32) (idx : IVec S1600000 32) :
    Host.gather gather_S100000x128_S1600000x1_S1600000x128_1_0_n_n_0_1_1128 X
      (broadcastInDim S1600000x1 ![0] bcast_S1600000_S1600000x1_0 idx) = Glue.gatherC X idx := by
  unfold Glue.gatherC
  rw [gatherC_dims]

/-- The product of each edge's row with the edge's weight is the shared weighting stage. -/
theorem wMul_ref (M : FVec Ideal S1600000x128 .f32) (ew : FVec Ideal S1600000 .f32) :
    mulf M (broadcastInDim S1600000x128 ![0, 1] bcast_S1600000x1_S1600000x128_0_1
      (broadcastInDim S1600000x1 ![0] bcast_S1600000_S1600000x1_0 ew)) = Glue.wMul M ew := by
  unfold Glue.wMul
  rfl

/-- The scatter-added rows over the scatter-added count floored at one, written with this program's records,
    is the shared mean stage. -/
theorem segMean_ref (M : FVec Ideal S1600000x128 .f32) (dst : IVec S1600000 32) :
    Host.divf
      (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst) M)
      (broadcastInDim S100000x128 ![0, 1] bcast_S100000x1_S100000x128_0_1
        (broadcastInDim S100000x1 ![0] bcast_S100000_S100000x1_0
          (maximumf
            (Host.scatterAdd scatter_S100000_S1600000x1_S1600000_n_0_0_1
              (broadcastInDim S100000 ![] bcast_S_S100000 (constant (F := Ideal) S_ .f32 0x00000000#32))
              (broadcastInDim S1600000x1 ![0] bcast_S1600000_S1600000x1_0 dst)
              (broadcastInDim S1600000 ![] bcast_S_S1600000 (constant (F := Ideal) S_ .f32 0x3F800000#32)))
            (broadcastInDim S100000 ![] bcast_S_S100000 (constant (F := Ideal) S_ .f32 0x3F800000#32)))))
      = Glue.segMean M dst := by
  unfold Glue.segMean
  rw [scatterRows_dims, scatterCount_dims]

/-- The first knowledge-side neighbour mean of the reference. -/
theorem v30_ref (x0 : FVec Ideal S10000x128 .f32) (x2 : FVec Ideal S10000x128 .f32) (x4 : IVec S1600000 32) (x5 : IVec S1600000 32) (x20 : FVec Ideal S128x256 .f32) (x21 : FVec Ideal S128 .f32) (h4 : Glue.InRange x4 10000) :
    val_main_v30 (F := Ideal) x0 x2 x4 x5 x20 x21 = Glue.segMean (Glue.gatherB (val_main_v5 (F := Ideal) x0 x2 x20 x21) x4) x5 := by
  simp only [val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_c, val_main_c_0, val_main_cst, val_main_cst_1,
    val_main_cst_2, val_main_cst_3]
  rw [wrapR x4 10000 10000#32 h4, gatherB_ref, segMean_ref]

theorem v64_ref (x0 : FVec Ideal S10000x128 .f32) (x2 : FVec Ideal S10000x128 .f32) (x4 : IVec S1600000 32) (x5 : IVec S1600000 32) (x20 : FVec Ideal S128x256 .f32) (x21 : FVec Ideal S128 .f32) (h4 : Glue.InRange x4 10000) :
    val_main_v64 (F := Ideal) x0 x2 x4 x5 x20 x21 = Glue.segMean (Glue.gatherB (val_main_v5 (F := Ideal) x0 x2 x20 x21) x4) x5 := by
  simp only [val_main_v64, val_main_v63, val_main_v62, val_main_v61, val_main_v60, val_main_v59, val_main_v58,
    val_main_v57, val_main_v56, val_main_v55, val_main_v54, val_main_v53, val_main_v52, val_main_v51, val_main_v50,
    val_main_v49, val_main_v48, val_main_v47, val_main_v46, val_main_c_4, val_main_c_5, val_main_cst_6, val_main_cst_7,
    val_main_cst_8, val_main_cst_9]
  rw [wrapR x4 10000 10000#32 h4, gatherB_ref, segMean_ref]

theorem v111_ref (x0 : FVec Ideal S10000x128 .f32) (x1 : FVec Ideal S100000x128 .f32) (x2 : FVec Ideal S10000x128 .f32) (x3 : FVec Ideal S1600000 .f32) (x4 : IVec S1600000 32) (x5 : IVec S1600000 32) (x6 : IVec S1600000 32) (x7 : IVec S1600000 32) (x8 : FVec Ideal S2x128x128 .f32) (x9 : FVec Ideal S2x128x128 .f32) (x10 : FVec Ideal S2x128 .f32) (x14 : FVec Ideal S128x256 .f32) (x15 : FVec Ideal S128 .f32) (x16 : FVec Ideal S128x128 .f32) (x17 : FVec Ideal S128 .f32) (x20 : FVec Ideal S128x256 .f32) (x21 : FVec Ideal S128 .f32) (h6 : Glue.InRange x6 100000) :
    val_main_v111 (F := Ideal) x0 x1 x2 x3 x4 x5 x6 x7 x8 x9 x10 x14 x15 x16 x17 x20 x21
      = Glue.segMean (Glue.wMul (Glue.gatherC (val_main_v83 (F := Ideal) x0 x1 x2 x4 x5 x8 x9 x10 x14 x15 x16 x17 x20 x21) x6) x3) x7 := by
  simp only [val_main_v111, val_main_v110, val_main_v109, val_main_v108, val_main_v107, val_main_v106, val_main_v105,
    val_main_v104, val_main_v103, val_main_v102, val_main_v101, val_main_v100, val_main_v99, val_main_v98, val_main_v97,
    val_main_v96, val_main_v95, val_main_v94, val_main_v93, val_main_v92, val_main_v91, val_main_v90, val_main_c_10,
    val_main_c_11, val_main_cst_12, val_main_cst_13, val_main_cst_14, val_main_cst_15]
  rw [wrapR x6 100000 100000#32 h6, gatherC_ref, wMul_ref, segMean_ref]

theorem v148_ref (x0 : FVec Ideal S10000x128 .f32) (x1 : FVec Ideal S100000x128 .f32) (x2 : FVec Ideal S10000x128 .f32) (x3 : FVec Ideal S1600000 .f32) (x4 : IVec S1600000 32) (x5 : IVec S1600000 32) (x6 : IVec S1600000 32) (x7 : IVec S1600000 32) (x8 : FVec Ideal S2x128x128 .f32) (x9 : FVec Ideal S2x128x128 .f32) (x10 : FVec Ideal S2x128 .f32) (x14 : FVec Ideal S128x256 .f32) (x15 : FVec Ideal S128 .f32) (x16 : FVec Ideal S128x128 .f32) (x17 : FVec Ideal S128 .f32) (x20 : FVec Ideal S128x256 .f32) (x21 : FVec Ideal S128 .f32) (h6 : Glue.InRange x6 100000) :
    val_main_v148 (F := Ideal) x0 x1 x2 x3 x4 x5 x6 x7 x8 x9 x10 x14 x15 x16 x17 x20 x21
      = Glue.segMean (Glue.wMul (Glue.gatherC (val_main_v83 (F := Ideal) x0 x1 x2 x4 x5 x8 x9 x10 x14 x15 x16 x17 x20 x21) x6) x3) x7 := by
  simp only [val_main_v148, val_main_v147, val_main_v146, val_main_v145, val_main_v144, val_main_v143, val_main_v142,
    val_main_v141, val_main_v140, val_main_v139, val_main_v138, val_main_v137, val_main_v136, val_main_v135, val_main_v134,
    val_main_v133, val_main_v132, val_main_v131, val_main_v130, val_main_v129, val_main_v128, val_main_v127, val_main_c_16,
    val_main_c_17, val_main_cst_18, val_main_cst_19, val_main_cst_20, val_main_cst_21]
  rw [wrapR x6 100000 100000#32 h6, gatherC_ref, wMul_ref, segMean_ref]

end Cert.ReferenceIdeal.RGlue

end
-- ==== Proof.RVal.lean ====
/-
  The reference program's result, as the same function of its argument arrays: its stages in program order, each over
  the stage before it.
-/
import proofs.«428482_j83468394431314_1_alg».proof.Proof.RStageA
import proofs.«428482_j83468394431314_1_alg».proof.Proof.RStageB
import proofs.«428482_j83468394431314_1_alg».proof.Proof.RStageC
import proofs.«428482_j83468394431314_1_alg».proof.Proof.RGlue

set_option maxRecDepth 16384

noncomputable section

namespace Cert.ReferenceIdeal.RVal

open Cert.ReferenceIdeal Cert.ReferenceIdeal.Gen Cert.ReferenceIdeal.Read
open Idealize.ShloMosaic

/-- The reference's last stage is the whole network's function of the arguments, when the source indices are in range. -/
theorem value (x0 : FVec Ideal S10000x128 .f32) (x1 : FVec Ideal S100000x128 .f32) (x2 : FVec Ideal S10000x128 .f32) (x3 : FVec Ideal S1600000 .f32) (x4 : IVec S1600000 32) (x5 : IVec S1600000 32) (x6 : IVec S1600000 32) (x7 : IVec S1600000 32) (x8 : FVec Ideal S2x128x128 .f32) (x9 : FVec Ideal S2x128x128 .f32) (x10 : FVec Ideal S2x128 .f32) (x11 : FVec Ideal S2x128x128 .f32) (x12 : FVec Ideal S2x128x128 .f32) (x13 : FVec Ideal S2x128 .f32) (x14 : FVec Ideal S128x256 .f32) (x15 : FVec Ideal S128 .f32) (x16 : FVec Ideal S128x128 .f32) (x17 : FVec Ideal S128 .f32) (x18 : FVec Ideal S128x128 .f32) (x19 : FVec Ideal S128 .f32) (x20 : FVec Ideal S128x256 .f32) (x21 : FVec Ideal S128 .f32) (x22 : FVec Ideal S128x256 .f32) (x23 : FVec Ideal S128 .f32) (h4 : Glue.InRange x4 10000) (h6 : Glue.InRange x6 100000) :
    val_main_v172 (F := Ideal) x0 x1 x2 x3 x4 x5 x6 x7 x8 x9 x10 x11 x12 x13 x14 x15 x16 x17 x18 x19 x20 x21 x22 x23 = Glue.OUT x0 x1 x2 x3 x4 x5 x6 x7 x8 x9 x10 x11 x12 x13 x14 x15 x16 x17 x18 x19 x20 x21 x22 x23 := by
  have e5 := RStageA.II2_ref x0 x2 x20 x21
  have e30 := (RGlue.v30_ref x0 x2 x4 x5 x20 x21 h4).trans (congrArg (fun X => Glue.segMean (Glue.gatherB X x4) x5) e5)
  have e64 := (RGlue.v64_ref x0 x2 x4 x5 x20 x21 h4).trans (congrArg (fun X => Glue.segMean (Glue.gatherB X x4) x5) e5)
  have e77 := RStageB.HI_ref x0 x1 x2 x4 x5 x8 x9 x10 x16 x17 x20 x21 _ e30 e64
  have e83 : val_main_v83 (F := Ideal) x0 x1 x2 x4 x5 x8 x9 x10 x14 x15 x16 x17 x20 x21
      = Spec.SC x1 (Glue.segMean (Glue.gatherB (Spec.II2 x0 x2 x20 x21) x4) x5) x8 x9 x10 x16 x17 x14 x15 :=
    RStageA.SC_ref x0 x1 x2 x4 x5 x8 x9 x10 x14 x15 x16 x17 x20 x21 _ e77
  have e111 := (RGlue.v111_ref x0 x1 x2 x3 x4 x5 x6 x7 x8 x9 x10 x14 x15 x16 x17 x20 x21 h6).trans
    (congrArg (fun X => Glue.segMean (Glue.wMul (Glue.gatherC X x6) x3) x7) e83)
  have e148 := (RGlue.v148_ref x0 x1 x2 x3 x4 x5 x6 x7 x8 x9 x10 x14 x15 x16 x17 x20 x21 h6).trans
    (congrArg (fun X => Glue.segMean (Glue.wMul (Glue.gatherC X x6) x3) x7) e83)
  exact RStageC.FIN_ref x0 x1 x2 x3 x4 x5 x6 x7 x8 x9 x10 x11 x12 x13 x14 x15 x16 x17 x18 x19 x20 x21 x22 x23 _ _ e111 e148 e77

end Cert.ReferenceIdeal.RVal

end
-- ==== Proof.lean ====
/-
  The certificate of `Cert.Claim`: a three-region graph network (three dense row-tiled kernels joined by two
  gather / scatter-add neighbour means) against its plain reference.

  The three frames are the generated ones (the reference's is its generated run with the result dropped) and the
  idealization's ledger is empty. The value claim: both programs compute `Glue.OUT` of their arguments. The kernel side
  reads each region's output array as the row-wise function of `Spec` of the arrays the region finds (blocks of 2000
  rows cover the tables exactly), and the host stretches between the regions as the shared gather, weighting and
  scatter-add mean; the reference side reads its stages index by index, a product over 256 concatenated features
  being the two products over 128. The one place the programs differ — the kernel gathers with a range-checked take
  that fills out-of-range rows, the reference with a clamping gather — is closed by the precondition's index ranges,
  under which the wrap of negative indices is the identity and the take's mask is everywhere true.
-/
import proofs.«428482_j83468394431314_1_alg».proof.Defs
import proofs.«428482_j83468394431314_1_alg».proof.Proof.Gen.Kernel
import proofs.«428482_j83468394431314_1_alg».proof.Proof.Gen.Kernel.Skeleton
import proofs.«428482_j83468394431314_1_alg».proof.Proof.Gen.Kernel.Launch
import proofs.«428482_j83468394431314_1_alg».proof.Proof.Gen.Kernel.Points
import proofs.«428482_j83468394431314_1_alg».proof.Proof.Gen.Kernel.Frame
import proofs.«428482_j83468394431314_1_alg».proof.Proof.Gen.KernelIdeal
import proofs.«428482_j83468394431314_1_alg».proof.Proof.Gen.KernelIdeal.Skeleton
import proofs.«428482_j83468394431314_1_alg».proof.Proof.Gen.KernelIdeal.Launch
import proofs.«428482_j83468394431314_1_alg».proof.Proof.Gen.KernelIdeal.Points
import proofs.«428482_j83468394431314_1_alg».proof.Proof.Gen.KernelIdeal.Frame
import proofs.«428482_j83468394431314_1_alg».proof.Proof.Gen.ReferenceIdeal
import proofs.«428482_j83468394431314_1_alg».proof.Proof.Gen.ReferenceIdeal.Run
import proofs.«428482_j83468394431314_1_alg».proof.Proof.Gen.ReferenceIdeal.Read
import proofs.«428482_j83468394431314_1_alg».proof.Proof.Gen.Pre_finite_inputs
import proofs.«428482_j83468394431314_1_alg».proof.Proof.KRun
import proofs.«428482_j83468394431314_1_alg».proof.Proof.KVal
import proofs.«428482_j83468394431314_1_alg».proof.Proof.RVal
import proofs.«428482_j83468394431314_1_alg».proof.Proof.PreIdx
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at `Glue.OUT` of the (agreeing) arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v82),
    Cert.KernelIdeal.KRun.run_value m ρ, ?_⟩
  refine (θ_run Cert.ReferenceIdeal.defs _ _).mono (fun r h c => ⟨(h c).1.trans ?_, (h c).2⟩)
    (Cert.ReferenceIdeal.Value.run (F := Ideal) m' ρ')
  obtain ⟨h4, h6⟩ := Cert.PreIdx.ranges m hpre c
  rw [Cert.ReferenceIdeal.Read.val_main_v172_eq]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]
  exact (Cert.ReferenceIdeal.RVal.value _ _ _ _ _ _ _ _ _ _ _ _ _ _ _ _ _ _ _ _ _ _ _ _ h4 h6).trans
    (Cert.KernelIdeal.KVal.value m ρ c h4 h6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
